-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S2x1024x1024 : Shape := ⟨3, ![2, 1024, 1024]⟩
abbrev S8 : Shape := ⟨1, ![8]⟩
abbrev S2 : Shape := ⟨1, ![2]⟩
abbrev S_ : Shape := ⟨0, ![]⟩
abbrev S1 : Shape := ⟨1, ![1]⟩
abbrev S1024x1024 : Shape := ⟨2, ![1024, 1024]⟩
abbrev S1x1024x1024 : Shape := ⟨3, ![1, 1024, 1024]⟩

abbrev nBuf : Space → Nat
  | .hbm => 2
  | .vmem => 1
  | .smem => 0
  | _ => 0

abbrev bufTy : (tb : Table) → Fin (tcTables nBuf tb) → BufTy
  | .hbm, ⟨0, _⟩ => ⟨S8192x2048, .f32⟩
  | .hbm, ⟨1, _⟩ => ⟨S16384x1024, .f32⟩
  | .local _ .vmem, ⟨0, _⟩ => ⟨S2x1024x1024, .f32⟩
  | _, _ => ⟨S8192x2048, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_8 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v18 : BitVec 32 := Scalar.muli v2 c8192_i32
  let v19 : BitVec 32 := Scalar.addi v18 c0_i32_8
  let c0_i32_15 : BitVec 32 := 0#32
  ![v19.toNat, 0]
def k0_off2 (d0 : Dev nD) : Fin 2 → Nat :=
  let c0_i32_16 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32 : BitVec 32 := 1024#32
  let v17 : BitVec 32 := Scalar.muli v9 c1024_i32
  ![0, v17.toNat]
def k0_dev2 (d0 : Dev nD) : Nat :=
  let c0_i32_12 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_11 : BitVec 32 := 16#32
  let v20 : BitVec 32 := Scalar.muli v9 c16_i32_11
  let v21 : BitVec 32 := Scalar.addi c0_i32_12 v20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v22 : BitVec 32 := Scalar.muli v5 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v24 : BitVec 32 := Scalar.muli v8 c1_i32_14
  let v25 : BitVec 32 := Scalar.addi v23 v24
  v25.toNat
def k0_off3 (d0 : Dev nD) : Fin 2 → Nat :=
  let c1024_i32_27 : BitVec 32 := 1024#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_17 : BitVec 32 := 1024#32
  let v32 : BitVec 32 := Scalar.muli v9 c1024_i32_17
  ![1024, v32.toNat]
def k0_dev3 (d0 : Dev nD) : Nat :=
  let c0_i32_23 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_22 : BitVec 32 := 16#32
  let v35 : BitVec 32 := Scalar.muli v9 c16_i32_22
  let v36 : BitVec 32 := Scalar.addi c0_i32_23 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v37 : BitVec 32 := Scalar.muli v5 c4_i32_24
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v39 : BitVec 32 := Scalar.muli v8 c1_i32_25
  let v40 : BitVec 32 := Scalar.addi v38 v39
  v40.toNat
def k0_off4 (d0 : Dev nD) : Fin 2 → Nat :=
  let c2048_i32_37 : BitVec 32 := 2048#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_28 : BitVec 32 := 1024#32
  let v47 : BitVec 32 := Scalar.muli v9 c1024_i32_28
  ![2048, v47.toNat]
def k0_dev4 (d0 : Dev nD) : Nat :=
  let c0_i32_33 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_32 : BitVec 32 := 16#32
  let v50 : BitVec 32 := Scalar.muli v9 c16_i32_32
  let v51 : BitVec 32 := Scalar.addi c0_i32_33 v50
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v52 : BitVec 32 := Scalar.muli v5 c4_i32_34
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v54 : BitVec 32 := Scalar.muli v8 c1_i32_35
  let v55 : BitVec 32 := Scalar.addi v53 v54
  v55.toNat
def k0_off5 (d0 : Dev nD) : Fin 2 → Nat :=
  let c3072_i32_46 : BitVec 32 := 3072#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_38 : BitVec 32 := 1024#32
  let v62 : BitVec 32 := Scalar.muli v9 c1024_i32_38
  ![3072, v62.toNat]
def k0_dev5 (d0 : Dev nD) : Nat :=
  let c0_i32_42 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_41 : BitVec 32 := 16#32
  let v65 : BitVec 32 := Scalar.muli v9 c16_i32_41
  let v66 : BitVec 32 := Scalar.addi c0_i32_42 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v67 : BitVec 32 := Scalar.muli v5 c4_i32_43
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v69 : BitVec 32 := Scalar.muli v8 c1_i32_44
  let v70 : BitVec 32 := Scalar.addi v68 v69
  v70.toNat
def k0_off6 (d0 : Dev nD) : Fin 2 → Nat :=
  let c4096_i32_56 : BitVec 32 := 4096#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_47 : BitVec 32 := 1024#32
  let v77 : BitVec 32 := Scalar.muli v9 c1024_i32_47
  ![4096, v77.toNat]
def k0_dev6 (d0 : Dev nD) : Nat :=
  let c0_i32_52 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_51 : BitVec 32 := 16#32
  let v80 : BitVec 32 := Scalar.muli v9 c16_i32_51
  let v81 : BitVec 32 := Scalar.addi c0_i32_52 v80
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v82 : BitVec 32 := Scalar.muli v5 c4_i32_53
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v84 : BitVec 32 := Scalar.muli v8 c1_i32_54
  let v85 : BitVec 32 := Scalar.addi v83 v84
  v85.toNat
def k0_off7 (d0 : Dev nD) : Fin 2 → Nat :=
  let c5120_i32_65 : BitVec 32 := 5120#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_57 : BitVec 32 := 1024#32
  let v92 : BitVec 32 := Scalar.muli v9 c1024_i32_57
  ![5120, v92.toNat]
def k0_dev7 (d0 : Dev nD) : Nat :=
  let c0_i32_61 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_60 : BitVec 32 := 16#32
  let v95 : BitVec 32 := Scalar.muli v9 c16_i32_60
  let v96 : BitVec 32 := Scalar.addi c0_i32_61 v95
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_62 : BitVec 32 := 4#32
  let v97 : BitVec 32 := Scalar.muli v5 c4_i32_62
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v99 : BitVec 32 := Scalar.muli v8 c1_i32_63
  let v100 : BitVec 32 := Scalar.addi v98 v99
  v100.toNat
def k0_off8 (d0 : Dev nD) : Fin 2 → Nat :=
  let c6144_i32_74 : BitVec 32 := 6144#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_66 : BitVec 32 := 1024#32
  let v107 : BitVec 32 := Scalar.muli v9 c1024_i32_66
  ![6144, v107.toNat]
def k0_dev8 (d0 : Dev nD) : Nat :=
  let c0_i32_70 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_69 : BitVec 32 := 16#32
  let v110 : BitVec 32 := Scalar.muli v9 c16_i32_69
  let v111 : BitVec 32 := Scalar.addi c0_i32_70 v110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_71 : BitVec 32 := 4#32
  let v112 : BitVec 32 := Scalar.muli v5 c4_i32_71
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v114 : BitVec 32 := Scalar.muli v8 c1_i32_72
  let v115 : BitVec 32 := Scalar.addi v113 v114
  v115.toNat
def k0_off9 (d0 : Dev nD) : Fin 2 → Nat :=
  let c7168_i32_83 : BitVec 32 := 7168#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_75 : BitVec 32 := 1024#32
  let v122 : BitVec 32 := Scalar.muli v9 c1024_i32_75
  ![7168, v122.toNat]
def k0_dev9 (d0 : Dev nD) : Nat :=
  let c0_i32_79 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_78 : BitVec 32 := 16#32
  let v125 : BitVec 32 := Scalar.muli v9 c16_i32_78
  let v126 : BitVec 32 := Scalar.addi c0_i32_79 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_80 : BitVec 32 := 4#32
  let v127 : BitVec 32 := Scalar.muli v5 c4_i32_80
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v129 : BitVec 32 := Scalar.muli v8 c1_i32_81
  let v130 : BitVec 32 := Scalar.addi v128 v129
  v130.toNat
def k0_off10 (d0 : Dev nD) : Fin 2 → Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_84 : BitVec 32 := 1024#32
  let v137 : BitVec 32 := Scalar.muli v2 c1024_i32_84
  ![0, v137.toNat]
def k0_off11 (d0 : Dev nD) : Fin 2 → Nat :=
  let c1024_i32_101 : BitVec 32 := 1024#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_96 : BitVec 32 := 1024#32
  let v149 : BitVec 32 := Scalar.muli v2 c1024_i32_96
  ![1024, v149.toNat]
def k0_off12 (d0 : Dev nD) : Fin 2 → Nat :=
  let c2048_i32_127 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_122 : BitVec 32 := 1024#32
  let v175 : BitVec 32 := Scalar.muli v2 c1024_i32_122
  ![2048, v175.toNat]
def k0_off13 (d0 : Dev nD) : Fin 2 → Nat :=
  let c3072_i32_153 : BitVec 32 := 3072#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_148 : BitVec 32 := 1024#32
  let v201 : BitVec 32 := Scalar.muli v2 c1024_i32_148
  ![3072, v201.toNat]
def k0_off14 (d0 : Dev nD) : Fin 2 → Nat :=
  let c4096_i32_179 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_174 : BitVec 32 := 1024#32
  let v227 : BitVec 32 := Scalar.muli v2 c1024_i32_174
  ![4096, v227.toNat]
def k0_off15 (d0 : Dev nD) : Fin 2 → Nat :=
  let c5120_i32_205 : BitVec 32 := 5120#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_200 : BitVec 32 := 1024#32
  let v253 : BitVec 32 := Scalar.muli v2 c1024_i32_200
  ![5120, v253.toNat]
def k0_off16 (d0 : Dev nD) : Fin 2 → Nat :=
  let c6144_i32_231 : BitVec 32 := 6144#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_226 : BitVec 32 := 1024#32
  let v279 : BitVec 32 := Scalar.muli v2 c1024_i32_226
  ![6144, v279.toNat]
def k0_off17 (d0 : Dev nD) : Fin 2 → Nat :=
  let c7168_i32_257 : BitVec 32 := 7168#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_252 : BitVec 32 := 1024#32
  let v305 : BitVec 32 := Scalar.muli v2 c1024_i32_252
  ![7168, v305.toNat]

class Facts₀ : Prop where
  hamt_1 : (1#32 : BitVec 32).msb = false
  inb_S8_S1_0 : ∀ a, (![0] : Fin 1 → Nat) a + S1.size a ≤ S8.size a
  squeezes_S1_S_ : S1.Squeezes S_
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S2_S1_0 : ∀ a, (![0] : Fin 1 → Nat) a + S1.size a ≤ S2.size a
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  inb_S2_S1_1 : ∀ a, (![1] : Fin 1 → Nat) a + S1.size a ≤ S2.size a
  inb_S2x1024x1024_S1x1024x1024_1_0_0 : ∀ a, (![1, 0, 0] : Fin 3 → Nat) a + S1x1024x1024.size a ≤ S2x1024x1024.size a
  hcc0_scratch1 : 0 + S8.numel ≤ 20
  hcc0_scratch2 : 8 + S8.numel ≤ 20
  hcc0_scratch3 : 16 + S2.numel ≤ 20
  hcc0_scratch4 : 18 + S2.numel ≤ 20
  k0_dev1_lt : ∀ d0 : Dev nD, (k0_dev1 d0) < nD
  k0_off1_inb : ∀ d0 : Dev nD, ∀ (r : Fin 8), ∀ a, (k0_off1 d0 (BitVec.ofNat 32 (1024 * r.val))) a + S1024x1024.size a ≤ S16384x1024.size a
  k0_off2_inb : ∀ d0 : Dev nD, ∀ a, (k0_off2 d0) a + S1024x1024.size a ≤ S8192x2048.size a
  k0_dev2_lt : ∀ d0 : Dev nD, (k0_dev2 d0) < nD
  k0_off3_inb : ∀ d0 : Dev nD, ∀ a, (k0_off3 d0) a + S1024x1024.size a ≤ S8192x2048.size a
  k0_dev3_lt : ∀ d0 : Dev nD, (k0_dev3 d0) < nD
  k0_off4_inb : ∀ d0 : Dev nD, ∀ a, (k0_off4 d0) a + S1024x1024.size a ≤ S8192x2048.size a
  k0_dev4_lt : ∀ d0 : Dev nD, (k0_dev4 d0) < nD
  k0_off5_inb : ∀ d0 : Dev nD, ∀ a, (k0_off5 d0) a + S1024x1024.size a ≤ S8192x2048.size a
  k0_dev5_lt : ∀ d0 : Dev nD, (k0_dev5 d0) < nD
  k0_off6_inb : ∀ d0 : Dev nD, ∀ a, (k0_off6 d0) a + S1024x1024.size a ≤ S8192x2048.size a
  k0_dev6_lt : ∀ d0 : Dev nD, (k0_dev6 d0) < nD
  k0_off7_inb : ∀ d0 : Dev nD, ∀ a, (k0_off7 d0) a + S1024x1024.size a ≤ S8192x2048.size a
  k0_dev7_lt : ∀ d0 : Dev nD, (k0_dev7 d0) < nD
  k0_off8_inb : ∀ d0 : Dev nD, ∀ a, (k0_off8 d0) a + S1024x1024.size a ≤ S8192x2048.size a
  k0_dev8_lt : ∀ d0 : Dev nD, (k0_dev8 d0) < nD
  k0_off9_inb : ∀ d0 : Dev nD, ∀ a, (k0_off9 d0) a + S1024x1024.size a ≤ S8192x2048.size a
  k0_dev9_lt : ∀ d0 : Dev nD, (k0_dev9 d0) < nD
  k0_off10_inb : ∀ d0 : Dev nD, ∀ a, (k0_off10 d0) a + S1024x1024.size a ≤ S8192x2048.size a
  k0_off11_inb : ∀ d0 : Dev nD, ∀ a, (k0_off11 d0) a + S1024x1024.size a ≤ S8192x2048.size a
  k0_off12_inb : ∀ d0 : Dev nD, ∀ a, (k0_off12 d0) a + S1024x1024.size a ≤ S8192x2048.size a
  k0_off13_inb : ∀ d0 : Dev nD, ∀ a, (k0_off13 d0) a + S1024x1024.size a ≤ S8192x2048.size a
  k0_off14_inb : ∀ d0 : Dev nD, ∀ a, (k0_off14 d0) a + S1024x1024.size a ≤ S8192x2048.size a
  k0_off15_inb : ∀ d0 : Dev nD, ∀ a, (k0_off15 d0) a + S1024x1024.size a ≤ S8192x2048.size a
  k0_off16_inb : ∀ d0 : Dev nD, ∀ a, (k0_off16 d0) a + S1024x1024.size a ≤ S8192x2048.size a
  k0_off17_inb : ∀ d0 : Dev nD, ∀ a, (k0_off17 d0) a + S1024x1024.size a ≤ S8192x2048.size a

variable [Facts₀]

abbrev cc0_scratch1 : DmaSems sig S8 := SemArray.consecutive 0 S8 hcc0_scratch1
abbrev cc0_scratch2 : DmaSems sig S8 := SemArray.consecutive 8 S8 hcc0_scratch2
abbrev cc0_scratch3 : DmaSems sig S2 := SemArray.consecutive 16 S2 hcc0_scratch3
abbrev cc0_scratch4 : DmaSems sig S2 := SemArray.consecutive 18 S2 hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 1
  | .vmem => 0
  | .smem => 0
  | _ => 0

abbrev bufTy : (tb : Table) → Fin (tcTables nBuf tb) → BufTy
  | .hbm, ⟨0, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelMesh.lean ====
/-
  The exchange across mesh axis x (two halves, sixteen devices each): every device holds the row block of the
  whole array its x-coordinate names and must end holding the column block that coordinate names. Its own
  row half it moves itself, chunk by chunk through a two-slot stage; the other row half its partner — the
  device sixteen places away, same (y, z) — writes into its result array by addressed copies, after a
  handshake on the barrier semaphore.  This module: the partner map, the memory views the body names, the
  semaphore cells, and the three content functions every assertion is stated with.
-/
import proofs.«900652_g7700000000000653_dist_a2a_v7x_xyz2x4x4_x_m8192_n1024_f32_1_alg».proof.Proof.Gen.Kernel
import proofs.«900652_g7700000000000653_dist_a2a_v7x_xyz2x4x4_x_m8192_n1024_f32_1_alg».proof.Proof.Gen.Kernel.Skeleton
import proofs.«900652_g7700000000000653_dist_a2a_v7x_xyz2x4x4_x_m8192_n1024_f32_1_alg».proof.Proof.Gen.Kernel.Launch
import proofs.«900652_g7700000000000653_dist_a2a_v7x_xyz2x4x4_x_m8192_n1024_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (one duty a round: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partner across axis x -/

/-- The device sixteen places away: the other x-coordinate, the same (y, z). -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide
theorem peer_val (c : Dev nD) : (peer c).val = (c.val + 16) % 32 := rfl
/-- The partner has the other x-coordinate. -/
theorem peer_half (c : Dev nD) : (peer c).val / 16 = 1 - c.val / 16 := by revert c; decide
theorem half_le (c : Dev nD) : c.val / 16 ≤ 1 := by have hc : c.val < 32 := c.isLt; omega

def peerEquiv : Dev nD ≃ Dev nD := ⟨peer, peer, peer_peer, peer_peer⟩

private theorem dev_arith (c : Dev nD) : (4 * ((c.val / 4) % 4) + (c.val % 4) + 16) - 16 * (c.val / 16) = (c.val + 16) % 32 := by
  have hc : c.val < 32 := c.isLt; omega

/-- Every device-id chain of the body — the signal's and the eight copies' — names the partner. -/
theorem dev1_eq (c : Dev nD) : (⟨k0_dev1 c, k0_dev1_lt c⟩ : Dev nD) = peer c := Fin.ext ((k0_dev1_eq c).trans (dev_arith c))
theorem dev2_eq (c : Dev nD) : (⟨k0_dev2 c, k0_dev2_lt c⟩ : Dev nD) = peer c := Fin.ext ((k0_dev2_eq c).trans (dev_arith c))
theorem dev3_eq (c : Dev nD) : (⟨k0_dev3 c, k0_dev3_lt c⟩ : Dev nD) = peer c := Fin.ext ((k0_dev3_eq c).trans (dev_arith c))
theorem dev4_eq (c : Dev nD) : (⟨k0_dev4 c, k0_dev4_lt c⟩ : Dev nD) = peer c := Fin.ext ((k0_dev4_eq c).trans (dev_arith c))
theorem dev5_eq (c : Dev nD) : (⟨k0_dev5 c, k0_dev5_lt c⟩ : Dev nD) = peer c := Fin.ext ((k0_dev5_eq c).trans (dev_arith c))
theorem dev6_eq (c : Dev nD) : (⟨k0_dev6 c, k0_dev6_lt c⟩ : Dev nD) = peer c := Fin.ext ((k0_dev6_eq c).trans (dev_arith c))
theorem dev7_eq (c : Dev nD) : (⟨k0_dev7 c, k0_dev7_lt c⟩ : Dev nD) = peer c := Fin.ext ((k0_dev7_eq c).trans (dev_arith c))
theorem dev8_eq (c : Dev nD) : (⟨k0_dev8 c, k0_dev8_lt c⟩ : Dev nD) = peer c := Fin.ext ((k0_dev8_eq c).trans (dev_arith c))
theorem dev9_eq (c : Dev nD) : (⟨k0_dev9 c, k0_dev9_lt c⟩ : Dev nD) = peer c := Fin.ext ((k0_dev9_eq c).trans (dev_arith c))

/-! ## The views the body names -/

abbrev xM : Memref sig .tc .hbm S8192x2048 .f32 := Memref.whole main_arg0
abbrev oM : Memref sig .tc .hbm S16384x1024 .f32 := Memref.whole main_v1
abbrev sM : Memref sig .tc .vmem S2x1024x1024 .f32 := Memref.whole cc0_scratch0

/-- Chunk `k` of the result rows device `c` ADDRESSES, in its own result array (its local write-back) and in its
    partner's (its addressed copy): rows `8192·x(c) + 1024·k` onward, all 1024 columns. -/
abbrev dstV (c : Dev nD) (k : Fin 8) : Memref sig .tc .hbm S1024x1024 .f32 :=
  oM.slice (Rect.unit (s := S16384x1024) (k0_off1 c (BitVec.ofNat 32 (1024 * k.val))) S1024x1024.size (k0_off1_inb c k)) (fun _ => rfl)

/-- Where the square of chunk `k` that device `c` SENDS starts in its input block: row `1024·k`, the partner's column half. -/
def srcROff (c : Dev nD) : Fin 8 → Fin 2 → ℕ
  | 0 => k0_off2 c | 1 => k0_off3 c | 2 => k0_off4 c | 3 => k0_off5 c
  | 4 => k0_off6 c | 5 => k0_off7 c | 6 => k0_off8 c | 7 => k0_off9 c
theorem srcROff_inb (c : Dev nD) : ∀ (k : Fin 8) (a : Fin 2), srcROff c k a + S1024x1024.size a ≤ S8192x2048.size a
  | 0 => k0_off2_inb c | 1 => k0_off3_inb c | 2 => k0_off4_inb c | 3 => k0_off5_inb c
  | 4 => k0_off6_inb c | 5 => k0_off7_inb c | 6 => k0_off8_inb c | 7 => k0_off9_inb c

/-- Chunk `k` of the columns of its input block device `c` SENDS: rows `1024·k` onward, the partner's column half. -/
abbrev srcR (c : Dev nD) (k : Fin 8) : Memref sig .tc .hbm S1024x1024 .f32 :=
  xM.slice (Rect.unit (s := S8192x2048) (srcROff c k) S1024x1024.size (srcROff_inb c k)) (fun _ => rfl)

/-- Where the square of chunk `k` that it KEEPS starts: row `1024·k`, its own column half. -/
def srcLOff (c : Dev nD) : Fin 8 → Fin 2 → ℕ
  | 0 => k0_off10 c | 1 => k0_off11 c | 2 => k0_off12 c | 3 => k0_off13 c
  | 4 => k0_off14 c | 5 => k0_off15 c | 6 => k0_off16 c | 7 => k0_off17 c
theorem srcLOff_inb (c : Dev nD) : ∀ (k : Fin 8) (a : Fin 2), srcLOff c k a + S1024x1024.size a ≤ S8192x2048.size a
  | 0 => k0_off10_inb c | 1 => k0_off11_inb c | 2 => k0_off12_inb c | 3 => k0_off13_inb c
  | 4 => k0_off14_inb c | 5 => k0_off15_inb c | 6 => k0_off16_inb c | 7 => k0_off17_inb c

/-- Chunk `k` of the columns it KEEPS: rows `1024·k` onward, its own column half. -/
abbrev srcL (c : Dev nD) (k : Fin 8) : Memref sig .tc .hbm S1024x1024 .f32 :=
  xM.slice (Rect.unit (s := S8192x2048) (srcLOff c k) S1024x1024.size (srcLOff_inb c k)) (fun _ => rfl)

/-- Where slot `s` of the stage starts. -/
def stgOff : Fin 2 → Fin 3 → ℕ
  | 0 => ![0, 0, 0] | 1 => ![1, 0, 0]
theorem stgOff_inb : ∀ (s : Fin 2) (a : Fin 3), stgOff s a + S1x1024x1024.size a ≤ S2x1024x1024.size a
  | 0 => inb_S2x1024x1024_S1x1024x1024_0_0_0 | 1 => inb_S2x1024x1024_S1x1024x1024_1_0_0

/-- Slot `s` of the stage, as a 1024 × 1024 block. -/
abbrev stgV (s : Fin 2) : Memref sig .tc .vmem S1024x1024 .f32 :=
  (sM.slice (Rect.unit (s := S2x1024x1024) (stgOff s) S1x1024x1024.size (stgOff_inb s)) (fun _ => rfl)).squeeze S1024x1024 squeezes_S1x1024x1024_S1024x1024

/-! ## The semaphores -/

abbrev barS : Sem sig := (SemArray.scalar (sig.barrier 0 rfl) : Sems sig S_).sem

abbrev sendS : Fin 8 → DmaSem sig
  | 0 => ((cc0_scratch1.slice (Rect.unit (s := S8) ![0] S1.size inb_S8_S1_0)).squeeze S_ squeezes_S1_S_).sem
  | 1 => ((cc0_scratch1.slice (Rect.unit (s := S8) ![1] S1.size inb_S8_S1_1)).squeeze S_ squeezes_S1_S_).sem
  | 2 => ((cc0_scratch1.slice (Rect.unit (s := S8) ![2] S1.size inb_S8_S1_2)).squeeze S_ squeezes_S1_S_).sem
  | 3 => ((cc0_scratch1.slice (Rect.unit (s := S8) ![3] S1.size inb_S8_S1_3)).squeeze S_ squeezes_S1_S_).sem
  | 4 => ((cc0_scratch1.slice (Rect.unit (s := S8) ![4] S1.size inb_S8_S1_4)).squeeze S_ squeezes_S1_S_).sem
  | 5 => ((cc0_scratch1.slice (Rect.unit (s := S8) ![5] S1.size inb_S8_S1_5)).squeeze S_ squeezes_S1_S_).sem
  | 6 => ((cc0_scratch1.slice (Rect.unit (s := S8) ![6] S1.size inb_S8_S1_6)).squeeze S_ squeezes_S1_S_).sem
  | 7 => ((cc0_scratch1.slice (Rect.unit (s := S8) ![7] S1.size inb_S8_S1_7)).squeeze S_ squeezes_S1_S_).sem

abbrev recvS : Fin 8 → DmaSem sig
  | 0 => ((cc0_scratch2.slice (Rect.unit (s := S8) ![0] S1.size inb_S8_S1_0)).squeeze S_ squeezes_S1_S_).sem
  | 1 => ((cc0_scratch2.slice (Rect.unit (s := S8) ![1] S1.size inb_S8_S1_1)).squeeze S_ squeezes_S1_S_).sem
  | 2 => ((cc0_scratch2.slice (Rect.unit (s := S8) ![2] S1.size inb_S8_S1_2)).squeeze S_ squeezes_S1_S_).sem
  | 3 => ((cc0_scratch2.slice (Rect.unit (s := S8) ![3] S1.size inb_S8_S1_3)).squeeze S_ squeezes_S1_S_).sem
  | 4 => ((cc0_scratch2.slice (Rect.unit (s := S8) ![4] S1.size inb_S8_S1_4)).squeeze S_ squeezes_S1_S_).sem
  | 5 => ((cc0_scratch2.slice (Rect.unit (s := S8) ![5] S1.size inb_S8_S1_5)).squeeze S_ squeezes_S1_S_).sem
  | 6 => ((cc0_scratch2.slice (Rect.unit (s := S8) ![6] S1.size inb_S8_S1_6)).squeeze S_ squeezes_S1_S_).sem
  | 7 => ((cc0_scratch2.slice (Rect.unit (s := S8) ![7] S1.size inb_S8_S1_7)).squeeze S_ squeezes_S1_S_).sem

abbrev inS : Fin 2 → DmaSem sig
  | 0 => ((cc0_scratch3.slice (Rect.unit (s := S2) ![0] S1.size inb_S2_S1_0)).squeeze S_ squeezes_S1_S_).sem
  | 1 => ((cc0_scratch3.slice (Rect.unit (s := S2) ![1] S1.size inb_S2_S1_1)).squeeze S_ squeezes_S1_S_).sem

abbrev outS : Fin 2 → DmaSem sig
  | 0 => ((cc0_scratch4.slice (Rect.unit (s := S2) ![0] S1.size inb_S2_S1_0)).squeeze S_ squeezes_S1_S_).sem
  | 1 => ((cc0_scratch4.slice (Rect.unit (s := S2) ![1] S1.size inb_S2_S1_1)).squeeze S_ squeezes_S1_S_).sem

/-- The pool index of each: send `k`, receive `8 + k`, in `16 + s`, out `18 + s`. -/
theorem sendS_val (k : Fin 8) : (sendS k).val = k.val := by fin_cases k <;> rfl
theorem recvS_val (k : Fin 8) : (recvS k).val = 8 + k.val := by fin_cases k <;> rfl
theorem inS_val (s : Fin 2) : (inS s).val = 16 + s.val := by fin_cases s <;> rfl
theorem outS_val (s : Fin 2) : (outS s).val = 18 + s.val := by fin_cases s <;> rfl

end Cert.Kernel.A2a

end
-- ==== Proof.KernelSched.lean ====
/-
  The protocol of the exchange, as a schedule of rounds (one duty a round on every cell).  Per device:
  the barrier cell (one round: the partner's signal, which hands over the partner's half of ITS result array,
  the rows this device's addressed copies write, and that the partner's receive cells stand at round 0);
  eight send cells (one round each: the copy's source columns come back); eight receive cells (one round each,
  paid by the partner's copy: chunk k of the rows the partner addresses, holding the final contents);
  two in cells and two out cells (four rounds each, paid by the device's own copies: slot s serves the chunks
  k = 2r + s).  Every payload names its contents through `X`, `Rfin`, `StgAt` below.
-/
import proofs.«900652_g7700000000000653_dist_a2a_v7x_xyz2x4x4_x_m8192_n1024_f32_1_alg».proof.Proof.KernelMesh
import Idealize.ShloMosaic.Lib.ValueIdx

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))
abbrev inCell (c : Dev nD) (s : Fin 2) : GSem nD τ sig := ((c : Thread nD τ), .dma (inS s))
abbrev outCell (c : Dev nD) (s : Fin 2) : GSem nD τ sig := ((c : Thread nD τ), .dma (outS s))

/-- What a cell is for, read off its semaphore's pool index. -/
inductive CellKind where
  | bar | send (k : Fin 8) | recv (k : Fin 8) | inn (s : Fin 2) | out (s : Fin 2)
  deriving DecidableEq

def kindOf : SemLoc sig → CellKind
  | .reg _ => .bar
  | .dma q =>
    if h : q.val < 8 then .send ⟨q.val, h⟩
    else if h' : q.val < 16 then .recv ⟨q.val - 8, by omega⟩
    else if h'' : q.val < 18 then .inn ⟨q.val - 16, by omega⟩
    else .out ⟨(q.val - 18) % 2, Nat.mod_lt _ (by decide)⟩

theorem kindOf_bar (s : Sem sig) : kindOf (.reg s) = .bar := rfl
theorem kindOf_send (k : Fin 8) : kindOf (.dma (sendS k)) = .send k := by fin_cases k <;> rfl
theorem kindOf_recv (k : Fin 8) : kindOf (.dma (recvS k)) = .recv k := by fin_cases k <;> rfl
theorem kindOf_in (s : Fin 2) : kindOf (.dma (inS s)) = .inn s := by fin_cases s <;> rfl
theorem kindOf_out (s : Fin 2) : kindOf (.dma (outS s)) = .out s := by fin_cases s <;> rfl

/-- How many rounds a cell runs. -/
def nRounds : CellKind → ℕ
  | .inn _ => 4 | .out _ => 4 | _ => 1

/-- The chunk slot `s` serves in its round `r`. -/
def chunk (s : Fin 2) (r : ℕ) : Fin 8 := ⟨(2 * r + s.val) % 8, Nat.mod_lt _ (by decide)⟩

/-- The credit of one 1024 × 1024 block of 32-bit words landing: in this signature the same number whatever buffer it lands in
    (a result array, the stage; and what a wait naming an input square consumes). -/
abbrev NO : ℕ := (dstV (0 : Dev nD) 0).view.dmaCredit
abbrev NS : ℕ := NO
theorem NO_pos : 0 < NO := View.dmaCredit_pos _ (by decide)
theorem NS_pos : 0 < NS := NO_pos
theorem amount_dst (c : Dev nD) (k : Fin 8) (q : DmaSem sig) : (dstV c k).view.amount (.dma q) = NO := rfl
theorem amount_stg (s : Fin 2) (q : DmaSem sig) : (stgV s).view.amount (.dma q) = NS := by fin_cases s <;> rfl

/-! ## Contents -/

/-- Device `c`'s block of the input: rows `8192·x(c)` onward of the whole array. -/
def X (c : Dev nD) : Buf (Elt F) ((c : Thread nD τ).loc main_arg0) := m ((c : Thread nD τ).loc main_arg0)

/-- The device of `c`'s (y, z) column whose x-coordinate is `h`. -/
def colDev (c : Dev nD) (h : ℕ) : Dev nD := ⟨16 * (h % 2) + c.val % 16, by show 16 * (h % 2) + c.val % 16 < 32; omega⟩

/-- What device `c`'s result array must end holding: row `r`, column `j` is the whole array's entry
    `(r, 1024·x(c) + j)` — entry `(r mod 8192, 1024·x(c) + j)` of the block of the device that holds row half `r / 8192`. -/
def Rfin (c : Dev nD) : Buf (Elt F) ((c : Thread nD τ).loc main_v1) := fun i =>
  X m (colDev c ((i 0).val / 8192))
    (ValueIdx.ix2 (⟨(i 0).val % 8192, Nat.mod_lt _ (by decide)⟩ : Fin 8192)
      (⟨(1024 * (c.val / 16) + (i 1).val) % 2048, Nat.mod_lt _ (by decide)⟩ : Fin 2048))

/-- What slot `s` of the stage holds once chunk `k` of the kept columns has landed in it: that chunk written through the
    slot's view (over the launch contents, which no assertion reads: a points-to on the slot's elements sees the chunk only). -/
def StgAt (c : Dev nD) (k : Fin 8) (s : Fin 2) : Buf (Elt F) ((c : Thread nD τ).loc cc0_scratch0) :=
  (stgV s).view.write (Elt F) (m ((c : Thread nD τ).loc cc0_scratch0)) ((srcL c k).view.read (Elt F) (X m c)) Finset.univ

/-! ## The payloads -/

/-- The partner's signal hands `c` the rows `c` addresses in the partner's result array, chunk by chunk at some
    contents, and that the partner's receive cells stand at round 0. -/
def barPay (c : Dev nD) : sProp 𝕄 :=
  iprop((∃ f : Buf (Elt F) (((peer c : Dev nD) : Thread nD τ).loc main_v1),
      bigSep Finset.univ fun k : Fin 8 => ((dstV c k).view.loc ((peer c : Dev nD) : Thread nD τ) ↦[(dstV c k).view.set]{fullShare} f))
    ∗ bigSep Finset.univ fun k : Fin 8 => reached ER (recvCell (peer c) k) 0)

/-- A send cell gives the copy's source columns back. -/
def sendPay (c : Dev nD) (k : Fin 8) : sProp 𝕄 :=
  (srcR c k).view.loc (c : Thread nD τ) ↦[(srcR c k).view.set]{fullShare} X m c

/-- A receive cell delivers chunk `k` of the rows the partner addresses, at the final contents. -/
def recvPay (c : Dev nD) (k : Fin 8) : sProp 𝕄 :=
  (dstV (peer c) k).view.loc (c : Thread nD τ) ↦[(dstV (peer c) k).view.set]{fullShare} Rfin m c

/-- An in cell delivers its slot holding the chunk, and the kept columns' source back. -/
def inPay (c : Dev nD) (s : Fin 2) (r : ℕ) : sProp 𝕄 :=
  iprop(((stgV s).view.loc (c : Thread nD τ) ↦[(stgV s).view.set]{fullShare} StgAt m c (chunk s r) s)
    ∗ ((srcL c (chunk s r)).view.loc (c : Thread nD τ) ↦[(srcL c (chunk s r)).view.set]{fullShare} X m c))

/-- An out cell delivers the chunk's rows of the device's own result array at the final contents, and the slot back. -/
def outPay (c : Dev nD) (s : Fin 2) (r : ℕ) : sProp 𝕄 :=
  iprop(((dstV c (chunk s r)).view.loc (c : Thread nD τ) ↦[(dstV c (chunk s r)).view.set]{fullShare} Rfin m c)
    ∗ ((stgV s).view.loc (c : Thread nD τ) ↦[(stgV s).view.set]{fullShare} StgAt m c (chunk s r) s))

def payOf (c : Dev nD) (r : ℕ) : CellKind → sProp 𝕄
  | .bar => barPay c
  | .send k => sendPay m c k
  | .recv k => recvPay m c k
  | .inn s => inPay m c s r
  | .out s => outPay m c s r

/-! ## The schedule -/

def rd : Rounds.Schedule (GSem nD τ sig) Unit 𝕄 where
  duties g r := if g.1.2 = .tc ∧ r < nRounds (kindOf g.2) then {()} else ∅
  unitless _ := False
  amount g _ _ := match kindOf g.2 with | .bar => 1 | .inn _ => NS | _ => NO
  payload g r _ := payOf m g.1.1 r (kindOf g.2)
  amount_pos g _ _ _ := by
    cases kindOf g.2 <;> first | exact Nat.one_pos | exact NS_pos | exact NO_pos

instance rd_payload_storable (g : GSem nD τ sig) (r : ℕ) (d : Unit) :
    BI.Storable (upEmb : UEmb _ 𝕄) ((rd (F := F) m).payload g r d) := by
  show BI.Storable upEmb (payOf m g.1.1 r (kindOf g.2))
  cases kindOf g.2 <;> (unfold payOf barPay sendPay recvPay inPay outPay) <;> infer_instance

/-! ## What a device owes at launch; the levels -/

/-- The receive credit device `c` owes its partner for copy `k`. -/
abbrev TR (c : Dev nD) (k : Fin 8) : CellTallies nD τ sig Unit := tallyAt (recvCell (peer c) k) () NO

/-- After the signal and the copies `0 … k-1`: the receive credits of the copies still to come, summed so that copy `k`
    peels the last summand. -/
def OS (c : Dev nD) (k : ℕ) : CellTallies nD τ sig Unit :=
  match k with
  | 0 => (((((((0 + TR c 7) + TR c 6) + TR c 5) + TR c 4) + TR c 3) + TR c 2) + TR c 1) + TR c 0
  | 1 => ((((((0 + TR c 7) + TR c 6) + TR c 5) + TR c 4) + TR c 3) + TR c 2) + TR c 1
  | 2 => (((((0 + TR c 7) + TR c 6) + TR c 5) + TR c 4) + TR c 3) + TR c 2
  | 3 => ((((0 + TR c 7) + TR c 6) + TR c 5) + TR c 4) + TR c 3
  | 4 => (((0 + TR c 7) + TR c 6) + TR c 5) + TR c 4
  | 5 => ((0 + TR c 7) + TR c 6) + TR c 5
  | 6 => (0 + TR c 7) + TR c 6
  | 7 => 0 + TR c 7
  | _ => 0

/-- At launch: those eight and the unit of the signal to the partner's barrier cell. -/
def O₀ (c : Dev nD) : CellTallies nD τ sig Unit := OS c 0 + tallyAt (barCell (peer c)) () 1

def L (g : GSem nD τ sig) : Finset Unit := if g.1.2 = .tc then {()} else ∅
/-- Barrier cells at 1, receive cells at 2, every other cell at 0: the one wait made while owing (the barrier wait)
    is below everything owed then (receive credits). -/
def lv (g : GSem nD τ sig) (_ : Unit) : ℕ := match kindOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-! ## Opening the big separating conjunctions -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin20 (Φ : Fin 20 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ
omit [FloatOps F] in
theorem bigSep_fin21 (Φ : Fin 21 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
omit [FloatOps F] in
theorem bigSep_fin2x4 (Φ : Fin 2 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ

/-! ## The ghost state a device's body starts from -/

/-- Names of the cells' invariants, by device and by cell: 0 the barrier, 1 + k send k, 9 + k receive k, 17 + s in s, 19 + s out s. -/
abbrev csem : Fin 21 → SemLoc sig
  | 0 => .reg barS
  | 1 => .dma (sendS 0) | 2 => .dma (sendS 1) | 3 => .dma (sendS 2) | 4 => .dma (sendS 3)
  | 5 => .dma (sendS 4) | 6 => .dma (sendS 5) | 7 => .dma (sendS 6) | 8 => .dma (sendS 7)
  | 9 => .dma (recvS 0) | 10 => .dma (recvS 1) | 11 => .dma (recvS 2) | 12 => .dma (recvS 3)
  | 13 => .dma (recvS 4) | 14 => .dma (recvS 5) | 15 => .dma (recvS 6) | 16 => .dma (recvS 7)
  | 17 => .dma (inS 0) | 18 => .dma (inS 1) | 19 => .dma (outS 0) | 20 => .dma (outS 1)
  | _ => .reg barS                                                       -- no other index (no index reaches the arm)
abbrev kcell (cj : Dev nD × Fin 21) : GSem nD τ sig := ((cj.1 : Thread nD τ), csem cj.2)

def sendIx (k : Fin 8) : Fin 21 := ⟨1 + k.val, by omega⟩
def recvIx (k : Fin 8) : Fin 21 := ⟨9 + k.val, by omega⟩
def inIx (s : Fin 2) : Fin 21 := ⟨17 + s.val, by omega⟩
def outIx (s : Fin 2) : Fin 21 := ⟨19 + s.val, by omega⟩
theorem kcell_bar (c : Dev nD) : kcell (c, 0) = barCell c := rfl
theorem kcell_send (c : Dev nD) (k : Fin 8) : kcell (c, sendIx k) = sendCell c k := by fin_cases k <;> rfl
theorem kcell_recv (c : Dev nD) (k : Fin 8) : kcell (c, recvIx k) = recvCell c k := by fin_cases k <;> rfl
theorem kcell_in (c : Dev nD) (s : Fin 2) : kcell (c, inIx s) = inCell c s := by fin_cases s <;> rfl
theorem kcell_out (c : Dev nD) (s : Fin 2) : kcell (c, outIx s) = outCell c s := by fin_cases s <;> rfl

variable (K : Dev nD × Fin 21 → ℕ)

/-- The invariants device `c`'s body opens: its own twenty-one cells', its partner's barrier cell's (its signal) and
    its partner's receive cells' (its copies). -/
def invs (c : Dev nD) : sProp 𝕄 :=
  iprop((bigSep Finset.univ fun j : Fin 21 => cellInv ER (rd m) (K (c, j)) (kcell (c, j)))
    ∗ cellInv ER (rd m) (K (peer c, 0)) (barCell (peer c))
    ∗ bigSep Finset.univ fun k : Fin 8 => cellInv ER (rd m) (K (peer c, recvIx k)) (recvCell (peer c) k))

instance invs_persistent (c : Dev nD) : BI.Persistent (invs m K c) := by unfold invs; infer_instance

/-- Its positions: round 0 of each of its cells. -/
def poss (c : Dev nD) : sProp 𝕄 := bigSep Finset.univ fun j : Fin 21 => atPos ER (kcell (c, j)) 0 ∅ 0

/-- Round 0 reached, of its own cells and of the partner's cells it pays. -/
def marks (c : Dev nD) : sProp 𝕄 :=
  iprop((bigSep Finset.univ fun j : Fin 21 => reached ER (kcell (c, j)) 0)
    ∗ reached ER (barCell (peer c)) 0
    ∗ bigSep Finset.univ fun k : Fin 8 => reached ER (recvCell (peer c) k) 0)

instance marks_persistent (c : Dev nD) : BI.Persistent (marks (F := F) c) := by unfold marks; infer_instance

/-- The tokens of the duties IT pays: the partner's barrier duty, the partner's eight receive duties, its own eight send
    duties, and its in and out cells' four rounds each. -/
def payToks (c : Dev nD) : sProp 𝕄 :=
  iprop(dutyTok ER (barCell (peer c)) 0 ()
    ∗ (bigSep Finset.univ fun k : Fin 8 => dutyTok ER (recvCell (peer c) k) 0 ())
    ∗ (bigSep Finset.univ fun k : Fin 8 => dutyTok ER (sendCell c k) 0 ())
    ∗ (bigSep Finset.univ fun sr : Fin 2 × Fin 4 => dutyTok ER (inCell c sr.1) sr.2.val ())
    ∗ (bigSep Finset.univ fun sr : Fin 2 × Fin 4 => dutyTok ER (outCell c sr.1) sr.2.val ()))

def ghost (c : Dev nD) : sProp 𝕄 := iprop(invs m K c ∗ poss c ∗ marks c ∗ payToks c)

/-- The launch credit a device holds: the partner's signal, and the partner's eight copies. -/
def creds (c : Dev nD) : sProp 𝕄 :=
  iprop(cred (tallyAt (barCell c) () 1) ∗ bigSep Finset.univ fun k : Fin 8 => cred (tallyAt (recvCell c k) () NO))

/-- What a device's body starts from, the scratch apart: the ghost state at some names, the launch credit, the level
    facts, and its two arrays whole — the input block, and the result array at whatever it held. -/
def start (c : Dev nD) : sProp 𝕄 :=
  iprop((∃ K, ghost m K c) ∗ creds c ∗ levAts L lv
    ∗ (((c : Thread nD τ).loc main_arg0) ↦{fullShare} X m c)
    ∗ (((c : Thread nD τ).loc main_v1) ↦{fullShare} m ((c : Thread nD τ).loc main_v1)))

def Φ₀ (c : Dev nD) : sProp 𝕄 :=
  iprop(start m c ∗ ∃ f : Buf (Elt F) ((c : Thread nD τ).loc cc0_scratch0), ((c : Thread nD τ).loc cc0_scratch0) ↦{fullShare} f)

/-- After the body: the input block as it was, the result array at the final contents, the stage at some contents, and
    the twenty own DMA semaphores at zero, their cells closed. -/
def Φ₁ (c : Dev nD) : sProp 𝕄 :=
  iprop((((c : Thread nD τ).loc main_arg0) ↦{fullShare} X m c)
    ∗ (((c : Thread nD τ).loc main_v1) ↦{fullShare} Rfin m c)
    ∗ (∃ f : Buf (Elt F) ((c : Thread nD τ).loc cc0_scratch0), ((c : Thread nD τ).loc cc0_scratch0) ↦{fullShare} f)
    ∗ bigSep Finset.univ fun j : Fin 20 => semVal (kcell (c, j.succ)) 0)

/-- The pipeline's proof data: no window, one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.A2a

end
-- ==== Proof.KernelTables.lean ====
/-
  The schedule's tables read at each kind of cell — duties, amounts, a round's expected units, payloads, the rest of a
  round nobody has taken from — and the two ledgers of the launch: that a device may wait on its barrier cell while it
  still owes its partner the eight receive credits (the barrier cell sits below the receive cells), and that the
  launch credit a device is dealt is its partner's signal and its partner's eight copies.
-/
import proofs.«900652_g7700000000000653_dist_a2a_v7x_xyz2x4x4_x_m8192_n1024_f32_1_alg».proof.Proof.KernelSched

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tables as equations -/

omit [FloatOps F] in
theorem duties_eq (g : GSem nD τ sig) (r : ℕ) :
    (rd (F := F) m).duties g r = if g.1.2 = .tc ∧ r < nRounds (kindOf g.2) then {()} else ∅ := rfl
omit [FloatOps F] in
theorem amount_eq (g : GSem nD τ sig) (r : ℕ) (d : Unit) :
    (rd (F := F) m).amount g r d = (match kindOf g.2 with | .bar => 1 | .inn _ => NS | _ => NO) := rfl
omit [FloatOps F] in
theorem payload_eq (g : GSem nD τ sig) (r : ℕ) (d : Unit) :
    (rd (F := F) m).payload g r d = payOf m g.1.1 r (kindOf g.2) := rfl

section Tables
variable (c : Dev nD)

omit [FloatOps F] in
theorem duties_bar : (rd (F := F) m).duties (barCell c) 0 = {()} := by
  rw [duties_eq]; exact if_pos ⟨rfl, Nat.one_pos⟩
omit [FloatOps F] in
theorem duties_send (k : Fin 8) : (rd (F := F) m).duties (sendCell c k) 0 = {()} := by
  rw [duties_eq]; show (if _ ∧ 0 < nRounds (kindOf (.dma (sendS k))) then _ else _) = _
  rw [kindOf_send]; exact if_pos ⟨rfl, Nat.one_pos⟩
omit [FloatOps F] in
theorem duties_recv (k : Fin 8) : (rd (F := F) m).duties (recvCell c k) 0 = {()} := by
  rw [duties_eq]; show (if _ ∧ 0 < nRounds (kindOf (.dma (recvS k))) then _ else _) = _
  rw [kindOf_recv]; exact if_pos ⟨rfl, Nat.one_pos⟩
omit [FloatOps F] in
theorem duties_in (s : Fin 2) (r : ℕ) (hr : r < 4) : (rd (F := F) m).duties (inCell c s) r = {()} := by
  rw [duties_eq]; show (if _ ∧ r < nRounds (kindOf (.dma (inS s))) then _ else _) = _
  rw [kindOf_in]; exact if_pos ⟨rfl, hr⟩
omit [FloatOps F] in
theorem duties_out (s : Fin 2) (r : ℕ) (hr : r < 4) : (rd (F := F) m).duties (outCell c s) r = {()} := by
  rw [duties_eq]; show (if _ ∧ r < nRounds (kindOf (.dma (outS s))) then _ else _) = _
  rw [kindOf_out]; exact if_pos ⟨rfl, hr⟩

omit [FloatOps F] in
/-- From the round a cell's last duty is in onward there is no duty. -/
theorem duties_later (g : GSem nD τ sig) : ∀ r, nRounds (kindOf g.2) ≤ r → (rd (F := F) m).duties g r = ∅ :=
  fun r hr => by rw [duties_eq]; exact if_neg fun h => absurd h.2 (Nat.not_lt.mpr hr)
omit [FloatOps F] in
theorem later_send (k : Fin 8) : ∀ r, 1 ≤ r → (rd (F := F) m).duties (sendCell c k) r = ∅ :=
  fun r hr => duties_later m _ r (by show nRounds (kindOf (.dma (sendS k))) ≤ r; rw [kindOf_send]; exact hr)
omit [FloatOps F] in
theorem later_recv (k : Fin 8) : ∀ r, 1 ≤ r → (rd (F := F) m).duties (recvCell c k) r = ∅ :=
  fun r hr => duties_later m _ r (by show nRounds (kindOf (.dma (recvS k))) ≤ r; rw [kindOf_recv]; exact hr)
omit [FloatOps F] in
theorem later_in (s : Fin 2) : ∀ r, 4 ≤ r → (rd (F := F) m).duties (inCell c s) r = ∅ :=
  fun r hr => duties_later m _ r (by show nRounds (kindOf (.dma (inS s))) ≤ r; rw [kindOf_in]; exact hr)
omit [FloatOps F] in
theorem later_out (s : Fin 2) : ∀ r, 4 ≤ r → (rd (F := F) m).duties (outCell c s) r = ∅ :=
  fun r hr => duties_later m _ r (by show nRounds (kindOf (.dma (outS s))) ≤ r; rw [kindOf_out]; exact hr)

omit [FloatOps F] in
theorem amount_bar (r : ℕ) (d : Unit) : (rd (F := F) m).amount (barCell c) r d = 1 := rfl
omit [FloatOps F] in
theorem amount_send (k : Fin 8) (r : ℕ) (d : Unit) : (rd (F := F) m).amount (sendCell c k) r d = NO := by
  rw [amount_eq]; show (match kindOf (.dma (sendS k)) with | .bar => 1 | .inn _ => NS | _ => NO) = NO; rw [kindOf_send]
omit [FloatOps F] in
theorem amount_recv (k : Fin 8) (r : ℕ) (d : Unit) : (rd (F := F) m).amount (recvCell c k) r d = NO := by
  rw [amount_eq]; show (match kindOf (.dma (recvS k)) with | .bar => 1 | .inn _ => NS | _ => NO) = NO; rw [kindOf_recv]
omit [FloatOps F] in
theorem amount_in (s : Fin 2) (r : ℕ) (d : Unit) : (rd (F := F) m).amount (inCell c s) r d = NS := by
  rw [amount_eq]; show (match kindOf (.dma (inS s)) with | .bar => 1 | .inn _ => NS | _ => NO) = NS; rw [kindOf_in]
omit [FloatOps F] in
theorem amount_out (s : Fin 2) (r : ℕ) (d : Unit) : (rd (F := F) m).amount (outCell c s) r d = NO := by
  rw [amount_eq]; show (match kindOf (.dma (outS s)) with | .bar => 1 | .inn _ => NS | _ => NO) = NO; rw [kindOf_out]

omit [FloatOps F] in
theorem expect_bar : (rd (F := F) m).expect (barCell c) 0 = 1 := by
  unfold Schedule.expect Schedule.amountOf; rw [duties_bar, Finset.sum_singleton, amount_bar]
omit [FloatOps F] in
theorem expect_send (k : Fin 8) : (rd (F := F) m).expect (sendCell c k) 0 = NO := by
  unfold Schedule.expect Schedule.amountOf; rw [duties_send, Finset.sum_singleton, amount_send]
omit [FloatOps F] in
theorem expect_recv (k : Fin 8) : (rd (F := F) m).expect (recvCell c k) 0 = NO := by
  unfold Schedule.expect Schedule.amountOf; rw [duties_recv, Finset.sum_singleton, amount_recv]
omit [FloatOps F] in
theorem expect_in (s : Fin 2) (r : ℕ) (hr : r < 4) : (rd (F := F) m).expect (inCell c s) r = NS := by
  unfold Schedule.expect Schedule.amountOf; rw [duties_in m c s r hr, Finset.sum_singleton, amount_in]
omit [FloatOps F] in
theorem expect_out (s : Fin 2) (r : ℕ) (hr : r < 4) : (rd (F := F) m).expect (outCell c s) r = NO := by
  unfold Schedule.expect Schedule.amountOf; rw [duties_out m c s r hr, Finset.sum_singleton, amount_out]

omit [FloatOps F] in
theorem payload_bar (r : ℕ) (d : Unit) : (rd (F := F) m).payload (barCell c) r d = barPay c := rfl
omit [FloatOps F] in
theorem payload_send (k : Fin 8) (r : ℕ) (d : Unit) : (rd (F := F) m).payload (sendCell c k) r d = sendPay m c k := by
  rw [payload_eq]; show payOf m c r (kindOf (.dma (sendS k))) = _; rw [kindOf_send]; rfl
omit [FloatOps F] in
theorem payload_recv (k : Fin 8) (r : ℕ) (d : Unit) : (rd (F := F) m).payload (recvCell c k) r d = recvPay m c k := by
  rw [payload_eq]; show payOf m c r (kindOf (.dma (recvS k))) = _; rw [kindOf_recv]; rfl
omit [FloatOps F] in
theorem payload_in (s : Fin 2) (r : ℕ) (d : Unit) : (rd (F := F) m).payload (inCell c s) r d = inPay m c s r := by
  rw [payload_eq]; show payOf m c r (kindOf (.dma (inS s))) = _; rw [kindOf_in]; rfl
omit [FloatOps F] in
theorem payload_out (s : Fin 2) (r : ℕ) (d : Unit) : (rd (F := F) m).payload (outCell c s) r d = outPay m c s r := by
  rw [payload_eq]; show payOf m c r (kindOf (.dma (outS s))) = _; rw [kindOf_out]; rfl

/-! The rest of a round nobody has taken from: its one payload. -/

omit [FloatOps F] in
theorem rest_bar : bigSep ((rd (F := F) m).duties (barCell c) 0 \ ∅) (fun d => (rd (F := F) m).payload (barCell c) 0 d) = barPay c := by
  rw [Finset.sdiff_empty, duties_bar, bigSep_singleton, payload_bar]
omit [FloatOps F] in
theorem rest_send (k : Fin 8) : bigSep ((rd (F := F) m).duties (sendCell c k) 0 \ ∅) (fun d => (rd (F := F) m).payload (sendCell c k) 0 d) = sendPay m c k := by
  rw [Finset.sdiff_empty, duties_send, bigSep_singleton, payload_send]
omit [FloatOps F] in
theorem rest_recv (k : Fin 8) : bigSep ((rd (F := F) m).duties (recvCell c k) 0 \ ∅) (fun d => (rd (F := F) m).payload (recvCell c k) 0 d) = recvPay m c k := by
  rw [Finset.sdiff_empty, duties_recv, bigSep_singleton, payload_recv]
omit [FloatOps F] in
theorem rest_in (s : Fin 2) (r : ℕ) (hr : r < 4) : bigSep ((rd (F := F) m).duties (inCell c s) r \ ∅) (fun d => (rd (F := F) m).payload (inCell c s) r d) = inPay m c s r := by
  rw [Finset.sdiff_empty, duties_in m c s r hr, bigSep_singleton, payload_in]
omit [FloatOps F] in
theorem rest_out (s : Fin 2) (r : ℕ) (hr : r < 4) : bigSep ((rd (F := F) m).duties (outCell c s) r \ ∅) (fun d => (rd (F := F) m).payload (outCell c s) r d) = outPay m c s r := by
  rw [Finset.sdiff_empty, duties_out m c s r hr, bigSep_singleton, payload_out]

end Tables

/-! ## The barrier wait, owing the receive credits -/

theorem recv_ne_bar (k : Fin 8) : (SemLoc.dma (recvS k) : SemLoc sig) ≠ .reg barS := fun h => by cases h

/-- What is still owed after the signal is owed to the partner's receive cells only. -/
theorem OS_pos {c : Dev nD} {g : GSem nD τ sig} {u : Unit} (h : 0 < OS c 0 g u) : ∃ k : Fin 8, g = recvCell (peer c) k := by
  by_contra hn
  have hk : ∀ k : Fin 8, ¬ g = recvCell (peer c) k := fun k hk => hn ⟨k, hk⟩
  have h0 : OS c 0 g u = 0 := by
    simp only [OS, TR, Pi.add_apply, Finsupp.add_apply, tallyAt_apply, Pi.zero_apply, Finsupp.zero_apply, and_true,
      if_neg (hk 0), if_neg (hk 1), if_neg (hk 2), if_neg (hk 3), if_neg (hk 4), if_neg (hk 5), if_neg (hk 6), if_neg (hk 7),
      Nat.add_zero]
  omega

theorem lv_bar (c : Dev nD) (u : Unit) : lv (barCell c) u = 1 := rfl
theorem lv_recv (c : Dev nD) (k : Fin 8) (u : Unit) : lv (recvCell c k) u = 2 := by
  show (match kindOf (.dma (recvS k)) with | .bar => 1 | .recv _ => 2 | _ => 0) = 2; rw [kindOf_recv]

omit [FloatOps F] in
/-- At its barrier wait a device owes its partner's receive credits only: receive cells, above its barrier cell. -/
theorem mayWait_bar (c : Dev nD) :
    (levAts L lv : sProp 𝕄) ⊢ MayWait (c : Thread nD τ) (.reg barS) () (OS c 0) :=
  MayOwe.of_cut (L := L) (lev := lv) 1 (fun p hp => by rw [Finset.mem_singleton.mp hp, L_tc]; exact Finset.mem_singleton_self _)
    (fun g u hg => by obtain ⟨k, rfl⟩ := OS_pos hg; rw [L_tc]; exact Finset.mem_singleton_self _)
    (fun p hp => by rw [Finset.mem_singleton.mp hp]; exact Nat.le_of_eq (lv_bar c ()))
    (fun g u hg => by obtain ⟨k, rfl⟩ := OS_pos hg; rw [lv_recv]; decide)

/-! ## The launch credit -/

omit [FloatOps F] in
/-- What a device is dealt at launch for the units others owe its cells: its partner's signal and its partner's eight copies. -/
theorem creds_of_launch (c : Dev nD) : (Pipeline.launchCred O₀ c : sProp 𝕄) ⊢ creds c := by
  have tA (sm : SemLoc sig) (n : ℕ) :
      (Pipeline.launchCred (fun d : Dev nD => tallyAt (((peer d : Dev nD) : Thread nD τ), sm) () n) c : sProp 𝕄)
        ⊢ cred (tallyAt ((c : Thread nD τ), sm) () n) :=
    Pipeline.launchCred_tallyAt sm peer peer peer_peer peer_peer () n c
  have e : (O₀ : Dev nD → CellTallies nD τ sig Unit) = fun d =>
      ((((((((0 + tallyAt (recvCell (peer d) 7) () NO) + tallyAt (recvCell (peer d) 6) () NO) + tallyAt (recvCell (peer d) 5) () NO)
        + tallyAt (recvCell (peer d) 4) () NO) + tallyAt (recvCell (peer d) 3) () NO) + tallyAt (recvCell (peer d) 2) () NO)
        + tallyAt (recvCell (peer d) 1) () NO) + tallyAt (recvCell (peer d) 0) () NO) + tallyAt (barCell (peer d)) () 1 := rfl
  rw [e]
  simp only [Pipeline.launchCred_add]
  unfold creds
  iintro ⟨⟨⟨⟨⟨⟨⟨⟨⟨-, H7⟩, H6⟩, H5⟩, H4⟩, H3⟩, H2⟩, H1⟩, H0⟩, HB⟩
  isplitl [HB]; · iapply (tA (.reg barS) 1); iexact HB
  rw [bigSep_fin8]
  isplitl [H0]; · iapply (tA (.dma (recvS 0)) NO); iexact H0
  isplitl [H1]; · iapply (tA (.dma (recvS 1)) NO); iexact H1
  isplitl [H2]; · iapply (tA (.dma (recvS 2)) NO); iexact H2
  isplitl [H3]; · iapply (tA (.dma (recvS 3)) NO); iexact H3
  isplitl [H4]; · iapply (tA (.dma (recvS 4)) NO); iexact H4
  isplitl [H5]; · iapply (tA (.dma (recvS 5)) NO); iexact H5
  isplitl [H6]; · iapply (tA (.dma (recvS 6)) NO); iexact H6
  iapply (tA (.dma (recvS 7)) NO); iexact H7

end Cert.Kernel.A2a

end
-- ==== Proof.KernelRegions.lean ====
/-
  Cutting the three buffers along the copies' rectangles, and what each copy leaves on its rectangle.
  The result array of a device is sixteen row bands of 1024 rows: the eight its own write-backs fill (its own row
  half) and the eight its partner's addressed copies fill (the other half).  The input block is sixteen squares:
  per chunk of 1024 rows, the column half that is sent and the column half that is kept.  The stage is its two slots.
  On its rectangle every copy leaves the final contents: entry (r, j) of a device's result is entry
  (r mod 8192, 1024·x + j) of the input block of the device holding row half r / 8192.
-/
import proofs.«900652_g7700000000000653_dist_a2a_v7x_xyz2x4x4_x_m8192_n1024_f32_1_alg».proof.Proof.KernelSched
import Idealize.ShloMosaic.Lib.Pipeline.Value

set_option maxRecDepth 16384

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Where each rectangle lies -/

/-- The sent square of chunk `k` starts at row `1024·k`, in the partner's column half. -/
theorem srcROff_eq (c : Dev nD) : ∀ k : Fin 8, srcROff c k = ![1024 * k.val, 1024 - 1024 * (c.val / 16)]
  | 0 => k0_off2_eq c | 1 => k0_off3_eq c | 2 => k0_off4_eq c | 3 => k0_off5_eq c
  | 4 => k0_off6_eq c | 5 => k0_off7_eq c | 6 => k0_off8_eq c | 7 => k0_off9_eq c

/-- The kept square of chunk `k` starts at row `1024·k`, in the device's own column half. -/
theorem srcLOff_eq (c : Dev nD) : ∀ k : Fin 8, srcLOff c k = ![1024 * k.val, 1024 * (c.val / 16)]
  | 0 => k0_off10_eq c | 1 => k0_off11_eq c | 2 => k0_off12_eq c | 3 => k0_off13_eq c
  | 4 => k0_off14_eq c | 5 => k0_off15_eq c | 6 => k0_off16_eq c | 7 => k0_off17_eq c

/-- Slot `s` starts at first coordinate `s`. -/
theorem stgOff_eq : ∀ s : Fin 2, stgOff s = ![s.val, 0, 0]
  | 0 => rfl | 1 => rfl

theorem srcR_off0 (c : Dev nD) (k : Fin 8) (y : S1024x1024.Idx) :
    (((srcR c k).view.emb y) 0 : ℕ) = 1024 * k.val + (y 0 : ℕ) := by
  show srcROff c k 0 + 1 * (y 0 : ℕ) = _
  rw [srcROff_eq]
  show 1024 * k.val + 1 * (y 0 : ℕ) = _
  omega

theorem srcR_off1 (c : Dev nD) (k : Fin 8) (y : S1024x1024.Idx) :
    (((srcR c k).view.emb y) 1 : ℕ) = 1024 - 1024 * (c.val / 16) + (y 1 : ℕ) := by
  show srcROff c k 1 + 1 * (y 1 : ℕ) = _
  rw [srcROff_eq]
  show 1024 - 1024 * (c.val / 16) + 1 * (y 1 : ℕ) = _
  omega

theorem srcL_off0 (c : Dev nD) (k : Fin 8) (y : S1024x1024.Idx) :
    (((srcL c k).view.emb y) 0 : ℕ) = 1024 * k.val + (y 0 : ℕ) := by
  show srcLOff c k 0 + 1 * (y 0 : ℕ) = _
  rw [srcLOff_eq]
  show 1024 * k.val + 1 * (y 0 : ℕ) = _
  omega

theorem srcL_off1 (c : Dev nD) (k : Fin 8) (y : S1024x1024.Idx) :
    (((srcL c k).view.emb y) 1 : ℕ) = 1024 * (c.val / 16) + (y 1 : ℕ) := by
  show srcLOff c k 1 + 1 * (y 1 : ℕ) = _
  rw [srcLOff_eq]
  show 1024 * (c.val / 16) + 1 * (y 1 : ℕ) = _
  omega

theorem dst_off0 (c : Dev nD) (k : Fin 8) (y : S1024x1024.Idx) :
    (((dstV c k).view.emb y) 0 : ℕ) = 8192 * (c.val / 16) + (1024 * k.val + (y 0 : ℕ)) := by
  show (k0_off1 c (BitVec.ofNat 32 (1024 * k.val))) 0 + 1 * (y 0 : ℕ) = _
  rw [k0_off1_eq]
  show 8192 * (c.val / 16) + 1024 * k.val + 1 * (y 0 : ℕ) = _
  omega

theorem dst_off1 (c : Dev nD) (k : Fin 8) (y : S1024x1024.Idx) :
    (((dstV c k).view.emb y) 1 : ℕ) = (y 1 : ℕ) := by
  show (k0_off1 c (BitVec.ofNat 32 (1024 * k.val))) 1 + 1 * (y 1 : ℕ) = _
  rw [k0_off1_eq]
  show 0 + 1 * (y 1 : ℕ) = _
  omega

/-- Row `r` is in band `k` of the rows device `c` addresses iff `8192·x(c) + 1024·k ≤ r < … + 1024`. -/
theorem mem_dst (c : Dev nD) (k : Fin 8) (i : S16384x1024.Idx) :
    i ∈ (dstV c k).view.set ↔ 8192 * (c.val / 16) + 1024 * k.val ≤ (i 0 : ℕ) ∧ (i 0 : ℕ) < 8192 * (c.val / 16) + 1024 * k.val + 1024 := by
  have e : (dstV c k).view.set = (Rect.unit (s := S16384x1024) (k0_off1 c (BitVec.ofNat 32 (1024 * k.val))) S1024x1024.size (k0_off1_inb c k)).set :=
    View.set_slice_whole _ _
  rw [e, Rect.mem_set_unit, k0_off1_eq]
  have h1 : (i 1 : ℕ) < 1024 := (i 1).isLt
  constructor
  · intro h; exact h 0
  · intro h a
    fin_cases a
    · exact h
    · show 0 ≤ (i 1 : ℕ) ∧ (i 1 : ℕ) < 0 + 1024
      omega

theorem mem_srcR (c : Dev nD) (k : Fin 8) (i : S8192x2048.Idx) :
    i ∈ (srcR c k).view.set ↔ (1024 * k.val ≤ (i 0 : ℕ) ∧ (i 0 : ℕ) < 1024 * k.val + 1024)
      ∧ (1024 - 1024 * (c.val / 16) ≤ (i 1 : ℕ) ∧ (i 1 : ℕ) < 1024 - 1024 * (c.val / 16) + 1024) := by
  have e : (srcR c k).view.set = (Rect.unit (s := S8192x2048) (srcROff c k) S1024x1024.size (srcROff_inb c k)).set :=
    View.set_slice_whole _ _
  rw [e, Rect.mem_set_unit, srcROff_eq]
  constructor
  · intro h; exact ⟨h 0, h 1⟩
  · intro h a
    fin_cases a
    · exact h.1
    · exact h.2

theorem mem_srcL (c : Dev nD) (k : Fin 8) (i : S8192x2048.Idx) :
    i ∈ (srcL c k).view.set ↔ (1024 * k.val ≤ (i 0 : ℕ) ∧ (i 0 : ℕ) < 1024 * k.val + 1024)
      ∧ (1024 * (c.val / 16) ≤ (i 1 : ℕ) ∧ (i 1 : ℕ) < 1024 * (c.val / 16) + 1024) := by
  have e : (srcL c k).view.set = (Rect.unit (s := S8192x2048) (srcLOff c k) S1024x1024.size (srcLOff_inb c k)).set :=
    View.set_slice_whole _ _
  rw [e, Rect.mem_set_unit, srcLOff_eq]
  constructor
  · intro h; exact ⟨h 0, h 1⟩
  · intro h a
    fin_cases a
    · exact h.1
    · exact h.2

theorem mem_stg (s : Fin 2) (i : S2x1024x1024.Idx) : i ∈ (stgV s).view.set ↔ (i 0 : ℕ) = s.val := by
  have h1 : (i 1 : ℕ) < 1024 := (i 1).isLt
  have h2 : (i 2 : ℕ) < 1024 := (i 2).isLt
  have e : (stgV s).view.set = (Rect.unit (s := S2x1024x1024) (stgOff s) S1x1024x1024.size (stgOff_inb s)).set :=
    (View.set_reshape _ _).trans (View.set_slice_whole _ _)
  rw [e, Rect.mem_set_unit, stgOff_eq]
  constructor
  · intro h
    have h0 : s.val ≤ (i 0 : ℕ) ∧ (i 0 : ℕ) < s.val + 1 := h 0
    omega
  · intro h a
    fin_cases a
    · show s.val ≤ (i 0 : ℕ) ∧ (i 0 : ℕ) < s.val + 1
      omega
    · show 0 ≤ (i 1 : ℕ) ∧ (i 1 : ℕ) < 0 + 1024
      omega
    · show 0 ≤ (i 2 : ℕ) ∧ (i 2 : ℕ) < 0 + 1024
      omega

/-! ## The cuts -/

/-- The sixteen row bands of a device's result array: its own (`inl`), its partner's (`inr`). -/
def outK (d : Dev nD) : Fin 8 ⊕ Fin 8 → Finset (S16384x1024.Idx)
  | .inl k => (dstV d k).view.set
  | .inr k => (dstV (peer d) k).view.set

theorem outK_cover (d : Dev nD) : (Finset.univ : Finset (Fin 8 ⊕ Fin 8)).biUnion (outK d) = Finset.univ := by
  ext i
  simp only [Finset.mem_biUnion, Finset.mem_univ, true_and, iff_true]
  have hr : (i 0 : ℕ) < 16384 := (i 0).isLt
  have hx := half_le d
  have hp := peer_half d
  have hk : ((i 0 : ℕ) % 8192) / 1024 < 8 := by omega
  by_cases h : (i 0 : ℕ) / 8192 = d.val / 16
  · refine ⟨.inl ⟨((i 0 : ℕ) % 8192) / 1024, hk⟩, (mem_dst d ⟨((i 0 : ℕ) % 8192) / 1024, hk⟩ i).mpr ?_⟩
    show 8192 * (d.val / 16) + 1024 * (((i 0 : ℕ) % 8192) / 1024) ≤ (i 0 : ℕ)
      ∧ (i 0 : ℕ) < 8192 * (d.val / 16) + 1024 * (((i 0 : ℕ) % 8192) / 1024) + 1024
    omega
  · refine ⟨.inr ⟨((i 0 : ℕ) % 8192) / 1024, hk⟩, (mem_dst (peer d) ⟨((i 0 : ℕ) % 8192) / 1024, hk⟩ i).mpr ?_⟩
    show 8192 * ((peer d).val / 16) + 1024 * (((i 0 : ℕ) % 8192) / 1024) ≤ (i 0 : ℕ)
      ∧ (i 0 : ℕ) < 8192 * ((peer d).val / 16) + 1024 * (((i 0 : ℕ) % 8192) / 1024) + 1024
    omega

theorem outK_disj (d : Dev nD) : ∀ t ∈ (Finset.univ : Finset (Fin 8 ⊕ Fin 8)), ∀ t' ∈ (Finset.univ : Finset (Fin 8 ⊕ Fin 8)),
    t ≠ t' → Disjoint (outK d t) (outK d t') := by
  intro t _ t' _ hne
  rw [Finset.disjoint_left]
  intro i hi hi'
  have hx := half_le d
  have hp := peer_half d
  rcases t with k | k <;> rcases t' with k' | k'
  · have h1 := (mem_dst d k i).mp hi
    have h2 := (mem_dst d k' i).mp hi'
    exact hne (congrArg Sum.inl (Fin.ext (by omega)))
  · have h1 := (mem_dst d k i).mp hi
    have h2 := (mem_dst (peer d) k' i).mp hi'
    have := k.isLt; have := k'.isLt
    omega
  · have h1 := (mem_dst (peer d) k i).mp hi
    have h2 := (mem_dst d k' i).mp hi'
    have := k.isLt; have := k'.isLt
    omega
  · have h1 := (mem_dst (peer d) k i).mp hi
    have h2 := (mem_dst (peer d) k' i).mp hi'
    exact hne (congrArg Sum.inr (Fin.ext (by omega)))

/-- A device's whole result array is its sixteen row bands. -/
theorem out_split (d : Dev nD) (f : Buf (Elt F) ((d : Thread nD τ).loc main_v1)) :
    ((((d : Thread nD τ).loc main_v1) ↦{fullShare} f) : sProp 𝕄)
      = iprop((bigSep Finset.univ fun k : Fin 8 => ((dstV d k).view.loc (d : Thread nD τ) ↦[(dstV d k).view.set]{fullShare} f))
          ∗ bigSep Finset.univ fun k : Fin 8 => ((dstV (peer d) k).view.loc (d : Thread nD τ) ↦[(dstV (peer d) k).view.set]{fullShare} f)) := by
  refine Eq.trans ?_ ((pointsTo_biUnion (ℓ := (d : Thread nD τ).loc main_v1) (q := fullShare) (f := f)
    Finset.univ (outK d) (outK_disj d)).trans ?_)
  · exact congrArg (fun I => ((((d : Thread nD τ).loc main_v1) ↦[I]{fullShare} f) : sProp 𝕄)) (outK_cover d).symm
  · exact bigSep_univ_sum _

/-- The sixteen squares of a device's input block: per chunk, the sent column half (`inl`) and the kept one (`inr`). -/
def xK (c : Dev nD) : Fin 8 ⊕ Fin 8 → Finset (S8192x2048.Idx)
  | .inl k => (srcR c k).view.set
  | .inr k => (srcL c k).view.set

theorem xK_cover (c : Dev nD) : (Finset.univ : Finset (Fin 8 ⊕ Fin 8)).biUnion (xK c) = Finset.univ := by
  ext i
  simp only [Finset.mem_biUnion, Finset.mem_univ, true_and, iff_true]
  have hr : (i 0 : ℕ) < 8192 := (i 0).isLt
  have hc : (i 1 : ℕ) < 2048 := (i 1).isLt
  have hx := half_le c
  have hk : (i 0 : ℕ) / 1024 < 8 := by omega
  by_cases h : (i 1 : ℕ) / 1024 = c.val / 16
  · refine ⟨.inr ⟨(i 0 : ℕ) / 1024, hk⟩, (mem_srcL c ⟨(i 0 : ℕ) / 1024, hk⟩ i).mpr ?_⟩
    show (1024 * ((i 0 : ℕ) / 1024) ≤ (i 0 : ℕ) ∧ (i 0 : ℕ) < 1024 * ((i 0 : ℕ) / 1024) + 1024)
      ∧ (1024 * (c.val / 16) ≤ (i 1 : ℕ) ∧ (i 1 : ℕ) < 1024 * (c.val / 16) + 1024)
    omega
  · refine ⟨.inl ⟨(i 0 : ℕ) / 1024, hk⟩, (mem_srcR c ⟨(i 0 : ℕ) / 1024, hk⟩ i).mpr ?_⟩
    show (1024 * ((i 0 : ℕ) / 1024) ≤ (i 0 : ℕ) ∧ (i 0 : ℕ) < 1024 * ((i 0 : ℕ) / 1024) + 1024)
      ∧ (1024 - 1024 * (c.val / 16) ≤ (i 1 : ℕ) ∧ (i 1 : ℕ) < 1024 - 1024 * (c.val / 16) + 1024)
    omega

theorem xK_disj (c : Dev nD) : ∀ t ∈ (Finset.univ : Finset (Fin 8 ⊕ Fin 8)), ∀ t' ∈ (Finset.univ : Finset (Fin 8 ⊕ Fin 8)),
    t ≠ t' → Disjoint (xK c t) (xK c t') := by
  intro t _ t' _ hne
  rw [Finset.disjoint_left]
  intro i hi hi'
  have hx := half_le c
  rcases t with k | k <;> rcases t' with k' | k'
  · have h1 := (mem_srcR c k i).mp hi
    have h2 := (mem_srcR c k' i).mp hi'
    exact hne (congrArg Sum.inl (Fin.ext (by omega)))
  · have h1 := (mem_srcR c k i).mp hi
    have h2 := (mem_srcL c k' i).mp hi'
    omega
  · have h1 := (mem_srcL c k i).mp hi
    have h2 := (mem_srcR c k' i).mp hi'
    omega
  · have h1 := (mem_srcL c k i).mp hi
    have h2 := (mem_srcL c k' i).mp hi'
    exact hne (congrArg Sum.inr (Fin.ext (by omega)))

theorem x_split (c : Dev nD) (f : Buf (Elt F) ((c : Thread nD τ).loc main_arg0)) :
    ((((c : Thread nD τ).loc main_arg0) ↦{fullShare} f) : sProp 𝕄)
      = iprop((bigSep Finset.univ fun k : Fin 8 => ((srcR c k).view.loc (c : Thread nD τ) ↦[(srcR c k).view.set]{fullShare} f))
          ∗ bigSep Finset.univ fun k : Fin 8 => ((srcL c k).view.loc (c : Thread nD τ) ↦[(srcL c k).view.set]{fullShare} f)) := by
  refine Eq.trans ?_ ((pointsTo_biUnion (ℓ := (c : Thread nD τ).loc main_arg0) (q := fullShare) (f := f)
    Finset.univ (xK c) (xK_disj c)).trans ?_)
  · exact congrArg (fun I => ((((c : Thread nD τ).loc main_arg0) ↦[I]{fullShare} f) : sProp 𝕄)) (xK_cover c).symm
  · exact bigSep_univ_sum _

def sK (s : Fin 2) : Finset (S2x1024x1024.Idx) := (stgV s).view.set

theorem sK_cover : (Finset.univ : Finset (Fin 2)).biUnion sK = Finset.univ := by
  ext i
  simp only [Finset.mem_biUnion, Finset.mem_univ, true_and, iff_true]
  have h0 : (i 0 : ℕ) < 2 := (i 0).isLt
  exact ⟨⟨(i 0 : ℕ), h0⟩, (mem_stg ⟨(i 0 : ℕ), h0⟩ i).mpr rfl⟩

theorem sK_disj : ∀ t ∈ (Finset.univ : Finset (Fin 2)), ∀ t' ∈ (Finset.univ : Finset (Fin 2)), t ≠ t' → Disjoint (sK t) (sK t') := by
  intro t _ t' _ hne
  rw [Finset.disjoint_left]
  intro i hi hi'
  have h1 := (mem_stg t i).mp hi
  have h2 := (mem_stg t' i).mp hi'
  exact hne (Fin.ext (h1.symm.trans h2))

theorem stg_split (c : Dev nD) (f : Buf (Elt F) ((c : Thread nD τ).loc cc0_scratch0)) :
    ((((c : Thread nD τ).loc cc0_scratch0) ↦{fullShare} f) : sProp 𝕄)
      = iprop(((stgV 0).view.loc (c : Thread nD τ) ↦[(stgV 0).view.set]{fullShare} f)
          ∗ ((stgV 1).view.loc (c : Thread nD τ) ↦[(stgV 1).view.set]{fullShare} f)) := by
  refine Eq.trans ?_ ((pointsTo_biUnion (ℓ := (c : Thread nD τ).loc cc0_scratch0) (q := fullShare) (f := f)
    Finset.univ sK sK_disj).trans ?_)
  · exact congrArg (fun I => ((((c : Thread nD τ).loc cc0_scratch0) ↦[I]{fullShare} f) : sProp 𝕄)) sK_cover.symm
  · exact bigSep_fin_two _

/-! ## What a copy leaves on its rectangle -/

omit [FloatOps F] in
/-- On a view's own elements, a write of `w` everywhere through it does not remember what was there. -/
theorem write_univ_congr {κ : Kind} {sp : Space} {S : Shape} {e : EltTy} (v : View sig κ sp S e)
    (f g : v.ty.Contents (Elt F)) (w : S.Idx → Elt F e) :
    ∀ i ∈ v.set, v.write (Elt F) f w Finset.univ i = v.write (Elt F) g w Finset.univ i := by
  intro i hi
  obtain ⟨y, rfl⟩ := View.exists_emb_of_mem_set v hi
  rw [View.write_emb_of_mem f w (Finset.mem_univ y), View.write_emb_of_mem g w (Finset.mem_univ y)]

theorem colDev_self (c : Dev nD) : colDev c (c.val / 16) = c := by revert c; decide
theorem colDev_peer (c : Dev nD) : colDev (peer c) (c.val / 16) = c := by revert c; decide

/-- The final contents at an entry of row half `x(c)` in the result array of a device `d` of `c`'s column: row
    `8192·x(c) + a`, column `j` holds entry `(a, 1024·x(d) + j)` of `c`'s input block. -/
theorem Rfin_eq (c d : Dev nD) (hd : colDev d (c.val / 16) = c) (i : S16384x1024.Idx) (a : Fin 8192) (b : Fin 2048)
    (h0 : (i 0 : ℕ) = 8192 * (c.val / 16) + a.val) (h1 : b.val = 1024 * (d.val / 16) + (i 1 : ℕ)) :
    Rfin m d i = X m c (ValueIdx.ix2 a b) := by
  have ha := a.isLt
  have hb := b.isLt
  have hx := half_le c
  have e1 : (i 0 : ℕ) / 8192 = c.val / 16 := by omega
  show X m (colDev d ((i 0 : ℕ) / 8192)) (ValueIdx.ix2 (⟨(i 0 : ℕ) % 8192, _⟩ : Fin 8192)
      (⟨(1024 * (d.val / 16) + (i 1 : ℕ)) % 2048, _⟩ : Fin 2048)) = _
  rw [e1, hd]
  exact congrArg (X m c) (congrArg₂ ValueIdx.ix2
    (Fin.ext (by show (i 0 : ℕ) % 8192 = a.val; omega))
    (Fin.ext (by show (1024 * (d.val / 16) + (i 1 : ℕ)) % 2048 = b.val; omega)))

/-- An entry of the input block, named by its two coordinates. -/
theorem X_at (c : Dev nD) (i : S8192x2048.Idx) (a : Fin 8192) (b : Fin 2048) (h0 : (i 0 : ℕ) = a.val) (h1 : (i 1 : ℕ) = b.val) :
    X m c i = X m c (ValueIdx.ix2 a b) :=
  congrArg (X m c) ((ValueIdx.eq_ix2 i).trans (congrArg₂ ValueIdx.ix2 (Fin.ext h0) (Fin.ext h1)))

/-- The final contents at the image of `y` in band `k` of the rows `c` addresses, in the result array of a device `d` of
    `c`'s column: entry `(1024·k + y₀, 1024·x(d) + y₁)` of `c`'s input block. -/
theorem Rfin_at (c d : Dev nD) (hd : colDev d (c.val / 16) = c) (k : Fin 8) (y : S1024x1024.Idx) :
    Rfin m d ((dstV c k).view.emb y)
      = X m c (ValueIdx.ix2 (⟨1024 * k.val + (y 0 : ℕ), by have h : (y 0 : ℕ) < 1024 := (y 0).isLt; have := k.isLt; omega⟩ : Fin 8192)
          (⟨1024 * (d.val / 16) + (y 1 : ℕ), by have h : (y 1 : ℕ) < 1024 := (y 1).isLt; have := half_le d; omega⟩ : Fin 2048)) :=
  Rfin_eq m c d hd _ _ _ (dst_off0 c k y) (congrArg (fun n => 1024 * (d.val / 16) + n) (dst_off1 c k y).symm)

/-- A sent square read at `y`: entry `(1024·k + y₀, 1024·(1 - x(c)) + y₁)` of the block. -/
theorem srcR_read (c : Dev nD) (k : Fin 8) (y : S1024x1024.Idx) :
    (srcR c k).view.read (Elt F) (X m c) y
      = X m c (ValueIdx.ix2 (⟨1024 * k.val + (y 0 : ℕ), by have h : (y 0 : ℕ) < 1024 := (y 0).isLt; have := k.isLt; omega⟩ : Fin 8192)
          (⟨1024 * ((peer c).val / 16) + (y 1 : ℕ), by have h : (y 1 : ℕ) < 1024 := (y 1).isLt; have := half_le (peer c); omega⟩ : Fin 2048)) := by
  have hp := peer_half c
  have hx := half_le c
  rw [View.read_apply]
  refine (cast_eq _ _).trans (X_at m c _ _ _ (srcR_off0 c k y) ?_)
  show (((srcR c k).view.emb y) 1 : ℕ) = 1024 * ((peer c).val / 16) + (y 1 : ℕ)
  rw [srcR_off1, hp]
  omega

theorem srcL_read (c : Dev nD) (k : Fin 8) (y : S1024x1024.Idx) :
    (srcL c k).view.read (Elt F) (X m c) y
      = X m c (ValueIdx.ix2 (⟨1024 * k.val + (y 0 : ℕ), by have h : (y 0 : ℕ) < 1024 := (y 0).isLt; have := k.isLt; omega⟩ : Fin 8192)
          (⟨1024 * (c.val / 16) + (y 1 : ℕ), by have h : (y 1 : ℕ) < 1024 := (y 1).isLt; have := half_le c; omega⟩ : Fin 2048)) := by
  rw [View.read_apply]
  exact (cast_eq _ _).trans (X_at m c _ _ _ (srcL_off0 c k y) (srcL_off1 c k y))

/-- An addressed copy leaves, on its band of the partner's result array, the partner's final contents. -/
theorem send_lands (c : Dev nD) (k : Fin 8) (fd : Buf (Elt F) ((dstV c k).view.loc ((peer c : Dev nD) : Thread nD τ))) :
    ∀ i ∈ (dstV c k).view.set,
      (dstV c k).view.write (Elt F) fd ((srcR c k).view.read (Elt F) (X m c)) Finset.univ i = Rfin m (peer c) i := by
  intro i hi
  obtain ⟨y, rfl⟩ := View.exists_emb_of_mem_set _ hi
  rw [View.write_emb_of_mem _ _ (Finset.mem_univ y)]
  refine (cast_eq _ _).trans ?_
  rw [srcR_read, Rfin_at m c (peer c) (colDev_peer c) k y]

/-- A slot holding the chunk, read back through its view, is the chunk. -/
theorem stg_read (c : Dev nD) (k : Fin 8) (s : Fin 2) :
    (stgV s).view.read (Elt F) (StgAt m c k s) = (srcL c k).view.read (Elt F) (X m c) := by
  unfold StgAt; exact View.read_write_univ _ _

/-- A write-back leaves, on its band of the device's own result array, the final contents. -/
theorem out_lands (c : Dev nD) (k : Fin 8) (s : Fin 2) (fd : Buf (Elt F) ((dstV c k).view.loc (c : Thread nD τ))) :
    ∀ i ∈ (dstV c k).view.set,
      (dstV c k).view.write (Elt F) fd ((stgV s).view.read (Elt F) (StgAt m c k s)) Finset.univ i = Rfin m c i := by
  intro i hi
  obtain ⟨y, rfl⟩ := View.exists_emb_of_mem_set _ hi
  rw [View.write_emb_of_mem _ _ (Finset.mem_univ y), stg_read]
  refine (cast_eq _ _).trans ?_
  rw [srcL_read, Rfin_at m c c (colDev_self c) k y]

/-- A copy into a slot leaves the chunk there. -/
theorem in_lands (c : Dev nD) (k : Fin 8) (s : Fin 2) (fd : Buf (Elt F) ((stgV s).view.loc (c : Thread nD τ))) :
    ∀ i ∈ (stgV s).view.set,
      (stgV s).view.write (Elt F) fd ((srcL c k).view.read (Elt F) (X m c)) Finset.univ i = StgAt m c k s i := by
  unfold StgAt
  exact write_univ_congr (stgV s).view fd _ _

/-! ## The cuts, chunk by chunk -/

/-- A device's whole result array: its own eight bands, then the eight its partner addresses. -/
theorem out_split8 (d : Dev nD) (f : Buf (Elt F) ((d : Thread nD τ).loc main_v1)) :
    ((((d : Thread nD τ).loc main_v1) ↦{fullShare} f) : sProp 𝕄)
      = iprop((((dstV d 0).view.loc (d : Thread nD τ) ↦[(dstV d 0).view.set]{fullShare} f) ∗ ((dstV d 1).view.loc (d : Thread nD τ) ↦[(dstV d 1).view.set]{fullShare} f)
            ∗ ((dstV d 2).view.loc (d : Thread nD τ) ↦[(dstV d 2).view.set]{fullShare} f) ∗ ((dstV d 3).view.loc (d : Thread nD τ) ↦[(dstV d 3).view.set]{fullShare} f)
            ∗ ((dstV d 4).view.loc (d : Thread nD τ) ↦[(dstV d 4).view.set]{fullShare} f) ∗ ((dstV d 5).view.loc (d : Thread nD τ) ↦[(dstV d 5).view.set]{fullShare} f)
            ∗ ((dstV d 6).view.loc (d : Thread nD τ) ↦[(dstV d 6).view.set]{fullShare} f) ∗ ((dstV d 7).view.loc (d : Thread nD τ) ↦[(dstV d 7).view.set]{fullShare} f))
          ∗ (((dstV (peer d) 0).view.loc (d : Thread nD τ) ↦[(dstV (peer d) 0).view.set]{fullShare} f) ∗ ((dstV (peer d) 1).view.loc (d : Thread nD τ) ↦[(dstV (peer d) 1).view.set]{fullShare} f)
            ∗ ((dstV (peer d) 2).view.loc (d : Thread nD τ) ↦[(dstV (peer d) 2).view.set]{fullShare} f) ∗ ((dstV (peer d) 3).view.loc (d : Thread nD τ) ↦[(dstV (peer d) 3).view.set]{fullShare} f)
            ∗ ((dstV (peer d) 4).view.loc (d : Thread nD τ) ↦[(dstV (peer d) 4).view.set]{fullShare} f) ∗ ((dstV (peer d) 5).view.loc (d : Thread nD τ) ↦[(dstV (peer d) 5).view.set]{fullShare} f)
            ∗ ((dstV (peer d) 6).view.loc (d : Thread nD τ) ↦[(dstV (peer d) 6).view.set]{fullShare} f) ∗ ((dstV (peer d) 7).view.loc (d : Thread nD τ) ↦[(dstV (peer d) 7).view.set]{fullShare} f))) := by
  rw [out_split, bigSep_fin8, bigSep_fin8]

/-- A device's whole input block: the eight sent squares, then the eight kept ones. -/
theorem x_split8 (c : Dev nD) (f : Buf (Elt F) ((c : Thread nD τ).loc main_arg0)) :
    ((((c : Thread nD τ).loc main_arg0) ↦{fullShare} f) : sProp 𝕄)
      = iprop((((srcR c 0).view.loc (c : Thread nD τ) ↦[(srcR c 0).view.set]{fullShare} f) ∗ ((srcR c 1).view.loc (c : Thread nD τ) ↦[(srcR c 1).view.set]{fullShare} f)
            ∗ ((srcR c 2).view.loc (c : Thread nD τ) ↦[(srcR c 2).view.set]{fullShare} f) ∗ ((srcR c 3).view.loc (c : Thread nD τ) ↦[(srcR c 3).view.set]{fullShare} f)
            ∗ ((srcR c 4).view.loc (c : Thread nD τ) ↦[(srcR c 4).view.set]{fullShare} f) ∗ ((srcR c 5).view.loc (c : Thread nD τ) ↦[(srcR c 5).view.set]{fullShare} f)
            ∗ ((srcR c 6).view.loc (c : Thread nD τ) ↦[(srcR c 6).view.set]{fullShare} f) ∗ ((srcR c 7).view.loc (c : Thread nD τ) ↦[(srcR c 7).view.set]{fullShare} f))
          ∗ (((srcL c 0).view.loc (c : Thread nD τ) ↦[(srcL c 0).view.set]{fullShare} f) ∗ ((srcL c 1).view.loc (c : Thread nD τ) ↦[(srcL c 1).view.set]{fullShare} f)
            ∗ ((srcL c 2).view.loc (c : Thread nD τ) ↦[(srcL c 2).view.set]{fullShare} f) ∗ ((srcL c 3).view.loc (c : Thread nD τ) ↦[(srcL c 3).view.set]{fullShare} f)
            ∗ ((srcL c 4).view.loc (c : Thread nD τ) ↦[(srcL c 4).view.set]{fullShare} f) ∗ ((srcL c 5).view.loc (c : Thread nD τ) ↦[(srcL c 5).view.set]{fullShare} f)
            ∗ ((srcL c 6).view.loc (c : Thread nD τ) ↦[(srcL c 6).view.set]{fullShare} f) ∗ ((srcL c 7).view.loc (c : Thread nD τ) ↦[(srcL c 7).view.set]{fullShare} f))) := by
  rw [x_split, bigSep_fin8, bigSep_fin8]

omit [FloatOps F] in
/-- The two slots, each at whatever it holds, are the whole stage at some contents. -/
theorem stg_join (c : Dev nD) (f g : Buf (Elt F) ((c : Thread nD τ).loc cc0_scratch0)) :
    iprop(((stgV 0).view.loc (c : Thread nD τ) ↦[(stgV 0).view.set]{fullShare} f) ∗ ((stgV 1).view.loc (c : Thread nD τ) ↦[(stgV 1).view.set]{fullShare} g))
      ⊢ (iprop(∃ h : Buf (Elt F) ((c : Thread nD τ).loc cc0_scratch0), ((c : Thread nD τ).loc cc0_scratch0) ↦{fullShare} h) : sProp 𝕄) := by
  have hd : Disjoint (sK 0) (sK 1) := sK_disj 0 (Finset.mem_univ _) 1 (Finset.mem_univ _) (by decide)
  have hu : sK 0 ∪ sK 1 = Finset.univ := by
    ext i
    simp only [Finset.mem_union, Finset.mem_univ, iff_true]
    have h0 : (i 0 : ℕ) < 2 := (i 0).isLt
    rcases (by omega : (i 0 : ℕ) = 0 ∨ (i 0 : ℕ) = 1) with h | h
    · exact Or.inl ((mem_stg 0 i).mpr h)
    · exact Or.inr ((mem_stg 1 i).mpr h)
  refine (pointsTo_join (ℓ := (c : Thread nD τ).loc cc0_scratch0) (I := sK 0) (J := sK 1) (q := fullShare) (f := f) (g := g) hd).trans ?_
  refine (Entails.of_eq (congrArg (fun I => ((((c : Thread nD τ).loc cc0_scratch0) ↦[I]{fullShare} ((sK 1).piecewise g f)) : sProp 𝕄)) hu)).trans ?_
  iintro H; iexists _; iexact H

omit [FloatOps F] in
/-- A points-to at known contents is one at some contents. -/
theorem pt_some {ℓ : Loc nD τ sig} (I : Finset (Idx ℓ)) (f : Buf (Elt F) ℓ) :
    ((ℓ ↦[I]{fullShare} f) : sProp 𝕄) ⊢ iprop(∃ g : Buf (Elt F) ℓ, ℓ ↦[I]{fullShare} g) := by
  iintro H; iexists f; iexact H

end Cert.Kernel.A2a

end
-- ==== Proof.KernelSteps.lean ====
/-
  One device's body, stepped effect by effect under the schedule of rounds.
  The order the program forces: the signal to the partner (handing over the half of this device's result array the
  partner's copies write, with the marks of this device's receive cells), the wait on the own barrier cell (the
  partner's half of ITS array arrives), the eight addressed copies (each pays a receive duty of the partner with the
  band it lands, at the partner's final contents, and a send duty of this device with its source square), then the
  two-slot pipeline of the kept columns — copy in, wait, copy out, wait, slot by slot —, then the sixteen waits on
  the send and receive cells.  At the end every square of the input block is back, every band of the result array
  holds the final contents, and the twenty own cells are closed with their counters at zero.
-/
import proofs.«900652_g7700000000000653_dist_a2a_v7x_xyz2x4x4_x_m8192_n1024_f32_1_alg».proof.Proof.KernelTables
import proofs.«900652_g7700000000000653_dist_a2a_v7x_xyz2x4x4_x_m8192_n1024_f32_1_alg».proof.Proof.KernelRegions

set_option maxRecDepth 65536

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The three kinds of step -/

section Steps

variable (K : Dev nD × Fin 21 → ℕ)

/-- An addressed copy of chunk `k`, to `n` = the partner: it pays the partner's receive duty `k` with the band at the
    partner's final contents, and this device's send duty `k` with the source square. -/
theorem step_send (c n : Dev nD) (hn : n = peer c) (k : Fin 8)
    {hsc : ((dstV c k : Memref sig (Dev.tc n : Thread nD τ).2.kind .hbm S1024x1024 .f32)).view.ref.isScScratch = false}
    {hsrc : (srcR c k).view.WordExact} {hdst : (dstV c k).view.WordExact}
    {hsem : DmaTarget.Typed .hbm (.dma (recvS k)) (.remote (Dev.tc n : Thread nD τ) (dstV c k) (.dma (sendS k)) hsc)}
    {α : Type} {Q : α → sProp 𝕄} {kk : PUnit → Prog (TpuEff nD τ sig (Elt F) Λ₀ .tc) α}
    (fn : Buf (Elt F) ((dstV c k).view.loc ((peer c : Dev nD) : Thread nD τ))) (O : CellTallies nD τ sig Unit) :
    iprop(cellInv ER (rd m) (K (c, sendIx k)) (sendCell c k) ∗ cellInv ER (rd m) (K (peer c, recvIx k)) (recvCell (peer c) k)
        ∗ ((srcR c k).view.loc (c : Thread nD τ) ↦[(srcR c k).view.set]{fullShare} X m c)
        ∗ ((dstV c k).view.loc ((peer c : Dev nD) : Thread nD τ) ↦[(dstV c k).view.set]{fullShare} fn)
        ∗ (∃ W, owes (c : Thread nD τ) (O + tallyAt (recvCell (peer c) k) () NO) W)
        ∗ dutyTok ER (sendCell c k) 0 () ∗ reached ER (sendCell c k) 0
        ∗ dutyTok ER (recvCell (peer c) k) 0 () ∗ reached ER (recvCell (peer c) k) 0)
      ⊢ iprop(((cred (tallyAt (sendCell c k) () NO) ∗ ∃ W, owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (srcR c k) (.remote (Dev.tc n : Thread nD τ) (dstV c k) (.dma (sendS k)) hsc) (.dma (recvS k)) hsrc hdst hsem) kk) Q) := by
  subst hn
  iintro ⟨#HI1, #HI2, Hs, Hd, ⟨%W, HO⟩, Ht1, #Hr1, Ht2, #Hr2⟩ Hk
  iapply (Rounds.wp_send_pointsTo 𝒱₀ ER (rd m) (c : Thread nD τ) none (c' := ((peer c : Dev nD) : Thread nD τ))
    (src := srcR c k) (dst := dstV c k) (hsc := hsc) (sS := .dma (sendS k)) (sem := .dma (recvS k))
    (hsrc := hsrc) (hdst := hdst) (hsem := hsem) (k := kk) (q := fullShare) (fs := X m c)
    (κ₁ := K (c, sendIx k)) (κ₂ := K (peer c, recvIx k))
    (r₁ := 0) (r₂ := 0) (d₁ := ()) (d₂ := ()) (fd := fn)
    (by rw [duties_send]; exact Finset.mem_singleton_self _) (by rw [duties_recv]; exact Finset.mem_singleton_self _)
    () () NO (amount_dst c k (recvS k)) (amount_send m c k 0 ()) (amount_recv m (peer c) k 0 ()) O rfl (W := W)
    (by rw [payload_send]; exact BI.Entails.refl _)
    (by rw [payload_recv]; unfold recvPay; rw [peer_peer]; exact Entails.of_eq (pointsTo_congr (send_lands m c k fn))))
    $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- A copy of chunk `k` of the kept columns into slot `s`, in round `r` of the slot's in cell. -/
theorem step_copyin (c : Dev nD) (s : Fin 2) (r : ℕ) (hr : r < 4) (k : Fin 8) (hk : chunk s r = k)
    {hsrc : (srcL c k).view.WordExact} {hdst : (stgV s).view.WordExact}
    {hsem : DmaTarget.Typed (nD := nD) .hbm (.dma (inS s)) (.here (stgV s) : DmaTarget nD τ sig .tc .vmem S1024x1024 .f32)}
    {α : Type} {Q : α → sProp 𝕄} {kk : PUnit → Prog (TpuEff nD τ sig (Elt F) Λ₀ .tc) α} :
    iprop(cellInv ER (rd m) (K (c, inIx s)) (inCell c s)
        ∗ ((srcL c k).view.loc (c : Thread nD τ) ↦[(srcL c k).view.set]{fullShare} X m c)
        ∗ (∃ fd : Buf (Elt F) ((stgV s).view.loc (c : Thread nD τ)), (stgV s).view.loc (c : Thread nD τ) ↦[(stgV s).view.set]{fullShare} fd)
        ∗ dutyTok ER (inCell c s) r () ∗ reached ER (inCell c s) r)
      ⊢ iprop((cred (tallyAt (inCell c s) () NS) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (srcL c k) (.here (stgV s)) (.dma (inS s)) hsrc hdst hsem) kk) Q) := by
  subst hk
  iintro ⟨#HI, Hs, ⟨%fd, Hd⟩, Ht, #Hr⟩ Hk
  iapply (Rounds.wp_copy_pointsTo 𝒱₀ ER (rd m) (c : Thread nD τ) none (src := srcL c (chunk s r)) (dst := stgV s) (sem := .dma (inS s))
    (hsrc := hsrc) (hdst := hdst) (hsem := hsem) (k := kk) (κ := K (c, inIx s)) (r := r) (d := ()) (q := fullShare)
    (fs := X m c) (fd := fd)
    (by rw [duties_in m c s r hr]; exact Finset.mem_singleton_self _) () NS (amount_stg s _) (amount_in m c s r ())
    (by rw [payload_in]; unfold inPay; exact sep_mono_left (Entails.of_eq (pointsTo_congr (in_lands m c _ s fd))))) $$ [Hs Hd Ht]
  · isplitr; · iexact HI
    isplitl [Hs]; · iexact Hs
    isplitl [Hd]; · iexact Hd
    isplitl [Ht]; · iexact Ht
    iexact Hr
  iexact Hk

/-- The write-back of slot `s`, holding chunk `k`, to band `k` of the device's own result array. -/
theorem step_copyout (c : Dev nD) (s : Fin 2) (r : ℕ) (hr : r < 4) (k : Fin 8) (hk : chunk s r = k)
    {hsrc : (stgV s).view.WordExact} {hdst : (dstV c k).view.WordExact}
    {hsem : DmaTarget.Typed (nD := nD) .vmem (.dma (outS s)) (.here (dstV c k) : DmaTarget nD τ sig .tc .hbm S1024x1024 .f32)}
    {α : Type} {Q : α → sProp 𝕄} {kk : PUnit → Prog (TpuEff nD τ sig (Elt F) Λ₀ .tc) α}
    (fd : Buf (Elt F) ((dstV c k).view.loc (c : Thread nD τ))) :
    iprop(cellInv ER (rd m) (K (c, outIx s)) (outCell c s)
        ∗ ((stgV s).view.loc (c : Thread nD τ) ↦[(stgV s).view.set]{fullShare} StgAt m c k s)
        ∗ ((dstV c k).view.loc (c : Thread nD τ) ↦[(dstV c k).view.set]{fullShare} fd)
        ∗ dutyTok ER (outCell c s) r () ∗ reached ER (outCell c s) r)
      ⊢ iprop((cred (tallyAt (outCell c s) () NO) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (stgV s) (.here (dstV c k)) (.dma (outS s)) hsrc hdst hsem) kk) Q) := by
  subst hk
  exact Rounds.wp_copy_pointsTo 𝒱₀ ER (rd m) (c : Thread nD τ) none (src := stgV s) (dst := dstV c (chunk s r)) (sem := .dma (outS s))
    (hsrc := hsrc) (hdst := hdst) (hsem := hsem) (k := kk) (κ := K (c, outIx s)) (r := r) (d := ()) (q := fullShare)
    (fs := StgAt m c (chunk s r) s) (fd := fd)
    (by rw [duties_out m c s r hr]; exact Finset.mem_singleton_self _) () NO (amount_dst c _ _) (amount_out m c s r ())
    (by rw [payload_out]; unfold outPay; exact sep_mono_left (Entails.of_eq (pointsTo_congr (out_lands m c _ s fd))))

/-- A wait, owing nothing, for the whole of a one-duty round of one of the device's own DMA cells: the round's payload `P`. -/
theorem step_wait (c : Dev nD) (q : DmaSem sig) (κ : ℕ) (R : ℕ) (P : sProp 𝕄) (Nn : ℕ)
    {sp sp' : Space} {s s' : Shape} {e e' : EltTy}
    {src : Memref sig .tc sp' s' e'} {dst : Memref sig .tc sp s e} {hs : src.view.WordExact} {hd : dst.view.WordExact}
    (hN : dst.view.dmaCredit = Nn)
    (hexp : (rd (F := F) m).expect ((c : Thread nD τ), .dma q) R = Nn)
    (hrest : bigSep ((rd (F := F) m).duties ((c : Thread nD τ), .dma q) R \ ∅) (fun d => (rd (F := F) m).payload ((c : Thread nD τ), .dma q) R d) = P)
    {α : Type} {Q : α → sProp 𝕄} {kk : PUnit → Prog (TpuEff nD τ sig (Elt F) Λ₀ .tc) α} :
    iprop(cellInv ER (rd m) κ ((c : Thread nD τ), .dma q) ∗ cred (tallyAt ((c : Thread nD τ), .dma q) () Nn)
        ∗ (∃ W, owes (c : Thread nD τ) 0 W) ∗ atPos ER ((c : Thread nD τ), .dma q) R ∅ 0)
      ⊢ iprop((((∃ W, owes (c : Thread nD τ) 0 W) ∗ atPos ER ((c : Thread nD τ), .dma q) (R + 1) ∅ 0
              ∗ reached ER ((c : Thread nD τ), .dma q) (R + 1) ∗ P)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hs hd) kk) Q) := by
  subst hN
  iintro ⟨#HI, Hc, ⟨%W, HO⟩, Hat⟩ Hk
  iapply (Rounds.wp_wait_rest_token 𝒱₀ ER (rd m) (c : Thread nD τ) none (κ := κ) (w := .waitDma2 q src dst hs hd) (k := kk)
      (wpE_waitDma2_eq 𝒱₀ (c : Thread nD τ) none Set.univ) (Set.mem_univ _) () (O := 0) (W := W) (R := R) (m := 0) (T := ∅)
      (by rw [Nat.zero_add, hexp])) $$ [Hc HO Hat]
  · isplitr; · iexact HI
    isplitl [Hc]; · iexact Hc
    isplitl [HO]; · iexact HO
    isplitr; · rw [MayWait_zero]; iempintro
    iexact Hat
  iintro ⟨HO, Hat, Hr, Hpay⟩
  iapply Hk
  ihave Hp := (Entails.of_eq hrest) $$ Hpay
  isplitl [HO]; · iexists _; iexact HO
  isplitl [Hat]; · iexact Hat
  isplitl [Hr]; · iexact Hr
  iexact Hp

/-- Closing one of the device's own cells once its last round is done: the counter at zero is the core's again. -/
theorem step_close (c : Dev nD) (q : DmaSem sig) (κ : ℕ) (R : ℕ)
    (hR : ∀ r, R ≤ r → (rd (F := F) m).duties ((c : Thread nD τ), .dma q) r = ∅) :
    iprop(cellInv ER (rd m) κ ((c : Thread nD τ), .dma q) ∗ atPos ER ((c : Thread nD τ), .dma q) R ∅ 0)
      ⊢ (iprop(|={Set.univ}=> semVal ((c : Thread nD τ), .dma q) 0) : sProp 𝕄) :=
  Rounds.cell_close ER (rd m) (Set.mem_univ κ) (fun h => h) (R := R) hR

end Steps

/-! ## What the body starts from and ends with -/

section Body

variable (K : Dev nD × Fin 21 → ℕ)

def bodyPre (c : Dev nD) : sProp 𝕄 :=
  iprop(ghost m K c ∗ creds c ∗ levAts L lv
    ∗ (((c : Thread nD τ).loc main_arg0) ↦{fullShare} X m c)
    ∗ (((c : Thread nD τ).loc main_v1) ↦{fullShare} m ((c : Thread nD τ).loc main_v1))
    ∗ (∃ f : Buf (Elt F) ((c : Thread nD τ).loc cc0_scratch0), ((c : Thread nD τ).loc cc0_scratch0) ↦{fullShare} f)
    ∗ (dats m 0 c).owesAt () t₀.castSucc)

def bodyPost (c : Dev nD) : sProp 𝕄 := iprop(Φ₁ m c ∗ (dats m 0 c).owesAt () t₀.succ)

end Body

end Cert.Kernel.A2a

end
-- ==== Proof.KernelRun.lean ====
/-
  The run of one device's body, from the ghost state and buffers the launch deals it to the invariant after the point.
  Between the steps the assertions held are: the squares of the input block not lent to a copy; the bands of the
  result array not yet written, written (at the final contents), or handed to the partner; each slot of the stage at
  some contents or holding a chunk; per cell its position, the tokens of the duties still to pay, the credit of a copy
  issued and not yet waited for; and what is still owed to the partner's receive cells.
-/
import proofs.«900652_g7700000000000653_dist_a2a_v7x_xyz2x4x4_x_m8192_n1024_f32_1_alg».proof.Proof.KernelSteps

set_option maxRecDepth 65536

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Run

variable (K : Dev nD × Fin 21 → ℕ)

set_option maxHeartbeats 16000000 in
/-- The body, one rule per effect in program order, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel
  simp only [semSignalWord, semWaitWord, Prog.lift, Prog.bind_op, Prog.bind_ret, Prog.pure_eq_ret, wp_deviceId]
  unfold bodyPre ghost invs poss marks payToks creds
  simp only [bigSep_fin8, bigSep_fin21, bigSep_fin2x4]
  iintro ⟨⟨⟨⟨⟨#HI0, #HI1, #HI2, #HI3, #HI4, #HI5, #HI6, #HI7, #HI8, #HI9, #HI10, #HI11, #HI12, #HI13, #HI14, #HI15, #HI16, #HI17, #HI18, #HI19, #HI20⟩,
        #HIpb, #HIpr0, #HIpr1, #HIpr2, #HIpr3, #HIpr4, #HIpr5, #HIpr6, #HIpr7⟩,
      ⟨Hat0, Hat1, Hat2, Hat3, Hat4, Hat5, Hat6, Hat7, Hat8, Hat9, Hat10, Hat11, Hat12, Hat13, Hat14, Hat15, Hat16, Hat17, Hat18, Hat19, Hat20⟩,
      ⟨⟨#Hr0, #Hr1, #Hr2, #Hr3, #Hr4, #Hr5, #Hr6, #Hr7, #Hr8, #Hr9, #Hr10, #Hr11, #Hr12, #Hr13, #Hr14, #Hr15, #Hr16, #Hr17, #Hr18, #Hr19, #Hr20⟩,
        #Hrpb, #Hrpr0, #Hrpr1, #Hrpr2, #Hrpr3, #Hrpr4, #Hrpr5, #Hrpr6, #Hrpr7⟩,
      Htpb, ⟨Htpr0, Htpr1, Htpr2, Htpr3, Htpr4, Htpr5, Htpr6, Htpr7⟩, ⟨Hts0, Hts1, Hts2, Hts3, Hts4, Hts5, Hts6, Hts7⟩,
      ⟨Hti00, Hti01, Hti02, Hti03, Hti10, Hti11, Hti12, Hti13⟩, Hto00, Hto01, Hto02, Hto03, Hto10, Hto11, Hto12, Hto13⟩,
    ⟨HcB, Hcr0, Hcr1, Hcr2, Hcr3, Hcr4, Hcr5, Hcr6, Hcr7⟩, #Hlev, Hx, Ho, ⟨%f0, Hscr⟩, Howes⟩, Hk⟩
  unfold Dat.owesAt Pipeline.owesWithin
  icases Howes with ⟨%W, %hW, HO⟩
  rw [show (dats m 0 c).owed t₀.castSucc = O₀ c from rfl]
  simp only [dev1_eq c]
  -- the three buffers, cut along the copies' rectangles
  ihave Ho' := (Entails.of_eq (out_split8 (F := F) c _)) $$ Ho
  icases Ho' with ⟨⟨Hb0, Hb1, Hb2, Hb3, Hb4, Hb5, Hb6, Hb7⟩, Hp0, Hp1, Hp2, Hp3, Hp4, Hp5, Hp6, Hp7⟩
  ihave Hx' := (Entails.of_eq (x_split8 (F := F) c _)) $$ Hx
  icases Hx' with ⟨⟨Hxr0, Hxr1, Hxr2, Hxr3, Hxr4, Hxr5, Hxr6, Hxr7⟩, Hxl0, Hxl1, Hxl2, Hxl3, Hxl4, Hxl5, Hxl6, Hxl7⟩
  ihave Hs' := (Entails.of_eq (stg_split (F := F) c f0)) $$ Hscr
  icases Hs' with ⟨HS0', HS1'⟩
  ihave HS0 := (pt_some (F := F) _ _) $$ HS0'
  ihave HS1 := (pt_some (F := F) _ _) $$ HS1'
  -- THE SIGNAL to the partner's barrier cell: with it go the eight bands the partner addresses here, and the marks of the own receive cells
  iapply (Rounds.wp_signal 𝒱₀ ER (rd m) (c : Thread nD τ) none (dst := ((peer c : Dev nD) : Thread nD τ)) (κ := K (peer c, 0))
      (d := ()) (by rw [duties_bar]; exact Finset.mem_singleton_self _) ((amount_bar m (peer c) 0 ()).trans (by decide)) () (OS c 0) rfl)
    $$ [HO Htpb Hp0 Hp1 Hp2 Hp3 Hp4 Hp5 Hp6 Hp7]
  · isplitr; · iexact HIpb
    isplitl [HO]; · iexact HO
    isplitl [Htpb]; · iexact Htpb
    isplitl [Hp0 Hp1 Hp2 Hp3 Hp4 Hp5 Hp6 Hp7]
    · rw [payload_bar]; unfold barPay; rw [peer_peer, bigSep_fin8]
      isplitl [Hp0 Hp1 Hp2 Hp3 Hp4 Hp5 Hp6 Hp7]
      · iexists (m ((c : Thread nD τ).loc main_v1))
        rw [bigSep_fin8]
        isplitl [Hp0]; · iexact Hp0
        isplitl [Hp1]; · iexact Hp1
        isplitl [Hp2]; · iexact Hp2
        isplitl [Hp3]; · iexact Hp3
        isplitl [Hp4]; · iexact Hp4
        isplitl [Hp5]; · iexact Hp5
        isplitl [Hp6]; · iexact Hp6
        iexact Hp7
      · isplitr; · iexact Hr9
        isplitr; · iexact Hr10
        isplitr; · iexact Hr11
        isplitr; · iexact Hr12
        isplitr; · iexact Hr13
        isplitr; · iexact Hr14
        isplitr; · iexact Hr15
        iexact Hr16
    · iexact Hrpb
  iintro HO
  -- THE WAIT on the own barrier cell, owing the eight receive credits: the bands this device addresses in the partner's array come with it
  iapply (Rounds.wp_wait_rest_token 𝒱₀ ER (rd m) (c : Thread nD τ) none (κ := K (c, 0))
      (wpE_semWait_eq 𝒱₀ (c : Thread nD τ) none Set.univ) (Set.mem_univ _) () (O := OS c 0) (W := W) (R := 0) (m := 0) (T := ∅)
      (by rw [expect_bar]; decide)) $$ [HcB HO Hat0]
  · isplitr; · iexact HI0
    isplitl [HcB]; · iexact HcB
    isplitl [HO]; · iexact HO
    isplitr; · iapply (mayWait_bar c); iexact Hlev
    iexact Hat0
  iintro ⟨HO', Hat0, -, Hpay⟩
  ihave Hp := (Entails.of_eq (rest_bar m c)) $$ Hpay
  unfold barPay
  icases Hp with ⟨⟨%fn, Hd⟩, -⟩
  ihave Hd' := (Entails.of_eq (bigSep_fin8 (F := F) _)) $$ Hd
  icases Hd' with ⟨Hd0, Hd1, Hd2, Hd3, Hd4, Hd5, Hd6, Hd7⟩
  ihave HO : iprop(∃ W', owes (c : Thread nD τ) (OS c 0) W') $$ [HO']
  · iexists _; iexact HO'
  -- THE EIGHT ADDRESSED COPIES
  iapply (step_send m K c _ (dev2_eq c) 0 fn (OS c 1)) $$ [Hxr0 Hd0 HO Hts0 Htpr0]
  · isplitr; · iexact HI1
    isplitr; · iexact HIpr0
    isplitl [Hxr0]; · iexact Hxr0
    isplitl [Hd0]; · iexact Hd0
    isplitl [HO]; · iexact HO
    isplitl [Hts0]; · iexact Hts0
    isplitr; · iexact Hr1
    isplitl [Htpr0]; · iexact Htpr0
    iexact Hrpr0
  iintro ⟨HcS0, HO⟩
  iapply (step_send m K c _ (dev3_eq c) 1 fn (OS c 2)) $$ [Hxr1 Hd1 HO Hts1 Htpr1]
  · isplitr; · iexact HI2
    isplitr; · iexact HIpr1
    isplitl [Hxr1]; · iexact Hxr1
    isplitl [Hd1]; · iexact Hd1
    isplitl [HO]; · iexact HO
    isplitl [Hts1]; · iexact Hts1
    isplitr; · iexact Hr2
    isplitl [Htpr1]; · iexact Htpr1
    iexact Hrpr1
  iintro ⟨HcS1, HO⟩
  iapply (step_send m K c _ (dev4_eq c) 2 fn (OS c 3)) $$ [Hxr2 Hd2 HO Hts2 Htpr2]
  · isplitr; · iexact HI3
    isplitr; · iexact HIpr2
    isplitl [Hxr2]; · iexact Hxr2
    isplitl [Hd2]; · iexact Hd2
    isplitl [HO]; · iexact HO
    isplitl [Hts2]; · iexact Hts2
    isplitr; · iexact Hr3
    isplitl [Htpr2]; · iexact Htpr2
    iexact Hrpr2
  iintro ⟨HcS2, HO⟩
  iapply (step_send m K c _ (dev5_eq c) 3 fn (OS c 4)) $$ [Hxr3 Hd3 HO Hts3 Htpr3]
  · isplitr; · iexact HI4
    isplitr; · iexact HIpr3
    isplitl [Hxr3]; · iexact Hxr3
    isplitl [Hd3]; · iexact Hd3
    isplitl [HO]; · iexact HO
    isplitl [Hts3]; · iexact Hts3
    isplitr; · iexact Hr4
    isplitl [Htpr3]; · iexact Htpr3
    iexact Hrpr3
  iintro ⟨HcS3, HO⟩
  iapply (step_send m K c _ (dev6_eq c) 4 fn (OS c 5)) $$ [Hxr4 Hd4 HO Hts4 Htpr4]
  · isplitr; · iexact HI5
    isplitr; · iexact HIpr4
    isplitl [Hxr4]; · iexact Hxr4
    isplitl [Hd4]; · iexact Hd4
    isplitl [HO]; · iexact HO
    isplitl [Hts4]; · iexact Hts4
    isplitr; · iexact Hr5
    isplitl [Htpr4]; · iexact Htpr4
    iexact Hrpr4
  iintro ⟨HcS4, HO⟩
  iapply (step_send m K c _ (dev7_eq c) 5 fn (OS c 6)) $$ [Hxr5 Hd5 HO Hts5 Htpr5]
  · isplitr; · iexact HI6
    isplitr; · iexact HIpr5
    isplitl [Hxr5]; · iexact Hxr5
    isplitl [Hd5]; · iexact Hd5
    isplitl [HO]; · iexact HO
    isplitl [Hts5]; · iexact Hts5
    isplitr; · iexact Hr6
    isplitl [Htpr5]; · iexact Htpr5
    iexact Hrpr5
  iintro ⟨HcS5, HO⟩
  iapply (step_send m K c _ (dev8_eq c) 6 fn (OS c 7)) $$ [Hxr6 Hd6 HO Hts6 Htpr6]
  · isplitr; · iexact HI7
    isplitr; · iexact HIpr6
    isplitl [Hxr6]; · iexact Hxr6
    isplitl [Hd6]; · iexact Hd6
    isplitl [HO]; · iexact HO
    isplitl [Hts6]; · iexact Hts6
    isplitr; · iexact Hr7
    isplitl [Htpr6]; · iexact Htpr6
    iexact Hrpr6
  iintro ⟨HcS6, HO⟩
  iapply (step_send m K c _ (dev9_eq c) 7 fn 0) $$ [Hxr7 Hd7 HO Hts7 Htpr7]
  · isplitr; · iexact HI8
    isplitr; · iexact HIpr7
    isplitl [Hxr7]; · iexact Hxr7
    isplitl [Hd7]; · iexact Hd7
    isplitl [HO]; · iexact HO
    isplitl [Hts7]; · iexact Hts7
    isplitr; · iexact Hr8
    isplitl [Htpr7]; · iexact Htpr7
    iexact Hrpr7
  iintro ⟨HcS7, HO⟩
  -- THE PIPELINE OF THE KEPT COLUMNS.  chunk 0 into slot 0
  iapply (step_copyin m K c 0 0 (by decide) 0 rfl) $$ [Hxl0 HS0 Hti00]
  · isplitr; · iexact HI17
    isplitl [Hxl0]; · iexact Hxl0
    isplitl [HS0]; · iexact HS0
    isplitl [Hti00]; · iexact Hti00
    iexact Hr17
  iintro Hci
  -- chunk 0 landed
  iapply (step_wait m c (inS 0) (K (c, inIx 0)) 0 (inPay m c 0 0) NS (src := srcL c 0) (dst := stgV 0) rfl (expect_in m c 0 0 (by decide)) (rest_in m c 0 0 (by decide))) $$ [Hci HO Hat17]
  · isplitr; · iexact HI17
    isplitl [Hci]; · iexact Hci
    isplitl [HO]; · iexact HO
    iexact Hat17
  iintro ⟨HO, Hat17, #Hri0_1, Hpay⟩
  unfold inPay
  icases Hpay with ⟨HS0, Hxl0⟩
  -- chunk 1 into slot 1
  iapply (step_copyin m K c 1 0 (by decide) 1 rfl) $$ [Hxl1 HS1 Hti10]
  · isplitr; · iexact HI18
    isplitl [Hxl1]; · iexact Hxl1
    isplitl [HS1]; · iexact HS1
    isplitl [Hti10]; · iexact Hti10
    iexact Hr18
  iintro Hci1
  -- slot 0 written back to band 0
  iapply (step_copyout m K c 0 0 (by decide) 0 rfl (m ((c : Thread nD τ).loc main_v1))) $$ [HS0 Hb0 Hto00]
  · isplitr; · iexact HI19
    isplitl [HS0]; · iexact HS0
    isplitl [Hb0]; · iexact Hb0
    isplitl [Hto00]; · iexact Hto00
    iexact Hr19
  iintro Hco0
  -- k = 1: chunk 1 landed; the write-back of chunk 0 done; chunk 2 into slot 0; slot 1 written back to band 1
  iapply (step_wait m c (inS 1) (K (c, inIx 1)) 0 (inPay m c 1 0) NS (src := srcL c 1) (dst := stgV 1) rfl (expect_in m c 1 0 (by decide)) (rest_in m c 1 0 (by decide))) $$ [Hci1 HO Hat18]
  · isplitr; · iexact HI18
    isplitl [Hci1]; · iexact Hci1
    isplitl [HO]; · iexact HO
    iexact Hat18
  iintro ⟨HO, Hat18, #Hri1_1, Hpay⟩
  unfold inPay
  icases Hpay with ⟨HS1, Hxl1⟩
  iapply (step_wait m c (outS 0) (K (c, outIx 0)) 0 (outPay m c 0 0) NO (src := stgV 0) (dst := dstV c 0) rfl (expect_out m c 0 0 (by decide)) (rest_out m c 0 0 (by decide))) $$ [Hco0 HO Hat19]
  · isplitr; · iexact HI19
    isplitl [Hco0]; · iexact Hco0
    isplitl [HO]; · iexact HO
    iexact Hat19
  iintro ⟨HO, Hat19, #Hro0_1, Hpay⟩
  unfold outPay
  icases Hpay with ⟨Hf0, HS0'⟩
  ihave HS0 := (pt_some (F := F) _ _) $$ HS0'
  iapply (step_copyin m K c 0 1 (by decide) 2 rfl) $$ [Hxl2 HS0 Hti01]
  · isplitr; · iexact HI17
    isplitl [Hxl2]; · iexact Hxl2
    isplitl [HS0]; · iexact HS0
    isplitl [Hti01]; · iexact Hti01
    iexact Hri0_1
  iintro Hci
  iapply (step_copyout m K c 1 0 (by decide) 1 rfl (m ((c : Thread nD τ).loc main_v1))) $$ [HS1 Hb1 Hto10]
  · isplitr; · iexact HI20
    isplitl [HS1]; · iexact HS1
    isplitl [Hb1]; · iexact Hb1
    isplitl [Hto10]; · iexact Hto10
    iexact Hr20
  iintro Hco1
  -- k = 2
  iapply (step_wait m c (inS 0) (K (c, inIx 0)) 1 (inPay m c 0 1) NS (src := srcL c 2) (dst := stgV 0) rfl (expect_in m c 0 1 (by decide)) (rest_in m c 0 1 (by decide))) $$ [Hci HO Hat17]
  · isplitr; · iexact HI17
    isplitl [Hci]; · iexact Hci
    isplitl [HO]; · iexact HO
    iexact Hat17
  iintro ⟨HO, Hat17, #Hri0_2, Hpay⟩
  unfold inPay
  icases Hpay with ⟨HS0, Hxl2⟩
  iapply (step_wait m c (outS 1) (K (c, outIx 1)) 0 (outPay m c 1 0) NO (src := stgV 1) (dst := dstV c 1) rfl (expect_out m c 1 0 (by decide)) (rest_out m c 1 0 (by decide))) $$ [Hco1 HO Hat20]
  · isplitr; · iexact HI20
    isplitl [Hco1]; · iexact Hco1
    isplitl [HO]; · iexact HO
    iexact Hat20
  iintro ⟨HO, Hat20, #Hro1_1, Hpay⟩
  unfold outPay
  icases Hpay with ⟨Hf1, HS1'⟩
  ihave HS1 := (pt_some (F := F) _ _) $$ HS1'
  iapply (step_copyin m K c 1 1 (by decide) 3 rfl) $$ [Hxl3 HS1 Hti11]
  · isplitr; · iexact HI18
    isplitl [Hxl3]; · iexact Hxl3
    isplitl [HS1]; · iexact HS1
    isplitl [Hti11]; · iexact Hti11
    iexact Hri1_1
  iintro Hci1
  iapply (step_copyout m K c 0 1 (by decide) 2 rfl (m ((c : Thread nD τ).loc main_v1))) $$ [HS0 Hb2 Hto01]
  · isplitr; · iexact HI19
    isplitl [HS0]; · iexact HS0
    isplitl [Hb2]; · iexact Hb2
    isplitl [Hto01]; · iexact Hto01
    iexact Hro0_1
  iintro Hco0
  -- k = 3
  iapply (step_wait m c (inS 1) (K (c, inIx 1)) 1 (inPay m c 1 1) NS (src := srcL c 3) (dst := stgV 1) rfl (expect_in m c 1 1 (by decide)) (rest_in m c 1 1 (by decide))) $$ [Hci1 HO Hat18]
  · isplitr; · iexact HI18
    isplitl [Hci1]; · iexact Hci1
    isplitl [HO]; · iexact HO
    iexact Hat18
  iintro ⟨HO, Hat18, #Hri1_2, Hpay⟩
  unfold inPay
  icases Hpay with ⟨HS1, Hxl3⟩
  iapply (step_wait m c (outS 0) (K (c, outIx 0)) 1 (outPay m c 0 1) NO (src := stgV 0) (dst := dstV c 2) rfl (expect_out m c 0 1 (by decide)) (rest_out m c 0 1 (by decide))) $$ [Hco0 HO Hat19]
  · isplitr; · iexact HI19
    isplitl [Hco0]; · iexact Hco0
    isplitl [HO]; · iexact HO
    iexact Hat19
  iintro ⟨HO, Hat19, #Hro0_2, Hpay⟩
  unfold outPay
  icases Hpay with ⟨Hf2, HS0'⟩
  ihave HS0 := (pt_some (F := F) _ _) $$ HS0'
  iapply (step_copyin m K c 0 2 (by decide) 4 rfl) $$ [Hxl4 HS0 Hti02]
  · isplitr; · iexact HI17
    isplitl [Hxl4]; · iexact Hxl4
    isplitl [HS0]; · iexact HS0
    isplitl [Hti02]; · iexact Hti02
    iexact Hri0_2
  iintro Hci
  iapply (step_copyout m K c 1 1 (by decide) 3 rfl (m ((c : Thread nD τ).loc main_v1))) $$ [HS1 Hb3 Hto11]
  · isplitr; · iexact HI20
    isplitl [HS1]; · iexact HS1
    isplitl [Hb3]; · iexact Hb3
    isplitl [Hto11]; · iexact Hto11
    iexact Hro1_1
  iintro Hco1
  -- k = 4
  iapply (step_wait m c (inS 0) (K (c, inIx 0)) 2 (inPay m c 0 2) NS (src := srcL c 4) (dst := stgV 0) rfl (expect_in m c 0 2 (by decide)) (rest_in m c 0 2 (by decide))) $$ [Hci HO Hat17]
  · isplitr; · iexact HI17
    isplitl [Hci]; · iexact Hci
    isplitl [HO]; · iexact HO
    iexact Hat17
  iintro ⟨HO, Hat17, #Hri0_3, Hpay⟩
  unfold inPay
  icases Hpay with ⟨HS0, Hxl4⟩
  iapply (step_wait m c (outS 1) (K (c, outIx 1)) 1 (outPay m c 1 1) NO (src := stgV 1) (dst := dstV c 3) rfl (expect_out m c 1 1 (by decide)) (rest_out m c 1 1 (by decide))) $$ [Hco1 HO Hat20]
  · isplitr; · iexact HI20
    isplitl [Hco1]; · iexact Hco1
    isplitl [HO]; · iexact HO
    iexact Hat20
  iintro ⟨HO, Hat20, #Hro1_2, Hpay⟩
  unfold outPay
  icases Hpay with ⟨Hf3, HS1'⟩
  ihave HS1 := (pt_some (F := F) _ _) $$ HS1'
  iapply (step_copyin m K c 1 2 (by decide) 5 rfl) $$ [Hxl5 HS1 Hti12]
  · isplitr; · iexact HI18
    isplitl [Hxl5]; · iexact Hxl5
    isplitl [HS1]; · iexact HS1
    isplitl [Hti12]; · iexact Hti12
    iexact Hri1_2
  iintro Hci1
  iapply (step_copyout m K c 0 2 (by decide) 4 rfl (m ((c : Thread nD τ).loc main_v1))) $$ [HS0 Hb4 Hto02]
  · isplitr; · iexact HI19
    isplitl [HS0]; · iexact HS0
    isplitl [Hb4]; · iexact Hb4
    isplitl [Hto02]; · iexact Hto02
    iexact Hro0_2
  iintro Hco0
  -- k = 5
  iapply (step_wait m c (inS 1) (K (c, inIx 1)) 2 (inPay m c 1 2) NS (src := srcL c 5) (dst := stgV 1) rfl (expect_in m c 1 2 (by decide)) (rest_in m c 1 2 (by decide))) $$ [Hci1 HO Hat18]
  · isplitr; · iexact HI18
    isplitl [Hci1]; · iexact Hci1
    isplitl [HO]; · iexact HO
    iexact Hat18
  iintro ⟨HO, Hat18, #Hri1_3, Hpay⟩
  unfold inPay
  icases Hpay with ⟨HS1, Hxl5⟩
  iapply (step_wait m c (outS 0) (K (c, outIx 0)) 2 (outPay m c 0 2) NO (src := stgV 0) (dst := dstV c 4) rfl (expect_out m c 0 2 (by decide)) (rest_out m c 0 2 (by decide))) $$ [Hco0 HO Hat19]
  · isplitr; · iexact HI19
    isplitl [Hco0]; · iexact Hco0
    isplitl [HO]; · iexact HO
    iexact Hat19
  iintro ⟨HO, Hat19, #Hro0_3, Hpay⟩
  unfold outPay
  icases Hpay with ⟨Hf4, HS0'⟩
  ihave HS0 := (pt_some (F := F) _ _) $$ HS0'
  iapply (step_copyin m K c 0 3 (by decide) 6 rfl) $$ [Hxl6 HS0 Hti03]
  · isplitr; · iexact HI17
    isplitl [Hxl6]; · iexact Hxl6
    isplitl [HS0]; · iexact HS0
    isplitl [Hti03]; · iexact Hti03
    iexact Hri0_3
  iintro Hci
  iapply (step_copyout m K c 1 2 (by decide) 5 rfl (m ((c : Thread nD τ).loc main_v1))) $$ [HS1 Hb5 Hto12]
  · isplitr; · iexact HI20
    isplitl [HS1]; · iexact HS1
    isplitl [Hb5]; · iexact Hb5
    isplitl [Hto12]; · iexact Hto12
    iexact Hro1_2
  iintro Hco1
  -- k = 6
  iapply (step_wait m c (inS 0) (K (c, inIx 0)) 3 (inPay m c 0 3) NS (src := srcL c 6) (dst := stgV 0) rfl (expect_in m c 0 3 (by decide)) (rest_in m c 0 3 (by decide))) $$ [Hci HO Hat17]
  · isplitr; · iexact HI17
    isplitl [Hci]; · iexact Hci
    isplitl [HO]; · iexact HO
    iexact Hat17
  iintro ⟨HO, Hat17, -, Hpay⟩
  unfold inPay
  icases Hpay with ⟨HS0, Hxl6⟩
  iapply (step_wait m c (outS 1) (K (c, outIx 1)) 2 (outPay m c 1 2) NO (src := stgV 1) (dst := dstV c 5) rfl (expect_out m c 1 2 (by decide)) (rest_out m c 1 2 (by decide))) $$ [Hco1 HO Hat20]
  · isplitr; · iexact HI20
    isplitl [Hco1]; · iexact Hco1
    isplitl [HO]; · iexact HO
    iexact Hat20
  iintro ⟨HO, Hat20, #Hro1_3, Hpay⟩
  unfold outPay
  icases Hpay with ⟨Hf5, HS1'⟩
  ihave HS1 := (pt_some (F := F) _ _) $$ HS1'
  iapply (step_copyin m K c 1 3 (by decide) 7 rfl) $$ [Hxl7 HS1 Hti13]
  · isplitr; · iexact HI18
    isplitl [Hxl7]; · iexact Hxl7
    isplitl [HS1]; · iexact HS1
    isplitl [Hti13]; · iexact Hti13
    iexact Hri1_3
  iintro Hci1
  iapply (step_copyout m K c 0 3 (by decide) 6 rfl (m ((c : Thread nD τ).loc main_v1))) $$ [HS0 Hb6 Hto03]
  · isplitr; · iexact HI19
    isplitl [HS0]; · iexact HS0
    isplitl [Hb6]; · iexact Hb6
    isplitl [Hto03]; · iexact Hto03
    iexact Hro0_3
  iintro Hco0
  -- k = 7
  iapply (step_wait m c (inS 1) (K (c, inIx 1)) 3 (inPay m c 1 3) NS (src := srcL c 7) (dst := stgV 1) rfl (expect_in m c 1 3 (by decide)) (rest_in m c 1 3 (by decide))) $$ [Hci1 HO Hat18]
  · isplitr; · iexact HI18
    isplitl [Hci1]; · iexact Hci1
    isplitl [HO]; · iexact HO
    iexact Hat18
  iintro ⟨HO, Hat18, -, Hpay⟩
  unfold inPay
  icases Hpay with ⟨HS1, Hxl7⟩
  iapply (step_wait m c (outS 0) (K (c, outIx 0)) 3 (outPay m c 0 3) NO (src := stgV 0) (dst := dstV c 6) rfl (expect_out m c 0 3 (by decide)) (rest_out m c 0 3 (by decide))) $$ [Hco0 HO Hat19]
  · isplitr; · iexact HI19
    isplitl [Hco0]; · iexact Hco0
    isplitl [HO]; · iexact HO
    iexact Hat19
  iintro ⟨HO, Hat19, -, Hpay⟩
  unfold outPay
  icases Hpay with ⟨Hf6, HS0⟩
  iapply (step_copyout m K c 1 3 (by decide) 7 rfl (m ((c : Thread nD τ).loc main_v1))) $$ [HS1 Hb7 Hto13]
  · isplitr; · iexact HI20
    isplitl [HS1]; · iexact HS1
    isplitl [Hb7]; · iexact Hb7
    isplitl [Hto13]; · iexact Hto13
    iexact Hro1_3
  iintro Hco1
  iapply (step_wait m c (outS 1) (K (c, outIx 1)) 3 (outPay m c 1 3) NO (src := stgV 1) (dst := dstV c 7) rfl (expect_out m c 1 3 (by decide)) (rest_out m c 1 3 (by decide))) $$ [Hco1 HO Hat20]
  · isplitr; · iexact HI20
    isplitl [Hco1]; · iexact Hco1
    isplitl [HO]; · iexact HO
    iexact Hat20
  iintro ⟨HO, Hat20, -, Hpay⟩
  unfold outPay
  icases Hpay with ⟨Hf7, HS1⟩
  -- THE SIXTEEN WAITS on the send and receive cells: the sent squares back; the partner's eight bands, at the final contents
  iapply (step_wait m c (sendS 0) (K (c, sendIx 0)) 0 (sendPay m c 0) NO (src := dstV c 0) (dst := srcR c 0) rfl (expect_send m c 0) (rest_send m c 0)) $$ [HcS0 HO Hat1]
  · isplitr; · iexact HI1
    isplitl [HcS0]; · iexact HcS0
    isplitl [HO]; · iexact HO
    iexact Hat1
  iintro ⟨HO, Hat1, -, Hxr0⟩
  iapply (step_wait m c (recvS 0) (K (c, recvIx 0)) 0 (recvPay m c 0) NO (src := srcR c 0) (dst := dstV c 0) rfl (expect_recv m c 0) (rest_recv m c 0)) $$ [Hcr0 HO Hat9]
  · isplitr; · iexact HI9
    isplitl [Hcr0]; · iexact Hcr0
    isplitl [HO]; · iexact HO
    iexact Hat9
  iintro ⟨HO, Hat9, -, Hg0⟩
  iapply (step_wait m c (sendS 1) (K (c, sendIx 1)) 0 (sendPay m c 1) NO (src := dstV c 1) (dst := srcR c 1) rfl (expect_send m c 1) (rest_send m c 1)) $$ [HcS1 HO Hat2]
  · isplitr; · iexact HI2
    isplitl [HcS1]; · iexact HcS1
    isplitl [HO]; · iexact HO
    iexact Hat2
  iintro ⟨HO, Hat2, -, Hxr1⟩
  iapply (step_wait m c (recvS 1) (K (c, recvIx 1)) 0 (recvPay m c 1) NO (src := srcR c 1) (dst := dstV c 1) rfl (expect_recv m c 1) (rest_recv m c 1)) $$ [Hcr1 HO Hat10]
  · isplitr; · iexact HI10
    isplitl [Hcr1]; · iexact Hcr1
    isplitl [HO]; · iexact HO
    iexact Hat10
  iintro ⟨HO, Hat10, -, Hg1⟩
  iapply (step_wait m c (sendS 2) (K (c, sendIx 2)) 0 (sendPay m c 2) NO (src := dstV c 2) (dst := srcR c 2) rfl (expect_send m c 2) (rest_send m c 2)) $$ [HcS2 HO Hat3]
  · isplitr; · iexact HI3
    isplitl [HcS2]; · iexact HcS2
    isplitl [HO]; · iexact HO
    iexact Hat3
  iintro ⟨HO, Hat3, -, Hxr2⟩
  iapply (step_wait m c (recvS 2) (K (c, recvIx 2)) 0 (recvPay m c 2) NO (src := srcR c 2) (dst := dstV c 2) rfl (expect_recv m c 2) (rest_recv m c 2)) $$ [Hcr2 HO Hat11]
  · isplitr; · iexact HI11
    isplitl [Hcr2]; · iexact Hcr2
    isplitl [HO]; · iexact HO
    iexact Hat11
  iintro ⟨HO, Hat11, -, Hg2⟩
  iapply (step_wait m c (sendS 3) (K (c, sendIx 3)) 0 (sendPay m c 3) NO (src := dstV c 3) (dst := srcR c 3) rfl (expect_send m c 3) (rest_send m c 3)) $$ [HcS3 HO Hat4]
  · isplitr; · iexact HI4
    isplitl [HcS3]; · iexact HcS3
    isplitl [HO]; · iexact HO
    iexact Hat4
  iintro ⟨HO, Hat4, -, Hxr3⟩
  iapply (step_wait m c (recvS 3) (K (c, recvIx 3)) 0 (recvPay m c 3) NO (src := srcR c 3) (dst := dstV c 3) rfl (expect_recv m c 3) (rest_recv m c 3)) $$ [Hcr3 HO Hat12]
  · isplitr; · iexact HI12
    isplitl [Hcr3]; · iexact Hcr3
    isplitl [HO]; · iexact HO
    iexact Hat12
  iintro ⟨HO, Hat12, -, Hg3⟩
  iapply (step_wait m c (sendS 4) (K (c, sendIx 4)) 0 (sendPay m c 4) NO (src := dstV c 4) (dst := srcR c 4) rfl (expect_send m c 4) (rest_send m c 4)) $$ [HcS4 HO Hat5]
  · isplitr; · iexact HI5
    isplitl [HcS4]; · iexact HcS4
    isplitl [HO]; · iexact HO
    iexact Hat5
  iintro ⟨HO, Hat5, -, Hxr4⟩
  iapply (step_wait m c (recvS 4) (K (c, recvIx 4)) 0 (recvPay m c 4) NO (src := srcR c 4) (dst := dstV c 4) rfl (expect_recv m c 4) (rest_recv m c 4)) $$ [Hcr4 HO Hat13]
  · isplitr; · iexact HI13
    isplitl [Hcr4]; · iexact Hcr4
    isplitl [HO]; · iexact HO
    iexact Hat13
  iintro ⟨HO, Hat13, -, Hg4⟩
  iapply (step_wait m c (sendS 5) (K (c, sendIx 5)) 0 (sendPay m c 5) NO (src := dstV c 5) (dst := srcR c 5) rfl (expect_send m c 5) (rest_send m c 5)) $$ [HcS5 HO Hat6]
  · isplitr; · iexact HI6
    isplitl [HcS5]; · iexact HcS5
    isplitl [HO]; · iexact HO
    iexact Hat6
  iintro ⟨HO, Hat6, -, Hxr5⟩
  iapply (step_wait m c (recvS 5) (K (c, recvIx 5)) 0 (recvPay m c 5) NO (src := srcR c 5) (dst := dstV c 5) rfl (expect_recv m c 5) (rest_recv m c 5)) $$ [Hcr5 HO Hat14]
  · isplitr; · iexact HI14
    isplitl [Hcr5]; · iexact Hcr5
    isplitl [HO]; · iexact HO
    iexact Hat14
  iintro ⟨HO, Hat14, -, Hg5⟩
  iapply (step_wait m c (sendS 6) (K (c, sendIx 6)) 0 (sendPay m c 6) NO (src := dstV c 6) (dst := srcR c 6) rfl (expect_send m c 6) (rest_send m c 6)) $$ [HcS6 HO Hat7]
  · isplitr; · iexact HI7
    isplitl [HcS6]; · iexact HcS6
    isplitl [HO]; · iexact HO
    iexact Hat7
  iintro ⟨HO, Hat7, -, Hxr6⟩
  iapply (step_wait m c (recvS 6) (K (c, recvIx 6)) 0 (recvPay m c 6) NO (src := srcR c 6) (dst := dstV c 6) rfl (expect_recv m c 6) (rest_recv m c 6)) $$ [Hcr6 HO Hat15]
  · isplitr; · iexact HI15
    isplitl [Hcr6]; · iexact Hcr6
    isplitl [HO]; · iexact HO
    iexact Hat15
  iintro ⟨HO, Hat15, -, Hg6⟩
  iapply (step_wait m c (sendS 7) (K (c, sendIx 7)) 0 (sendPay m c 7) NO (src := dstV c 7) (dst := srcR c 7) rfl (expect_send m c 7) (rest_send m c 7)) $$ [HcS7 HO Hat8]
  · isplitr; · iexact HI8
    isplitl [HcS7]; · iexact HcS7
    isplitl [HO]; · iexact HO
    iexact Hat8
  iintro ⟨HO, Hat8, -, Hxr7⟩
  iapply (step_wait m c (recvS 7) (K (c, recvIx 7)) 0 (recvPay m c 7) NO (src := srcR c 7) (dst := dstV c 7) rfl (expect_recv m c 7) (rest_recv m c 7)) $$ [Hcr7 HO Hat16]
  · isplitr; · iexact HI16
    isplitl [Hcr7]; · iexact Hcr7
    isplitl [HO]; · iexact HO
    iexact Hat16
  iintro ⟨HO, Hat16, -, Hg7⟩
  unfold sendPay at *
  unfold recvPay at *
  -- THE TWENTY OWN CELLS CLOSE: their counters at zero are the core's again
  imod (step_close m c (sendS 0) (K (c, sendIx 0)) 1 (later_send m c 0)) $$ [Hat1] with Hz1
  · isplitr; · iexact HI1
    iexact Hat1
  imod (step_close m c (sendS 1) (K (c, sendIx 1)) 1 (later_send m c 1)) $$ [Hat2] with Hz2
  · isplitr; · iexact HI2
    iexact Hat2
  imod (step_close m c (sendS 2) (K (c, sendIx 2)) 1 (later_send m c 2)) $$ [Hat3] with Hz3
  · isplitr; · iexact HI3
    iexact Hat3
  imod (step_close m c (sendS 3) (K (c, sendIx 3)) 1 (later_send m c 3)) $$ [Hat4] with Hz4
  · isplitr; · iexact HI4
    iexact Hat4
  imod (step_close m c (sendS 4) (K (c, sendIx 4)) 1 (later_send m c 4)) $$ [Hat5] with Hz5
  · isplitr; · iexact HI5
    iexact Hat5
  imod (step_close m c (sendS 5) (K (c, sendIx 5)) 1 (later_send m c 5)) $$ [Hat6] with Hz6
  · isplitr; · iexact HI6
    iexact Hat6
  imod (step_close m c (sendS 6) (K (c, sendIx 6)) 1 (later_send m c 6)) $$ [Hat7] with Hz7
  · isplitr; · iexact HI7
    iexact Hat7
  imod (step_close m c (sendS 7) (K (c, sendIx 7)) 1 (later_send m c 7)) $$ [Hat8] with Hz8
  · isplitr; · iexact HI8
    iexact Hat8
  imod (step_close m c (recvS 0) (K (c, recvIx 0)) 1 (later_recv m c 0)) $$ [Hat9] with Hz9
  · isplitr; · iexact HI9
    iexact Hat9
  imod (step_close m c (recvS 1) (K (c, recvIx 1)) 1 (later_recv m c 1)) $$ [Hat10] with Hz10
  · isplitr; · iexact HI10
    iexact Hat10
  imod (step_close m c (recvS 2) (K (c, recvIx 2)) 1 (later_recv m c 2)) $$ [Hat11] with Hz11
  · isplitr; · iexact HI11
    iexact Hat11
  imod (step_close m c (recvS 3) (K (c, recvIx 3)) 1 (later_recv m c 3)) $$ [Hat12] with Hz12
  · isplitr; · iexact HI12
    iexact Hat12
  imod (step_close m c (recvS 4) (K (c, recvIx 4)) 1 (later_recv m c 4)) $$ [Hat13] with Hz13
  · isplitr; · iexact HI13
    iexact Hat13
  imod (step_close m c (recvS 5) (K (c, recvIx 5)) 1 (later_recv m c 5)) $$ [Hat14] with Hz14
  · isplitr; · iexact HI14
    iexact Hat14
  imod (step_close m c (recvS 6) (K (c, recvIx 6)) 1 (later_recv m c 6)) $$ [Hat15] with Hz15
  · isplitr; · iexact HI15
    iexact Hat15
  imod (step_close m c (recvS 7) (K (c, recvIx 7)) 1 (later_recv m c 7)) $$ [Hat16] with Hz16
  · isplitr; · iexact HI16
    iexact Hat16
  imod (step_close m c (inS 0) (K (c, inIx 0)) 4 (later_in m c 0)) $$ [Hat17] with Hz17
  · isplitr; · iexact HI17
    iexact Hat17
  imod (step_close m c (inS 1) (K (c, inIx 1)) 4 (later_in m c 1)) $$ [Hat18] with Hz18
  · isplitr; · iexact HI18
    iexact Hat18
  imod (step_close m c (outS 0) (K (c, outIx 0)) 4 (later_out m c 0)) $$ [Hat19] with Hz19
  · isplitr; · iexact HI19
    iexact Hat19
  imod (step_close m c (outS 1) (K (c, outIx 1)) 4 (later_out m c 1)) $$ [Hat20] with Hz20
  · isplitr; · iexact HI20
    iexact Hat20
  -- the return: the buffers rejoined
  rw [wp_ret]; imodintro
  iapply Hk
  unfold bodyPost Φ₁ Dat.owesAt Pipeline.owesWithin
  rw [show (dats m 0 c).owed t₀.succ = 0 from rfl, bigSep_fin20]
  icases HO with ⟨%Wf, HO⟩
  isplitr [HO]
  · isplitl [Hxr0 Hxr1 Hxr2 Hxr3 Hxr4 Hxr5 Hxr6 Hxr7 Hxl0 Hxl1 Hxl2 Hxl3 Hxl4 Hxl5 Hxl6 Hxl7]
    · iapply (Entails.of_eq (x_split8 (F := F) c (X m c)).symm)
      isplitl [Hxr0 Hxr1 Hxr2 Hxr3 Hxr4 Hxr5 Hxr6 Hxr7]
      · isplitl [Hxr0]; · iexact Hxr0
        isplitl [Hxr1]; · iexact Hxr1
        isplitl [Hxr2]; · iexact Hxr2
        isplitl [Hxr3]; · iexact Hxr3
        isplitl [Hxr4]; · iexact Hxr4
        isplitl [Hxr5]; · iexact Hxr5
        isplitl [Hxr6]; · iexact Hxr6
        iexact Hxr7
      · isplitl [Hxl0]; · iexact Hxl0
        isplitl [Hxl1]; · iexact Hxl1
        isplitl [Hxl2]; · iexact Hxl2
        isplitl [Hxl3]; · iexact Hxl3
        isplitl [Hxl4]; · iexact Hxl4
        isplitl [Hxl5]; · iexact Hxl5
        isplitl [Hxl6]; · iexact Hxl6
        iexact Hxl7
    isplitl [Hf0 Hf1 Hf2 Hf3 Hf4 Hf5 Hf6 Hf7 Hg0 Hg1 Hg2 Hg3 Hg4 Hg5 Hg6 Hg7]
    · iapply (Entails.of_eq (out_split8 (F := F) c (Rfin m c)).symm)
      isplitl [Hf0 Hf1 Hf2 Hf3 Hf4 Hf5 Hf6 Hf7]
      · isplitl [Hf0]; · iexact Hf0
        isplitl [Hf1]; · iexact Hf1
        isplitl [Hf2]; · iexact Hf2
        isplitl [Hf3]; · iexact Hf3
        isplitl [Hf4]; · iexact Hf4
        isplitl [Hf5]; · iexact Hf5
        isplitl [Hf6]; · iexact Hf6
        iexact Hf7
      · isplitl [Hg0]; · iexact Hg0
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        iexact Hg7
    isplitl [HS0 HS1]
    · iapply (stg_join (F := F) c _ _)
      isplitl [HS0]; · iexact HS0
      iexact HS1
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    iexact Hz20
  · iexists Wf
    isplitr; · ipureintro; exact fun _ _ => Or.inl trivial
    iexact HO

/-- The library's body obligation on device `c`: at the one point, from the invariant before it to the invariant after it. -/
theorem body_obligation (c : Dev nD) : BodyObligation (dats (F := F) m 0 c) (defs₀ (F := F)) 𝒱₀ () Set.univ := fun t => by
  rw [fin_N t]
  rw [show (Finset.univ : Finset (Fin cfg0.W)) = ∅ from rfl, bigSep_empty, bigSep_empty]
  show iprop(Φ₀ m c ∗ (dats m 0 c).owesAt () t₀.castSucc ∗ emp)
    ⊢ wp frame (wpE (defs₀ (F := F)) 𝒱₀ c none) Set.univ
      (cc0_body (Memref.whole main_arg0) (Memref.isWhole_whole _) (Memref.whole main_v1) (Memref.isWhole_whole _)
        (Memref.whole cc0_scratch0) (Memref.isWhole_whole _) cc0_scratch1 cc0_scratch2 cc0_scratch3 cc0_scratch4)
      (fun _ => iprop(Φ₁ m c ∗ (dats m 0 c).owesAt () t₀.succ ∗ emp))
  unfold Φ₀ start
  iintro ⟨⟨⟨⟨%K, Hg⟩, Hcr, #Hlev, Hx, Ho⟩, Hscr⟩, Howes, -⟩
  iapply (sound_body m K c fun _ => iprop(Φ₁ m c ∗ (dats m 0 c).owesAt () t₀.succ ∗ emp))
  unfold bodyPre bodyPost
  isplitr []
  · isplitl [Hg]; · iexact Hg
    isplitl [Hcr]; · iexact Hcr
    isplitr; · iexact Hlev
    isplitl [Hx]; · iexact Hx
    isplitl [Ho]; · iexact Ho
    isplitl [Hscr]; · iexact Hscr
    iexact Howes
  · iintro ⟨H1, H2⟩
    isplitl [H1]; · iexact H1
    isplitl [H2]; · iexact H2
    iempintro

end Run

end Cert.Kernel.A2a

end
-- ==== Proof.KernelLaunch.lean ====
/-
  The launch: every device's cells allocated under one update (a device pays duties of its partner's cells, so the
  invariants are shared), the tokens of the partner's barrier and receive duties dealt across the pairing, the launch
  credit read off what the partner owes, and the run of @main on all thirty-two devices: every weakly fair execution
  terminates, each device's result array ends at the final contents and its input block as it was.
-/
import proofs.«900652_g7700000000000653_dist_a2a_v7x_xyz2x4x4_x_m8192_n1024_f32_1_alg».proof.Proof.KernelTables
import proofs.«900652_g7700000000000653_dist_a2a_v7x_xyz2x4x4_x_m8192_n1024_f32_1_alg».proof.Proof.Gen.Kernel.Frame

set_option maxRecDepth 65536

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the cells and tokens minted at launch -/

/-- The twenty DMA semaphores are the kernel's own (scoped); the barrier semaphore is the runtime's. -/
abbrev osem : Fin 20 → SemLoc sig := fun j => csem j.succ

theorem ownSemFacts : Pipeline.OwnSemFacts cfg0.spec osem := by decide

theorem csem_injective : Function.Injective (csem : Fin 21 → SemLoc sig) := by decide

theorem kcell_injective : Function.Injective (kcell : Dev nD × Fin 21 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duties of a device's own cells: the barrier's one, the eight receive and eight send duties, and the in and out
    cells' four rounds each. -/
abbrev TokIx : Type := Unit ⊕ Fin 8 ⊕ Fin 8 ⊕ (Fin 2 × Fin 4) ⊕ (Fin 2 × Fin 4)

def tokOf (ct : Dev nD × TokIx) : GSem nD τ sig × ℕ × Unit := match ct.2 with
  | .inl _ => (barCell ct.1, 0, ())
  | .inr (.inl k) => (recvCell ct.1 k, 0, ())
  | .inr (.inr (.inl k)) => (sendCell ct.1 k, 0, ())
  | .inr (.inr (.inr (.inl sr))) => (inCell ct.1 sr.1, sr.2.val, ())
  | .inr (.inr (.inr (.inr sr))) => (outCell ct.1 sr.1, sr.2.val, ())

/-- A duty's semaphore's pool index (the barrier's: 100) and round: they tell the duties of one device apart. -/
def tokCode : TokIx → ℕ × ℕ
  | .inl _ => (100, 0)
  | .inr (.inl k) => (8 + k.val, 0)
  | .inr (.inr (.inl k)) => (k.val, 0)
  | .inr (.inr (.inr (.inl sr))) => (16 + sr.1.val, sr.2.val)
  | .inr (.inr (.inr (.inr sr))) => (18 + sr.1.val, sr.2.val)
theorem tokCode_injective : Function.Injective tokCode := by decide

def semIdx : SemLoc sig → ℕ
  | .reg _ => 100
  | .dma q => q.val

theorem tokOf_code (c : Dev nD) (t : TokIx) : (semIdx (tokOf (c, t)).1.2, (tokOf (c, t)).2.1) = tokCode t := by
  rcases t with _ | k | k | sr | sr
  · rfl
  · show (semIdx (.dma (recvS k)), 0) = _; simp only [semIdx, recvS_val, tokCode]
  · show (semIdx (.dma (sendS k)), 0) = _; simp only [semIdx, sendS_val, tokCode]
  · show (semIdx (.dma (inS sr.1)), sr.2.val) = _; simp only [semIdx, inS_val, tokCode]
  · show (semIdx (.dma (outS sr.1)), sr.2.val) = _; simp only [semIdx, outS_val, tokCode]

theorem tokOf_dev (c : Dev nD) (t : TokIx) : (tokOf (c, t)).1.1.1 = c := by
  rcases t with _ | k | k | sr | sr <;> rfl

theorem tokOf_injective : Function.Injective (tokOf : Dev nD × TokIx → GSem nD τ sig × ℕ × Unit) := by
  rintro ⟨c, t⟩ ⟨c', t'⟩ h
  have h1 : c = c' := by
    have := congrArg (fun x : GSem nD τ sig × ℕ × Unit => x.1.1.1) h
    simpa only [tokOf_dev] using this
  subst h1
  have h2 : tokCode t = tokCode t' := by
    rw [← tokOf_code c t, ← tokOf_code c t', h]
  rw [tokCode_injective h2]
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 ()
    ∗ (bigSep Finset.univ fun k : Fin 8 => dutyTok ER (recvCell c k) 0 ())
    ∗ (bigSep Finset.univ fun k : Fin 8 => dutyTok ER (sendCell c k) 0 ())
    ∗ (bigSep Finset.univ fun sr : Fin 2 × Fin 4 => dutyTok ER (inCell c sr.1) sr.2.val ())
    ∗ (bigSep Finset.univ fun sr : Fin 2 × Fin 4 => dutyTok ER (outCell c sr.1) sr.2.val ()))

/-- What the launch element deals device `c` (the theorem's `G`). -/
def G (c : Dev nD) : sProp 𝕄 :=
  iprop((bigSep Finset.univ fun j : Fin 21 => roundState ER (rd m) (kcell (c, j)) 0)
    ∗ (bigSep Finset.univ fun j : Fin 21 => iprop(atPos ER (kcell (c, j)) 0 ∅ 0 ∗ reached ER (kcell (c, j)) 0)) ∗ toks c)

/-- What the global step makes of it (`G'`). -/
def G' (c : Dev nD) : sProp 𝕄 := iprop(∃ K, ghost m K c)

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : Fin 21 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum, bigSep_univ_sum, bigSep_univ_sum, bigSep_univ_of_subsingleton ()]
      rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The twenty own semaphores and the barrier semaphore, at zero: the twenty-one cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 21 => semVal (kcell (c, j)) 0 : sProp 𝕄) := by
  rw [unscopedSems0_eq, bigSep_fin21]
  unfold Pipeline.ownSems0
  rw [bigSep_fin20]
  iintro ⟨⟨H1, H2, H3, H4, H5, H6, H7, H8, H9, H10, H11, H12, H13, H14, H15, H16, H17, H18, H19, H20⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (rd m) κ (kcell (c, j))))
          ∗ (bigSep Finset.univ fun j : Fin 21 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 21 => semVal (kcell (c, j)) 0) ∗ bigSep Finset.univ fun j : Fin 21 => roundState ER (rd m) (kcell (c, j)) 0)
      ⊢ (|={Set.univ}=> bigSep Finset.univ fun j => iprop(∃ κ : ℕ, cellInv ER (rd m) κ (kcell (c, j))) : sProp 𝕄) from by
        rw [← bigSep_sep']
        exact (bigSep_mono fun j _ => (Rounds.body_intro ER (rd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 21 → ℕ) : sProp 𝕄 :=
  iprop((bigSep Finset.univ fun cj : Dev nD × Fin 21 => cellInv ER (rd m) (K cj) (kcell cj))
    ∗ bigSep Finset.univ fun cj : Dev nD × Fin 21 => reached ER (kcell cj) 0)

instance records_persistent (K : Dev nD × Fin 21 → ℕ) : BI.Persistent (records m K) := by unfold records; infer_instance

omit [FloatOps F] in
theorem inv_at (K : Dev nD × Fin 21 → ℕ) (cj : Dev nD × Fin 21) :
    (bigSep Finset.univ fun cj : Dev nD × Fin 21 => (cellInv ER (rd m) (K cj) (kcell cj) : sProp 𝕄)) ⊢ cellInv ER (rd m) (K cj) (kcell cj) :=
  bigSep_elim (Finset.mem_univ cj)
omit [FloatOps F] in
theorem reached_at (cj : Dev nD × Fin 21) :
    (bigSep Finset.univ fun cj : Dev nD × Fin 21 => (reached ER (kcell cj) 0 : sProp 𝕄)) ⊢ reached ER (kcell cj) 0 :=
  bigSep_elim (Finset.mem_univ cj)

/-- What stays with device `c`: its positions, and the tokens of the duties IT pays. -/
def linear (c : Dev nD) : sProp 𝕄 := iprop(poss c ∗ payToks c)

omit [FloatOps F] in
theorem ghost_intro (K : Dev nD × Fin 21 → ℕ) (c : Dev nD) : iprop(records m K ∗ linear c) ⊢ G' m c := by
  unfold records linear G' ghost
  iintro ⟨⟨#HI, #HR⟩, Hpos, Htok⟩
  iexists K
  isplitr
  · unfold invs
    isplitr
    · iapply (BI.bigSep_intro_persistent (R := (bigSep Finset.univ fun cj : Dev nD × Fin 21 => (cellInv ER (rd m) (K cj) (kcell cj) : sProp 𝕄)))
        fun j _ => inv_at m K (c, j))
      iexact HI
    isplitr; · iapply (inv_at m K (peer c, 0)); iexact HI
    iapply (BI.bigSep_intro_persistent (R := (bigSep Finset.univ fun cj : Dev nD × Fin 21 => (cellInv ER (rd m) (K cj) (kcell cj) : sProp 𝕄)))
      fun k _ => (inv_at m K (peer c, recvIx k)).trans (Entails.of_eq (by rw [kcell_recv])))
    iexact HI
  isplitl [Hpos]; · iexact Hpos
  isplitr
  · unfold marks
    isplitr
    · iapply (BI.bigSep_intro_persistent (R := (bigSep Finset.univ fun cj : Dev nD × Fin 21 => (reached ER (kcell cj) 0 : sProp 𝕄)))
        fun j _ => reached_at (F := F) (c, j))
      iexact HR
    isplitr; · iapply (reached_at (F := F) (peer c, 0)); iexact HR
    iapply (BI.bigSep_intro_persistent (R := (bigSep Finset.univ fun cj : Dev nD × Fin 21 => (reached ER (kcell cj) 0 : sProp 𝕄)))
      fun k _ => (reached_at (F := F) (peer c, recvIx k)).trans (Entails.of_eq (by rw [kcell_recv])))
    iexact HR
  iexact Htok

omit [FloatOps F] in
/-- The tokens dealt across the pairing: a device's barrier token and receive tokens go to its partner, who pays those duties. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv peerEquiv (fun c : Dev nD => (dutyTok ER (barCell c) 0 () : sProp 𝕄)),
    bigSep_univ_equiv peerEquiv (fun c : Dev nD => (bigSep Finset.univ fun k : Fin 8 => dutyTok ER (recvCell c k) 0 () : sProp 𝕄))]
  exact BI.Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun j => iprop(∃ κ : ℕ, cellInv ER (rd m) κ (kcell (c, j))))
          ∗ (bigSep Finset.univ fun j : Fin 21 => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun cj : Dev nD × Fin 21 => iprop(∃ κ : ℕ, cellInv ER (rd m) κ (kcell cj))),
    bigSep_congr (s := Finset.univ) (fun (c : Dev nD) _ => bigSep_sep' Finset.univ (fun j : Fin 21 => (atPos ER (kcell (c, j)) 0 ∅ 0 : sProp 𝕄)) (fun j => reached ER (kcell (c, j)) 0)),
    bigSep_sep', ← bigSep_univ_prod (fun cj : Dev nD × Fin 21 => (reached ER (kcell cj) 0 : sProp 𝕄))]
  iintro ⟨HI, ⟨Hat, #HR⟩, Htok⟩
  ihave HK := (BI.bigSep_exists_pi Finset.univ (fun (cj : Dev nD × Fin 21) (κ : ℕ) => (cellInv ER (rd m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 21 => (atPos ER (kcell (c, j)) 0 ∅ 0 : sProp 𝕄)) payToks).symm).trans
      (bigSep_mono fun c _ => show _ ⊢ linear c from Entails.of_eq (by unfold linear poss; rfl)))
    isplitl [Hat]; · iexact Hat
    iexact Htk

omit [FloatOps F] in
/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, #Hlev, Hcr, -, HG⟩
  ihave Hc := (creds_of_launch (F := F) c) $$ Hcr
  imodintro
  unfold start G' X
  isplitl
  · isplitl [HG]; · iexact HG
    isplitl [Hc]; · iexact Hc
    isplitr; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

/-- What a device keeps after the region: its input block and its result array. -/
def Yc (c : Dev nD) : sProp 𝕄 :=
  iprop((((c : Thread nD τ).loc main_arg0) ↦{fullShare} X m c) ∗ (((c : Thread nD τ).loc main_v1) ↦{fullShare} Rfin m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc Pipeline.ownSems0
  iintro ⟨Hx, Ho, Hr, Hz⟩
  isplitl [Hx Ho]
  · isplitl [Hx] <;> iassumption
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t => w.elim0

/-! ## The run -/

set_option maxRecDepth 65536 in
/-- At the compiled mesh of thirty-two devices, for any float values, from any memory with zero counters: every weakly fair
    execution of @main — the sixteen pairs handshaking on the barrier semaphore, exchanging their column halves, each
    moving its own half through its stage — terminates, nothing faults, and in every final state each device's result array
    holds the final contents and its input block what it held. -/
theorem run_main (hbody : ∀ c : Dev nD, BodyObligation (dats (F := F) m 0 c) (defs₀ (F := F)) 𝒱₀ () Set.univ) :
    θ_run defs (onTc (τ := τ) (main (F := F))) ⟨m, fun _ => 0, ρ⟩
    (fun r => ∀ c : Dev nD, r.2.mem ((c : Thread nD τ).loc main_v1) = Rfin m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = Rfin m c ∧ s.mem ((c : Thread nD τ).loc main_arg0) = X m c)
    (hY := fun c s' => by
      unfold Yc
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.A2a.run_main' depends on axioms: [propext, Classical.choice, Quot.sound] -/
#guard_msgs in #print axioms run_main

end Cert.Kernel.A2a

end
-- ==== Proof.KernelMain.lean ====
/-
  The run of @main on the thirty-two devices, the body obligation discharged: every weakly fair execution terminates, nothing
  faults, each device's result array ends at the final contents and its input block as it was.
-/
import proofs.«900652_g7700000000000653_dist_a2a_v7x_xyz2x4x4_x_m8192_n1024_f32_1_alg».proof.Proof.KernelRun
import proofs.«900652_g7700000000000653_dist_a2a_v7x_xyz2x4x4_x_m8192_n1024_f32_1_alg».proof.Proof.KernelLaunch

noncomputable section

namespace Cert.Kernel.A2a

open Cert.Kernel Cert.Kernel.Gen
open Idealize.ShloMosaic Idealize.ShloMosaic.TcCoe Idealize.SL.Sem

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩
      (fun r => ∀ c : Dev nD, r.2.mem ((c : Thread nD τ).loc main_v1) = Rfin m c
        ∧ r.2.mem ((c : Thread nD τ).loc main_arg0) = m ((c : Thread nD τ).loc main_arg0)) :=
  run_main m ρ (body_obligation m)

/-- info: 'Cert.Kernel.A2a.run' depends on axioms: [propext, Classical.choice, Quot.sound] -/
#guard_msgs in #print axioms run

end Cert.Kernel.A2a

end
-- ==== Proof.KernelIdealMesh.lean ====
/-
  The exchange across mesh axis x (two halves, sixteen devices each): every device holds the row block of the
  whole array its x-coordinate names and must end holding the column block that coordinate names. Its own
  row half it moves itself, chunk by chunk through a two-slot stage; the other row half its partner — the
  device sixteen places away, same (y, z) — writes into its result array by addressed copies, after a
  handshake on the barrier semaphore.  This module: the partner map, the memory views the body names, the
  semaphore cells, and the three content functions every assertion is stated with.
-/
import proofs.«900652_g7700000000000653_dist_a2a_v7x_xyz2x4x4_x_m8192_n1024_f32_1_alg».proof.Proof.Gen.KernelIdeal
import proofs.«900652_g7700000000000653_dist_a2a_v7x_xyz2x4x4_x_m8192_n1024_f32_1_alg».proof.Proof.Gen.KernelIdeal.Skeleton
import proofs.«900652_g7700000000000653_dist_a2a_v7x_xyz2x4x4_x_m8192_n1024_f32_1_alg».proof.Proof.Gen.KernelIdeal.Launch
import proofs.«900652_g7700000000000653_dist_a2a_v7x_xyz2x4x4_x_m8192_n1024_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (one duty a round: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partner across axis x -/

/-- The device sixteen places away: the other x-coordinate, the same (y, z). -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide
theorem peer_val (c : Dev nD) : (peer c).val = (c.val + 16) % 32 := rfl
/-- The partner has the other x-coordinate. -/
theorem peer_half (c : Dev nD) : (peer c).val / 16 = 1 - c.val / 16 := by revert c; decide
theorem half_le (c : Dev nD) : c.val / 16 ≤ 1 := by have hc : c.val < 32 := c.isLt; omega

def peerEquiv : Dev nD ≃ Dev nD := ⟨peer, peer, peer_peer, peer_peer⟩

private theorem dev_arith (c : Dev nD) : (4 * ((c.val / 4) % 4) + (c.val % 4) + 16) - 16 * (c.val / 16) = (c.val + 16) % 32 := by
  have hc : c.val < 32 := c.isLt; omega

/-- Every device-id chain of the body — the signal's and the eight copies' — names the partner. -/
theorem dev1_eq (c : Dev nD) : (⟨k0_dev1 c, k0_dev1_lt c⟩ : Dev nD) = peer c := Fin.ext ((k0_dev1_eq c).trans (dev_arith c))
theorem dev2_eq (c : Dev nD) : (⟨k0_dev2 c, k0_dev2_lt c⟩ : Dev nD) = peer c := Fin.ext ((k0_dev2_eq c).trans (dev_arith c))
theorem dev3_eq (c : Dev nD) : (⟨k0_dev3 c, k0_dev3_lt c⟩ : Dev nD) = peer c := Fin.ext ((k0_dev3_eq c).trans (dev_arith c))
theorem dev4_eq (c : Dev nD) : (⟨k0_dev4 c, k0_dev4_lt c⟩ : Dev nD) = peer c := Fin.ext ((k0_dev4_eq c).trans (dev_arith c))
theorem dev5_eq (c : Dev nD) : (⟨k0_dev5 c, k0_dev5_lt c⟩ : Dev nD) = peer c := Fin.ext ((k0_dev5_eq c).trans (dev_arith c))
theorem dev6_eq (c : Dev nD) : (⟨k0_dev6 c, k0_dev6_lt c⟩ : Dev nD) = peer c := Fin.ext ((k0_dev6_eq c).trans (dev_arith c))
theorem dev7_eq (c : Dev nD) : (⟨k0_dev7 c, k0_dev7_lt c⟩ : Dev nD) = peer c := Fin.ext ((k0_dev7_eq c).trans (dev_arith c))
theorem dev8_eq (c : Dev nD) : (⟨k0_dev8 c, k0_dev8_lt c⟩ : Dev nD) = peer c := Fin.ext ((k0_dev8_eq c).trans (dev_arith c))
theorem dev9_eq (c : Dev nD) : (⟨k0_dev9 c, k0_dev9_lt c⟩ : Dev nD) = peer c := Fin.ext ((k0_dev9_eq c).trans (dev_arith c))

/-! ## The views the body names -/

abbrev xM : Memref sig .tc .hbm S8192x2048 .f32 := Memref.whole main_arg0
abbrev oM : Memref sig .tc .hbm S16384x1024 .f32 := Memref.whole main_v1
abbrev sM : Memref sig .tc .vmem S2x1024x1024 .f32 := Memref.whole cc0_scratch0

/-- Chunk `k` of the result rows device `c` ADDRESSES, in its own result array (its local write-back) and in its
    partner's (its addressed copy): rows `8192·x(c) + 1024·k` onward, all 1024 columns. -/
abbrev dstV (c : Dev nD) (k : Fin 8) : Memref sig .tc .hbm S1024x1024 .f32 :=
  oM.slice (Rect.unit (s := S16384x1024) (k0_off1 c (BitVec.ofNat 32 (1024 * k.val))) S1024x1024.size (k0_off1_inb c k)) (fun _ => rfl)

/-- Where the square of chunk `k` that device `c` SENDS starts in its input block: row `1024·k`, the partner's column half. -/
def srcROff (c : Dev nD) : Fin 8 → Fin 2 → ℕ
  | 0 => k0_off2 c | 1 => k0_off3 c | 2 => k0_off4 c | 3 => k0_off5 c
  | 4 => k0_off6 c | 5 => k0_off7 c | 6 => k0_off8 c | 7 => k0_off9 c
theorem srcROff_inb (c : Dev nD) : ∀ (k : Fin 8) (a : Fin 2), srcROff c k a + S1024x1024.size a ≤ S8192x2048.size a
  | 0 => k0_off2_inb c | 1 => k0_off3_inb c | 2 => k0_off4_inb c | 3 => k0_off5_inb c
  | 4 => k0_off6_inb c | 5 => k0_off7_inb c | 6 => k0_off8_inb c | 7 => k0_off9_inb c

/-- Chunk `k` of the columns of its input block device `c` SENDS: rows `1024·k` onward, the partner's column half. -/
abbrev srcR (c : Dev nD) (k : Fin 8) : Memref sig .tc .hbm S1024x1024 .f32 :=
  xM.slice (Rect.unit (s := S8192x2048) (srcROff c k) S1024x1024.size (srcROff_inb c k)) (fun _ => rfl)

/-- Where the square of chunk `k` that it KEEPS starts: row `1024·k`, its own column half. -/
def srcLOff (c : Dev nD) : Fin 8 → Fin 2 → ℕ
  | 0 => k0_off10 c | 1 => k0_off11 c | 2 => k0_off12 c | 3 => k0_off13 c
  | 4 => k0_off14 c | 5 => k0_off15 c | 6 => k0_off16 c | 7 => k0_off17 c
theorem srcLOff_inb (c : Dev nD) : ∀ (k : Fin 8) (a : Fin 2), srcLOff c k a + S1024x1024.size a ≤ S8192x2048.size a
  | 0 => k0_off10_inb c | 1 => k0_off11_inb c | 2 => k0_off12_inb c | 3 => k0_off13_inb c
  | 4 => k0_off14_inb c | 5 => k0_off15_inb c | 6 => k0_off16_inb c | 7 => k0_off17_inb c

/-- Chunk `k` of the columns it KEEPS: rows `1024·k` onward, its own column half. -/
abbrev srcL (c : Dev nD) (k : Fin 8) : Memref sig .tc .hbm S1024x1024 .f32 :=
  xM.slice (Rect.unit (s := S8192x2048) (srcLOff c k) S1024x1024.size (srcLOff_inb c k)) (fun _ => rfl)

/-- Where slot `s` of the stage starts. -/
def stgOff : Fin 2 → Fin 3 → ℕ
  | 0 => ![0, 0, 0] | 1 => ![1, 0, 0]
theorem stgOff_inb : ∀ (s : Fin 2) (a : Fin 3), stgOff s a + S1x1024x1024.size a ≤ S2x1024x1024.size a
  | 0 => inb_S2x1024x1024_S1x1024x1024_0_0_0 | 1 => inb_S2x1024x1024_S1x1024x1024_1_0_0

/-- Slot `s` of the stage, as a 1024 × 1024 block. -/
abbrev stgV (s : Fin 2) : Memref sig .tc .vmem S1024x1024 .f32 :=
  (sM.slice (Rect.unit (s := S2x1024x1024) (stgOff s) S1x1024x1024.size (stgOff_inb s)) (fun _ => rfl)).squeeze S1024x1024 squeezes_S1x1024x1024_S1024x1024

/-! ## The semaphores -/

abbrev barS : Sem sig := (SemArray.scalar (sig.barrier 0 rfl) : Sems sig S_).sem

abbrev sendS : Fin 8 → DmaSem sig
  | 0 => ((cc0_scratch1.slice (Rect.unit (s := S8) ![0] S1.size inb_S8_S1_0)).squeeze S_ squeezes_S1_S_).sem
  | 1 => ((cc0_scratch1.slice (Rect.unit (s := S8) ![1] S1.size inb_S8_S1_1)).squeeze S_ squeezes_S1_S_).sem
  | 2 => ((cc0_scratch1.slice (Rect.unit (s := S8) ![2] S1.size inb_S8_S1_2)).squeeze S_ squeezes_S1_S_).sem
  | 3 => ((cc0_scratch1.slice (Rect.unit (s := S8) ![3] S1.size inb_S8_S1_3)).squeeze S_ squeezes_S1_S_).sem
  | 4 => ((cc0_scratch1.slice (Rect.unit (s := S8) ![4] S1.size inb_S8_S1_4)).squeeze S_ squeezes_S1_S_).sem
  | 5 => ((cc0_scratch1.slice (Rect.unit (s := S8) ![5] S1.size inb_S8_S1_5)).squeeze S_ squeezes_S1_S_).sem
  | 6 => ((cc0_scratch1.slice (Rect.unit (s := S8) ![6] S1.size inb_S8_S1_6)).squeeze S_ squeezes_S1_S_).sem
  | 7 => ((cc0_scratch1.slice (Rect.unit (s := S8) ![7] S1.size inb_S8_S1_7)).squeeze S_ squeezes_S1_S_).sem

abbrev recvS : Fin 8 → DmaSem sig
  | 0 => ((cc0_scratch2.slice (Rect.unit (s := S8) ![0] S1.size inb_S8_S1_0)).squeeze S_ squeezes_S1_S_).sem
  | 1 => ((cc0_scratch2.slice (Rect.unit (s := S8) ![1] S1.size inb_S8_S1_1)).squeeze S_ squeezes_S1_S_).sem
  | 2 => ((cc0_scratch2.slice (Rect.unit (s := S8) ![2] S1.size inb_S8_S1_2)).squeeze S_ squeezes_S1_S_).sem
  | 3 => ((cc0_scratch2.slice (Rect.unit (s := S8) ![3] S1.size inb_S8_S1_3)).squeeze S_ squeezes_S1_S_).sem
  | 4 => ((cc0_scratch2.slice (Rect.unit (s := S8) ![4] S1.size inb_S8_S1_4)).squeeze S_ squeezes_S1_S_).sem
  | 5 => ((cc0_scratch2.slice (Rect.unit (s := S8) ![5] S1.size inb_S8_S1_5)).squeeze S_ squeezes_S1_S_).sem
  | 6 => ((cc0_scratch2.slice (Rect.unit (s := S8) ![6] S1.size inb_S8_S1_6)).squeeze S_ squeezes_S1_S_).sem
  | 7 => ((cc0_scratch2.slice (Rect.unit (s := S8) ![7] S1.size inb_S8_S1_7)).squeeze S_ squeezes_S1_S_).sem

abbrev inS : Fin 2 → DmaSem sig
  | 0 => ((cc0_scratch3.slice (Rect.unit (s := S2) ![0] S1.size inb_S2_S1_0)).squeeze S_ squeezes_S1_S_).sem
  | 1 => ((cc0_scratch3.slice (Rect.unit (s := S2) ![1] S1.size inb_S2_S1_1)).squeeze S_ squeezes_S1_S_).sem

abbrev outS : Fin 2 → DmaSem sig
  | 0 => ((cc0_scratch4.slice (Rect.unit (s := S2) ![0] S1.size inb_S2_S1_0)).squeeze S_ squeezes_S1_S_).sem
  | 1 => ((cc0_scratch4.slice (Rect.unit (s := S2) ![1] S1.size inb_S2_S1_1)).squeeze S_ squeezes_S1_S_).sem

/-- The pool index of each: send `k`, receive `8 + k`, in `16 + s`, out `18 + s`. -/
theorem sendS_val (k : Fin 8) : (sendS k).val = k.val := by fin_cases k <;> rfl
theorem recvS_val (k : Fin 8) : (recvS k).val = 8 + k.val := by fin_cases k <;> rfl
theorem inS_val (s : Fin 2) : (inS s).val = 16 + s.val := by fin_cases s <;> rfl
theorem outS_val (s : Fin 2) : (outS s).val = 18 + s.val := by fin_cases s <;> rfl

end Cert.KernelIdeal.A2a

end
-- ==== Proof.KernelIdealSched.lean ====
/-
  The protocol of the exchange, as a schedule of rounds (one duty a round on every cell).  Per device:
  the barrier cell (one round: the partner's signal, which hands over the partner's half of ITS result array,
  the rows this device's addressed copies write, and that the partner's receive cells stand at round 0);
  eight send cells (one round each: the copy's source columns come back); eight receive cells (one round each,
  paid by the partner's copy: chunk k of the rows the partner addresses, holding the final contents);
  two in cells and two out cells (four rounds each, paid by the device's own copies: slot s serves the chunks
  k = 2r + s).  Every payload names its contents through `X`, `Rfin`, `StgAt` below.
-/
import proofs.«900652_g7700000000000653_dist_a2a_v7x_xyz2x4x4_x_m8192_n1024_f32_1_alg».proof.Proof.KernelIdealMesh
import Idealize.ShloMosaic.Lib.ValueIdx

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))
abbrev inCell (c : Dev nD) (s : Fin 2) : GSem nD τ sig := ((c : Thread nD τ), .dma (inS s))
abbrev outCell (c : Dev nD) (s : Fin 2) : GSem nD τ sig := ((c : Thread nD τ), .dma (outS s))

/-- What a cell is for, read off its semaphore's pool index. -/
inductive CellKind where
  | bar | send (k : Fin 8) | recv (k : Fin 8) | inn (s : Fin 2) | out (s : Fin 2)
  deriving DecidableEq

def kindOf : SemLoc sig → CellKind
  | .reg _ => .bar
  | .dma q =>
    if h : q.val < 8 then .send ⟨q.val, h⟩
    else if h' : q.val < 16 then .recv ⟨q.val - 8, by omega⟩
    else if h'' : q.val < 18 then .inn ⟨q.val - 16, by omega⟩
    else .out ⟨(q.val - 18) % 2, Nat.mod_lt _ (by decide)⟩

theorem kindOf_bar (s : Sem sig) : kindOf (.reg s) = .bar := rfl
theorem kindOf_send (k : Fin 8) : kindOf (.dma (sendS k)) = .send k := by fin_cases k <;> rfl
theorem kindOf_recv (k : Fin 8) : kindOf (.dma (recvS k)) = .recv k := by fin_cases k <;> rfl
theorem kindOf_in (s : Fin 2) : kindOf (.dma (inS s)) = .inn s := by fin_cases s <;> rfl
theorem kindOf_out (s : Fin 2) : kindOf (.dma (outS s)) = .out s := by fin_cases s <;> rfl

/-- How many rounds a cell runs. -/
def nRounds : CellKind → ℕ
  | .inn _ => 4 | .out _ => 4 | _ => 1

/-- The chunk slot `s` serves in its round `r`. -/
def chunk (s : Fin 2) (r : ℕ) : Fin 8 := ⟨(2 * r + s.val) % 8, Nat.mod_lt _ (by decide)⟩

/-- The credit of one 1024 × 1024 block of 32-bit words landing: in this signature the same number whatever buffer it lands in
    (a result array, the stage; and what a wait naming an input square consumes). -/
abbrev NO : ℕ := (dstV (0 : Dev nD) 0).view.dmaCredit
abbrev NS : ℕ := NO
theorem NO_pos : 0 < NO := View.dmaCredit_pos _ (by decide)
theorem NS_pos : 0 < NS := NO_pos
theorem amount_dst (c : Dev nD) (k : Fin 8) (q : DmaSem sig) : (dstV c k).view.amount (.dma q) = NO := rfl
theorem amount_stg (s : Fin 2) (q : DmaSem sig) : (stgV s).view.amount (.dma q) = NS := by fin_cases s <;> rfl

/-! ## Contents -/

/-- Device `c`'s block of the input: rows `8192·x(c)` onward of the whole array. -/
def X (c : Dev nD) : Buf (Elt F) ((c : Thread nD τ).loc main_arg0) := m ((c : Thread nD τ).loc main_arg0)

/-- The device of `c`'s (y, z) column whose x-coordinate is `h`. -/
def colDev (c : Dev nD) (h : ℕ) : Dev nD := ⟨16 * (h % 2) + c.val % 16, by show 16 * (h % 2) + c.val % 16 < 32; omega⟩

/-- What device `c`'s result array must end holding: row `r`, column `j` is the whole array's entry
    `(r, 1024·x(c) + j)` — entry `(r mod 8192, 1024·x(c) + j)` of the block of the device that holds row half `r / 8192`. -/
def Rfin (c : Dev nD) : Buf (Elt F) ((c : Thread nD τ).loc main_v1) := fun i =>
  X m (colDev c ((i 0).val / 8192))
    (ValueIdx.ix2 (⟨(i 0).val % 8192, Nat.mod_lt _ (by decide)⟩ : Fin 8192)
      (⟨(1024 * (c.val / 16) + (i 1).val) % 2048, Nat.mod_lt _ (by decide)⟩ : Fin 2048))

/-- What slot `s` of the stage holds once chunk `k` of the kept columns has landed in it: that chunk written through the
    slot's view (over the launch contents, which no assertion reads: a points-to on the slot's elements sees the chunk only). -/
def StgAt (c : Dev nD) (k : Fin 8) (s : Fin 2) : Buf (Elt F) ((c : Thread nD τ).loc cc0_scratch0) :=
  (stgV s).view.write (Elt F) (m ((c : Thread nD τ).loc cc0_scratch0)) ((srcL c k).view.read (Elt F) (X m c)) Finset.univ

/-! ## The payloads -/

/-- The partner's signal hands `c` the rows `c` addresses in the partner's result array, chunk by chunk at some
    contents, and that the partner's receive cells stand at round 0. -/
def barPay (c : Dev nD) : sProp 𝕄 :=
  iprop((∃ f : Buf (Elt F) (((peer c : Dev nD) : Thread nD τ).loc main_v1),
      bigSep Finset.univ fun k : Fin 8 => ((dstV c k).view.loc ((peer c : Dev nD) : Thread nD τ) ↦[(dstV c k).view.set]{fullShare} f))
    ∗ bigSep Finset.univ fun k : Fin 8 => reached ER (recvCell (peer c) k) 0)

/-- A send cell gives the copy's source columns back. -/
def sendPay (c : Dev nD) (k : Fin 8) : sProp 𝕄 :=
  (srcR c k).view.loc (c : Thread nD τ) ↦[(srcR c k).view.set]{fullShare} X m c

/-- A receive cell delivers chunk `k` of the rows the partner addresses, at the final contents. -/
def recvPay (c : Dev nD) (k : Fin 8) : sProp 𝕄 :=
  (dstV (peer c) k).view.loc (c : Thread nD τ) ↦[(dstV (peer c) k).view.set]{fullShare} Rfin m c

/-- An in cell delivers its slot holding the chunk, and the kept columns' source back. -/
def inPay (c : Dev nD) (s : Fin 2) (r : ℕ) : sProp 𝕄 :=
  iprop(((stgV s).view.loc (c : Thread nD τ) ↦[(stgV s).view.set]{fullShare} StgAt m c (chunk s r) s)
    ∗ ((srcL c (chunk s r)).view.loc (c : Thread nD τ) ↦[(srcL c (chunk s r)).view.set]{fullShare} X m c))

/-- An out cell delivers the chunk's rows of the device's own result array at the final contents, and the slot back. -/
def outPay (c : Dev nD) (s : Fin 2) (r : ℕ) : sProp 𝕄 :=
  iprop(((dstV c (chunk s r)).view.loc (c : Thread nD τ) ↦[(dstV c (chunk s r)).view.set]{fullShare} Rfin m c)
    ∗ ((stgV s).view.loc (c : Thread nD τ) ↦[(stgV s).view.set]{fullShare} StgAt m c (chunk s r) s))

def payOf (c : Dev nD) (r : ℕ) : CellKind → sProp 𝕄
  | .bar => barPay c
  | .send k => sendPay m c k
  | .recv k => recvPay m c k
  | .inn s => inPay m c s r
  | .out s => outPay m c s r

/-! ## The schedule -/

def rd : Rounds.Schedule (GSem nD τ sig) Unit 𝕄 where
  duties g r := if g.1.2 = .tc ∧ r < nRounds (kindOf g.2) then {()} else ∅
  unitless _ := False
  amount g _ _ := match kindOf g.2 with | .bar => 1 | .inn _ => NS | _ => NO
  payload g r _ := payOf m g.1.1 r (kindOf g.2)
  amount_pos g _ _ _ := by
    cases kindOf g.2 <;> first | exact Nat.one_pos | exact NS_pos | exact NO_pos

instance rd_payload_storable (g : GSem nD τ sig) (r : ℕ) (d : Unit) :
    BI.Storable (upEmb : UEmb _ 𝕄) ((rd (F := F) m).payload g r d) := by
  show BI.Storable upEmb (payOf m g.1.1 r (kindOf g.2))
  cases kindOf g.2 <;> (unfold payOf barPay sendPay recvPay inPay outPay) <;> infer_instance

/-! ## What a device owes at launch; the levels -/

/-- The receive credit device `c` owes its partner for copy `k`. -/
abbrev TR (c : Dev nD) (k : Fin 8) : CellTallies nD τ sig Unit := tallyAt (recvCell (peer c) k) () NO

/-- After the signal and the copies `0 … k-1`: the receive credits of the copies still to come, summed so that copy `k`
    peels the last summand. -/
def OS (c : Dev nD) (k : ℕ) : CellTallies nD τ sig Unit :=
  match k with
  | 0 => (((((((0 + TR c 7) + TR c 6) + TR c 5) + TR c 4) + TR c 3) + TR c 2) + TR c 1) + TR c 0
  | 1 => ((((((0 + TR c 7) + TR c 6) + TR c 5) + TR c 4) + TR c 3) + TR c 2) + TR c 1
  | 2 => (((((0 + TR c 7) + TR c 6) + TR c 5) + TR c 4) + TR c 3) + TR c 2
  | 3 => ((((0 + TR c 7) + TR c 6) + TR c 5) + TR c 4) + TR c 3
  | 4 => (((0 + TR c 7) + TR c 6) + TR c 5) + TR c 4
  | 5 => ((0 + TR c 7) + TR c 6) + TR c 5
  | 6 => (0 + TR c 7) + TR c 6
  | 7 => 0 + TR c 7
  | _ => 0

/-- At launch: those eight and the unit of the signal to the partner's barrier cell. -/
def O₀ (c : Dev nD) : CellTallies nD τ sig Unit := OS c 0 + tallyAt (barCell (peer c)) () 1

def L (g : GSem nD τ sig) : Finset Unit := if g.1.2 = .tc then {()} else ∅
/-- Barrier cells at 1, receive cells at 2, every other cell at 0: the one wait made while owing (the barrier wait)
    is below everything owed then (receive credits). -/
def lv (g : GSem nD τ sig) (_ : Unit) : ℕ := match kindOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-! ## Opening the big separating conjunctions -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin20 (Φ : Fin 20 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ
omit [FloatOps F] in
theorem bigSep_fin21 (Φ : Fin 21 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
omit [FloatOps F] in
theorem bigSep_fin2x4 (Φ : Fin 2 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ

/-! ## The ghost state a device's body starts from -/

/-- Names of the cells' invariants, by device and by cell: 0 the barrier, 1 + k send k, 9 + k receive k, 17 + s in s, 19 + s out s. -/
abbrev csem : Fin 21 → SemLoc sig
  | 0 => .reg barS
  | 1 => .dma (sendS 0) | 2 => .dma (sendS 1) | 3 => .dma (sendS 2) | 4 => .dma (sendS 3)
  | 5 => .dma (sendS 4) | 6 => .dma (sendS 5) | 7 => .dma (sendS 6) | 8 => .dma (sendS 7)
  | 9 => .dma (recvS 0) | 10 => .dma (recvS 1) | 11 => .dma (recvS 2) | 12 => .dma (recvS 3)
  | 13 => .dma (recvS 4) | 14 => .dma (recvS 5) | 15 => .dma (recvS 6) | 16 => .dma (recvS 7)
  | 17 => .dma (inS 0) | 18 => .dma (inS 1) | 19 => .dma (outS 0) | 20 => .dma (outS 1)
  | _ => .reg barS                                                       -- no other index (no index reaches the arm)
abbrev kcell (cj : Dev nD × Fin 21) : GSem nD τ sig := ((cj.1 : Thread nD τ), csem cj.2)

def sendIx (k : Fin 8) : Fin 21 := ⟨1 + k.val, by omega⟩
def recvIx (k : Fin 8) : Fin 21 := ⟨9 + k.val, by omega⟩
def inIx (s : Fin 2) : Fin 21 := ⟨17 + s.val, by omega⟩
def outIx (s : Fin 2) : Fin 21 := ⟨19 + s.val, by omega⟩
theorem kcell_bar (c : Dev nD) : kcell (c, 0) = barCell c := rfl
theorem kcell_send (c : Dev nD) (k : Fin 8) : kcell (c, sendIx k) = sendCell c k := by fin_cases k <;> rfl
theorem kcell_recv (c : Dev nD) (k : Fin 8) : kcell (c, recvIx k) = recvCell c k := by fin_cases k <;> rfl
theorem kcell_in (c : Dev nD) (s : Fin 2) : kcell (c, inIx s) = inCell c s := by fin_cases s <;> rfl
theorem kcell_out (c : Dev nD) (s : Fin 2) : kcell (c, outIx s) = outCell c s := by fin_cases s <;> rfl

variable (K : Dev nD × Fin 21 → ℕ)

/-- The invariants device `c`'s body opens: its own twenty-one cells', its partner's barrier cell's (its signal) and
    its partner's receive cells' (its copies). -/
def invs (c : Dev nD) : sProp 𝕄 :=
  iprop((bigSep Finset.univ fun j : Fin 21 => cellInv ER (rd m) (K (c, j)) (kcell (c, j)))
    ∗ cellInv ER (rd m) (K (peer c, 0)) (barCell (peer c))
    ∗ bigSep Finset.univ fun k : Fin 8 => cellInv ER (rd m) (K (peer c, recvIx k)) (recvCell (peer c) k))

instance invs_persistent (c : Dev nD) : BI.Persistent (invs m K c) := by unfold invs; infer_instance

/-- Its positions: round 0 of each of its cells. -/
def poss (c : Dev nD) : sProp 𝕄 := bigSep Finset.univ fun j : Fin 21 => atPos ER (kcell (c, j)) 0 ∅ 0

/-- Round 0 reached, of its own cells and of the partner's cells it pays. -/
def marks (c : Dev nD) : sProp 𝕄 :=
  iprop((bigSep Finset.univ fun j : Fin 21 => reached ER (kcell (c, j)) 0)
    ∗ reached ER (barCell (peer c)) 0
    ∗ bigSep Finset.univ fun k : Fin 8 => reached ER (recvCell (peer c) k) 0)

instance marks_persistent (c : Dev nD) : BI.Persistent (marks (F := F) c) := by unfold marks; infer_instance

/-- The tokens of the duties IT pays: the partner's barrier duty, the partner's eight receive duties, its own eight send
    duties, and its in and out cells' four rounds each. -/
def payToks (c : Dev nD) : sProp 𝕄 :=
  iprop(dutyTok ER (barCell (peer c)) 0 ()
    ∗ (bigSep Finset.univ fun k : Fin 8 => dutyTok ER (recvCell (peer c) k) 0 ())
    ∗ (bigSep Finset.univ fun k : Fin 8 => dutyTok ER (sendCell c k) 0 ())
    ∗ (bigSep Finset.univ fun sr : Fin 2 × Fin 4 => dutyTok ER (inCell c sr.1) sr.2.val ())
    ∗ (bigSep Finset.univ fun sr : Fin 2 × Fin 4 => dutyTok ER (outCell c sr.1) sr.2.val ()))

def ghost (c : Dev nD) : sProp 𝕄 := iprop(invs m K c ∗ poss c ∗ marks c ∗ payToks c)

/-- The launch credit a device holds: the partner's signal, and the partner's eight copies. -/
def creds (c : Dev nD) : sProp 𝕄 :=
  iprop(cred (tallyAt (barCell c) () 1) ∗ bigSep Finset.univ fun k : Fin 8 => cred (tallyAt (recvCell c k) () NO))

/-- What a device's body starts from, the scratch apart: the ghost state at some names, the launch credit, the level
    facts, and its two arrays whole — the input block, and the result array at whatever it held. -/
def start (c : Dev nD) : sProp 𝕄 :=
  iprop((∃ K, ghost m K c) ∗ creds c ∗ levAts L lv
    ∗ (((c : Thread nD τ).loc main_arg0) ↦{fullShare} X m c)
    ∗ (((c : Thread nD τ).loc main_v1) ↦{fullShare} m ((c : Thread nD τ).loc main_v1)))

def Φ₀ (c : Dev nD) : sProp 𝕄 :=
  iprop(start m c ∗ ∃ f : Buf (Elt F) ((c : Thread nD τ).loc cc0_scratch0), ((c : Thread nD τ).loc cc0_scratch0) ↦{fullShare} f)

/-- After the body: the input block as it was, the result array at the final contents, the stage at some contents, and
    the twenty own DMA semaphores at zero, their cells closed. -/
def Φ₁ (c : Dev nD) : sProp 𝕄 :=
  iprop((((c : Thread nD τ).loc main_arg0) ↦{fullShare} X m c)
    ∗ (((c : Thread nD τ).loc main_v1) ↦{fullShare} Rfin m c)
    ∗ (∃ f : Buf (Elt F) ((c : Thread nD τ).loc cc0_scratch0), ((c : Thread nD τ).loc cc0_scratch0) ↦{fullShare} f)
    ∗ bigSep Finset.univ fun j : Fin 20 => semVal (kcell (c, j.succ)) 0)

/-- The pipeline's proof data: no window, one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.A2a

end
-- ==== Proof.KernelIdealTables.lean ====
/-
  The schedule's tables read at each kind of cell — duties, amounts, a round's expected units, payloads, the rest of a
  round nobody has taken from — and the two ledgers of the launch: that a device may wait on its barrier cell while it
  still owes its partner the eight receive credits (the barrier cell sits below the receive cells), and that the
  launch credit a device is dealt is its partner's signal and its partner's eight copies.
-/
import proofs.«900652_g7700000000000653_dist_a2a_v7x_xyz2x4x4_x_m8192_n1024_f32_1_alg».proof.Proof.KernelIdealSched

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tables as equations -/

omit [FloatOps F] in
theorem duties_eq (g : GSem nD τ sig) (r : ℕ) :
    (rd (F := F) m).duties g r = if g.1.2 = .tc ∧ r < nRounds (kindOf g.2) then {()} else ∅ := rfl
omit [FloatOps F] in
theorem amount_eq (g : GSem nD τ sig) (r : ℕ) (d : Unit) :
    (rd (F := F) m).amount g r d = (match kindOf g.2 with | .bar => 1 | .inn _ => NS | _ => NO) := rfl
omit [FloatOps F] in
theorem payload_eq (g : GSem nD τ sig) (r : ℕ) (d : Unit) :
    (rd (F := F) m).payload g r d = payOf m g.1.1 r (kindOf g.2) := rfl

section Tables
variable (c : Dev nD)

omit [FloatOps F] in
theorem duties_bar : (rd (F := F) m).duties (barCell c) 0 = {()} := by
  rw [duties_eq]; exact if_pos ⟨rfl, Nat.one_pos⟩
omit [FloatOps F] in
theorem duties_send (k : Fin 8) : (rd (F := F) m).duties (sendCell c k) 0 = {()} := by
  rw [duties_eq]; show (if _ ∧ 0 < nRounds (kindOf (.dma (sendS k))) then _ else _) = _
  rw [kindOf_send]; exact if_pos ⟨rfl, Nat.one_pos⟩
omit [FloatOps F] in
theorem duties_recv (k : Fin 8) : (rd (F := F) m).duties (recvCell c k) 0 = {()} := by
  rw [duties_eq]; show (if _ ∧ 0 < nRounds (kindOf (.dma (recvS k))) then _ else _) = _
  rw [kindOf_recv]; exact if_pos ⟨rfl, Nat.one_pos⟩
omit [FloatOps F] in
theorem duties_in (s : Fin 2) (r : ℕ) (hr : r < 4) : (rd (F := F) m).duties (inCell c s) r = {()} := by
  rw [duties_eq]; show (if _ ∧ r < nRounds (kindOf (.dma (inS s))) then _ else _) = _
  rw [kindOf_in]; exact if_pos ⟨rfl, hr⟩
omit [FloatOps F] in
theorem duties_out (s : Fin 2) (r : ℕ) (hr : r < 4) : (rd (F := F) m).duties (outCell c s) r = {()} := by
  rw [duties_eq]; show (if _ ∧ r < nRounds (kindOf (.dma (outS s))) then _ else _) = _
  rw [kindOf_out]; exact if_pos ⟨rfl, hr⟩

omit [FloatOps F] in
/-- From the round a cell's last duty is in onward there is no duty. -/
theorem duties_later (g : GSem nD τ sig) : ∀ r, nRounds (kindOf g.2) ≤ r → (rd (F := F) m).duties g r = ∅ :=
  fun r hr => by rw [duties_eq]; exact if_neg fun h => absurd h.2 (Nat.not_lt.mpr hr)
omit [FloatOps F] in
theorem later_send (k : Fin 8) : ∀ r, 1 ≤ r → (rd (F := F) m).duties (sendCell c k) r = ∅ :=
  fun r hr => duties_later m _ r (by show nRounds (kindOf (.dma (sendS k))) ≤ r; rw [kindOf_send]; exact hr)
omit [FloatOps F] in
theorem later_recv (k : Fin 8) : ∀ r, 1 ≤ r → (rd (F := F) m).duties (recvCell c k) r = ∅ :=
  fun r hr => duties_later m _ r (by show nRounds (kindOf (.dma (recvS k))) ≤ r; rw [kindOf_recv]; exact hr)
omit [FloatOps F] in
theorem later_in (s : Fin 2) : ∀ r, 4 ≤ r → (rd (F := F) m).duties (inCell c s) r = ∅ :=
  fun r hr => duties_later m _ r (by show nRounds (kindOf (.dma (inS s))) ≤ r; rw [kindOf_in]; exact hr)
omit [FloatOps F] in
theorem later_out (s : Fin 2) : ∀ r, 4 ≤ r → (rd (F := F) m).duties (outCell c s) r = ∅ :=
  fun r hr => duties_later m _ r (by show nRounds (kindOf (.dma (outS s))) ≤ r; rw [kindOf_out]; exact hr)

omit [FloatOps F] in
theorem amount_bar (r : ℕ) (d : Unit) : (rd (F := F) m).amount (barCell c) r d = 1 := rfl
omit [FloatOps F] in
theorem amount_send (k : Fin 8) (r : ℕ) (d : Unit) : (rd (F := F) m).amount (sendCell c k) r d = NO := by
  rw [amount_eq]; show (match kindOf (.dma (sendS k)) with | .bar => 1 | .inn _ => NS | _ => NO) = NO; rw [kindOf_send]
omit [FloatOps F] in
theorem amount_recv (k : Fin 8) (r : ℕ) (d : Unit) : (rd (F := F) m).amount (recvCell c k) r d = NO := by
  rw [amount_eq]; show (match kindOf (.dma (recvS k)) with | .bar => 1 | .inn _ => NS | _ => NO) = NO; rw [kindOf_recv]
omit [FloatOps F] in
theorem amount_in (s : Fin 2) (r : ℕ) (d : Unit) : (rd (F := F) m).amount (inCell c s) r d = NS := by
  rw [amount_eq]; show (match kindOf (.dma (inS s)) with | .bar => 1 | .inn _ => NS | _ => NO) = NS; rw [kindOf_in]
omit [FloatOps F] in
theorem amount_out (s : Fin 2) (r : ℕ) (d : Unit) : (rd (F := F) m).amount (outCell c s) r d = NO := by
  rw [amount_eq]; show (match kindOf (.dma (outS s)) with | .bar => 1 | .inn _ => NS | _ => NO) = NO; rw [kindOf_out]

omit [FloatOps F] in
theorem expect_bar : (rd (F := F) m).expect (barCell c) 0 = 1 := by
  unfold Schedule.expect Schedule.amountOf; rw [duties_bar, Finset.sum_singleton, amount_bar]
omit [FloatOps F] in
theorem expect_send (k : Fin 8) : (rd (F := F) m).expect (sendCell c k) 0 = NO := by
  unfold Schedule.expect Schedule.amountOf; rw [duties_send, Finset.sum_singleton, amount_send]
omit [FloatOps F] in
theorem expect_recv (k : Fin 8) : (rd (F := F) m).expect (recvCell c k) 0 = NO := by
  unfold Schedule.expect Schedule.amountOf; rw [duties_recv, Finset.sum_singleton, amount_recv]
omit [FloatOps F] in
theorem expect_in (s : Fin 2) (r : ℕ) (hr : r < 4) : (rd (F := F) m).expect (inCell c s) r = NS := by
  unfold Schedule.expect Schedule.amountOf; rw [duties_in m c s r hr, Finset.sum_singleton, amount_in]
omit [FloatOps F] in
theorem expect_out (s : Fin 2) (r : ℕ) (hr : r < 4) : (rd (F := F) m).expect (outCell c s) r = NO := by
  unfold Schedule.expect Schedule.amountOf; rw [duties_out m c s r hr, Finset.sum_singleton, amount_out]

omit [FloatOps F] in
theorem payload_bar (r : ℕ) (d : Unit) : (rd (F := F) m).payload (barCell c) r d = barPay c := rfl
omit [FloatOps F] in
theorem payload_send (k : Fin 8) (r : ℕ) (d : Unit) : (rd (F := F) m).payload (sendCell c k) r d = sendPay m c k := by
  rw [payload_eq]; show payOf m c r (kindOf (.dma (sendS k))) = _; rw [kindOf_send]; rfl
omit [FloatOps F] in
theorem payload_recv (k : Fin 8) (r : ℕ) (d : Unit) : (rd (F := F) m).payload (recvCell c k) r d = recvPay m c k := by
  rw [payload_eq]; show payOf m c r (kindOf (.dma (recvS k))) = _; rw [kindOf_recv]; rfl
omit [FloatOps F] in
theorem payload_in (s : Fin 2) (r : ℕ) (d : Unit) : (rd (F := F) m).payload (inCell c s) r d = inPay m c s r := by
  rw [payload_eq]; show payOf m c r (kindOf (.dma (inS s))) = _; rw [kindOf_in]; rfl
omit [FloatOps F] in
theorem payload_out (s : Fin 2) (r : ℕ) (d : Unit) : (rd (F := F) m).payload (outCell c s) r d = outPay m c s r := by
  rw [payload_eq]; show payOf m c r (kindOf (.dma (outS s))) = _; rw [kindOf_out]; rfl

/-! The rest of a round nobody has taken from: its one payload. -/

omit [FloatOps F] in
theorem rest_bar : bigSep ((rd (F := F) m).duties (barCell c) 0 \ ∅) (fun d => (rd (F := F) m).payload (barCell c) 0 d) = barPay c := by
  rw [Finset.sdiff_empty, duties_bar, bigSep_singleton, payload_bar]
omit [FloatOps F] in
theorem rest_send (k : Fin 8) : bigSep ((rd (F := F) m).duties (sendCell c k) 0 \ ∅) (fun d => (rd (F := F) m).payload (sendCell c k) 0 d) = sendPay m c k := by
  rw [Finset.sdiff_empty, duties_send, bigSep_singleton, payload_send]
omit [FloatOps F] in
theorem rest_recv (k : Fin 8) : bigSep ((rd (F := F) m).duties (recvCell c k) 0 \ ∅) (fun d => (rd (F := F) m).payload (recvCell c k) 0 d) = recvPay m c k := by
  rw [Finset.sdiff_empty, duties_recv, bigSep_singleton, payload_recv]
omit [FloatOps F] in
theorem rest_in (s : Fin 2) (r : ℕ) (hr : r < 4) : bigSep ((rd (F := F) m).duties (inCell c s) r \ ∅) (fun d => (rd (F := F) m).payload (inCell c s) r d) = inPay m c s r := by
  rw [Finset.sdiff_empty, duties_in m c s r hr, bigSep_singleton, payload_in]
omit [FloatOps F] in
theorem rest_out (s : Fin 2) (r : ℕ) (hr : r < 4) : bigSep ((rd (F := F) m).duties (outCell c s) r \ ∅) (fun d => (rd (F := F) m).payload (outCell c s) r d) = outPay m c s r := by
  rw [Finset.sdiff_empty, duties_out m c s r hr, bigSep_singleton, payload_out]

end Tables

/-! ## The barrier wait, owing the receive credits -/

theorem recv_ne_bar (k : Fin 8) : (SemLoc.dma (recvS k) : SemLoc sig) ≠ .reg barS := fun h => by cases h

/-- What is still owed after the signal is owed to the partner's receive cells only. -/
theorem OS_pos {c : Dev nD} {g : GSem nD τ sig} {u : Unit} (h : 0 < OS c 0 g u) : ∃ k : Fin 8, g = recvCell (peer c) k := by
  by_contra hn
  have hk : ∀ k : Fin 8, ¬ g = recvCell (peer c) k := fun k hk => hn ⟨k, hk⟩
  have h0 : OS c 0 g u = 0 := by
    simp only [OS, TR, Pi.add_apply, Finsupp.add_apply, tallyAt_apply, Pi.zero_apply, Finsupp.zero_apply, and_true,
      if_neg (hk 0), if_neg (hk 1), if_neg (hk 2), if_neg (hk 3), if_neg (hk 4), if_neg (hk 5), if_neg (hk 6), if_neg (hk 7),
      Nat.add_zero]
  omega

theorem lv_bar (c : Dev nD) (u : Unit) : lv (barCell c) u = 1 := rfl
theorem lv_recv (c : Dev nD) (k : Fin 8) (u : Unit) : lv (recvCell c k) u = 2 := by
  show (match kindOf (.dma (recvS k)) with | .bar => 1 | .recv _ => 2 | _ => 0) = 2; rw [kindOf_recv]

omit [FloatOps F] in
/-- At its barrier wait a device owes its partner's receive credits only: receive cells, above its barrier cell. -/
theorem mayWait_bar (c : Dev nD) :
    (levAts L lv : sProp 𝕄) ⊢ MayWait (c : Thread nD τ) (.reg barS) () (OS c 0) :=
  MayOwe.of_cut (L := L) (lev := lv) 1 (fun p hp => by rw [Finset.mem_singleton.mp hp, L_tc]; exact Finset.mem_singleton_self _)
    (fun g u hg => by obtain ⟨k, rfl⟩ := OS_pos hg; rw [L_tc]; exact Finset.mem_singleton_self _)
    (fun p hp => by rw [Finset.mem_singleton.mp hp]; exact Nat.le_of_eq (lv_bar c ()))
    (fun g u hg => by obtain ⟨k, rfl⟩ := OS_pos hg; rw [lv_recv]; decide)

/-! ## The launch credit -/

omit [FloatOps F] in
/-- What a device is dealt at launch for the units others owe its cells: its partner's signal and its partner's eight copies. -/
theorem creds_of_launch (c : Dev nD) : (Pipeline.launchCred O₀ c : sProp 𝕄) ⊢ creds c := by
  have tA (sm : SemLoc sig) (n : ℕ) :
      (Pipeline.launchCred (fun d : Dev nD => tallyAt (((peer d : Dev nD) : Thread nD τ), sm) () n) c : sProp 𝕄)
        ⊢ cred (tallyAt ((c : Thread nD τ), sm) () n) :=
    Pipeline.launchCred_tallyAt sm peer peer peer_peer peer_peer () n c
  have e : (O₀ : Dev nD → CellTallies nD τ sig Unit) = fun d =>
      ((((((((0 + tallyAt (recvCell (peer d) 7) () NO) + tallyAt (recvCell (peer d) 6) () NO) + tallyAt (recvCell (peer d) 5) () NO)
        + tallyAt (recvCell (peer d) 4) () NO) + tallyAt (recvCell (peer d) 3) () NO) + tallyAt (recvCell (peer d) 2) () NO)
        + tallyAt (recvCell (peer d) 1) () NO) + tallyAt (recvCell (peer d) 0) () NO) + tallyAt (barCell (peer d)) () 1 := rfl
  rw [e]
  simp only [Pipeline.launchCred_add]
  unfold creds
  iintro ⟨⟨⟨⟨⟨⟨⟨⟨⟨-, H7⟩, H6⟩, H5⟩, H4⟩, H3⟩, H2⟩, H1⟩, H0⟩, HB⟩
  isplitl [HB]; · iapply (tA (.reg barS) 1); iexact HB
  rw [bigSep_fin8]
  isplitl [H0]; · iapply (tA (.dma (recvS 0)) NO); iexact H0
  isplitl [H1]; · iapply (tA (.dma (recvS 1)) NO); iexact H1
  isplitl [H2]; · iapply (tA (.dma (recvS 2)) NO); iexact H2
  isplitl [H3]; · iapply (tA (.dma (recvS 3)) NO); iexact H3
  isplitl [H4]; · iapply (tA (.dma (recvS 4)) NO); iexact H4
  isplitl [H5]; · iapply (tA (.dma (recvS 5)) NO); iexact H5
  isplitl [H6]; · iapply (tA (.dma (recvS 6)) NO); iexact H6
  iapply (tA (.dma (recvS 7)) NO); iexact H7

end Cert.KernelIdeal.A2a

end
-- ==== Proof.KernelIdealRegions.lean ====
/-
  Cutting the three buffers along the copies' rectangles, and what each copy leaves on its rectangle.
  The result array of a device is sixteen row bands of 1024 rows: the eight its own write-backs fill (its own row
  half) and the eight its partner's addressed copies fill (the other half).  The input block is sixteen squares:
  per chunk of 1024 rows, the column half that is sent and the column half that is kept.  The stage is its two slots.
  On its rectangle every copy leaves the final contents: entry (r, j) of a device's result is entry
  (r mod 8192, 1024·x + j) of the input block of the device holding row half r / 8192.
-/
import proofs.«900652_g7700000000000653_dist_a2a_v7x_xyz2x4x4_x_m8192_n1024_f32_1_alg».proof.Proof.KernelIdealSched
import Idealize.ShloMosaic.Lib.Pipeline.Value

set_option maxRecDepth 16384

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Where each rectangle lies -/

/-- The sent square of chunk `k` starts at row `1024·k`, in the partner's column half. -/
theorem srcROff_eq (c : Dev nD) : ∀ k : Fin 8, srcROff c k = ![1024 * k.val, 1024 - 1024 * (c.val / 16)]
  | 0 => k0_off2_eq c | 1 => k0_off3_eq c | 2 => k0_off4_eq c | 3 => k0_off5_eq c
  | 4 => k0_off6_eq c | 5 => k0_off7_eq c | 6 => k0_off8_eq c | 7 => k0_off9_eq c

/-- The kept square of chunk `k` starts at row `1024·k`, in the device's own column half. -/
theorem srcLOff_eq (c : Dev nD) : ∀ k : Fin 8, srcLOff c k = ![1024 * k.val, 1024 * (c.val / 16)]
  | 0 => k0_off10_eq c | 1 => k0_off11_eq c | 2 => k0_off12_eq c | 3 => k0_off13_eq c
  | 4 => k0_off14_eq c | 5 => k0_off15_eq c | 6 => k0_off16_eq c | 7 => k0_off17_eq c

/-- Slot `s` starts at first coordinate `s`. -/
theorem stgOff_eq : ∀ s : Fin 2, stgOff s = ![s.val, 0, 0]
  | 0 => rfl | 1 => rfl

theorem srcR_off0 (c : Dev nD) (k : Fin 8) (y : S1024x1024.Idx) :
    (((srcR c k).view.emb y) 0 : ℕ) = 1024 * k.val + (y 0 : ℕ) := by
  show srcROff c k 0 + 1 * (y 0 : ℕ) = _
  rw [srcROff_eq]
  show 1024 * k.val + 1 * (y 0 : ℕ) = _
  omega

theorem srcR_off1 (c : Dev nD) (k : Fin 8) (y : S1024x1024.Idx) :
    (((srcR c k).view.emb y) 1 : ℕ) = 1024 - 1024 * (c.val / 16) + (y 1 : ℕ) := by
  show srcROff c k 1 + 1 * (y 1 : ℕ) = _
  rw [srcROff_eq]
  show 1024 - 1024 * (c.val / 16) + 1 * (y 1 : ℕ) = _
  omega

theorem srcL_off0 (c : Dev nD) (k : Fin 8) (y : S1024x1024.Idx) :
    (((srcL c k).view.emb y) 0 : ℕ) = 1024 * k.val + (y 0 : ℕ) := by
  show srcLOff c k 0 + 1 * (y 0 : ℕ) = _
  rw [srcLOff_eq]
  show 1024 * k.val + 1 * (y 0 : ℕ) = _
  omega

theorem srcL_off1 (c : Dev nD) (k : Fin 8) (y : S1024x1024.Idx) :
    (((srcL c k).view.emb y) 1 : ℕ) = 1024 * (c.val / 16) + (y 1 : ℕ) := by
  show srcLOff c k 1 + 1 * (y 1 : ℕ) = _
  rw [srcLOff_eq]
  show 1024 * (c.val / 16) + 1 * (y 1 : ℕ) = _
  omega

theorem dst_off0 (c : Dev nD) (k : Fin 8) (y : S1024x1024.Idx) :
    (((dstV c k).view.emb y) 0 : ℕ) = 8192 * (c.val / 16) + (1024 * k.val + (y 0 : ℕ)) := by
  show (k0_off1 c (BitVec.ofNat 32 (1024 * k.val))) 0 + 1 * (y 0 : ℕ) = _
  rw [k0_off1_eq]
  show 8192 * (c.val / 16) + 1024 * k.val + 1 * (y 0 : ℕ) = _
  omega

theorem dst_off1 (c : Dev nD) (k : Fin 8) (y : S1024x1024.Idx) :
    (((dstV c k).view.emb y) 1 : ℕ) = (y 1 : ℕ) := by
  show (k0_off1 c (BitVec.ofNat 32 (1024 * k.val))) 1 + 1 * (y 1 : ℕ) = _
  rw [k0_off1_eq]
  show 0 + 1 * (y 1 : ℕ) = _
  omega

/-- Row `r` is in band `k` of the rows device `c` addresses iff `8192·x(c) + 1024·k ≤ r < … + 1024`. -/
theorem mem_dst (c : Dev nD) (k : Fin 8) (i : S16384x1024.Idx) :
    i ∈ (dstV c k).view.set ↔ 8192 * (c.val / 16) + 1024 * k.val ≤ (i 0 : ℕ) ∧ (i 0 : ℕ) < 8192 * (c.val / 16) + 1024 * k.val + 1024 := by
  have e : (dstV c k).view.set = (Rect.unit (s := S16384x1024) (k0_off1 c (BitVec.ofNat 32 (1024 * k.val))) S1024x1024.size (k0_off1_inb c k)).set :=
    View.set_slice_whole _ _
  rw [e, Rect.mem_set_unit, k0_off1_eq]
  have h1 : (i 1 : ℕ) < 1024 := (i 1).isLt
  constructor
  · intro h; exact h 0
  · intro h a
    fin_cases a
    · exact h
    · show 0 ≤ (i 1 : ℕ) ∧ (i 1 : ℕ) < 0 + 1024
      omega

theorem mem_srcR (c : Dev nD) (k : Fin 8) (i : S8192x2048.Idx) :
    i ∈ (srcR c k).view.set ↔ (1024 * k.val ≤ (i 0 : ℕ) ∧ (i 0 : ℕ) < 1024 * k.val + 1024)
      ∧ (1024 - 1024 * (c.val / 16) ≤ (i 1 : ℕ) ∧ (i 1 : ℕ) < 1024 - 1024 * (c.val / 16) + 1024) := by
  have e : (srcR c k).view.set = (Rect.unit (s := S8192x2048) (srcROff c k) S1024x1024.size (srcROff_inb c k)).set :=
    View.set_slice_whole _ _
  rw [e, Rect.mem_set_unit, srcROff_eq]
  constructor
  · intro h; exact ⟨h 0, h 1⟩
  · intro h a
    fin_cases a
    · exact h.1
    · exact h.2

theorem mem_srcL (c : Dev nD) (k : Fin 8) (i : S8192x2048.Idx) :
    i ∈ (srcL c k).view.set ↔ (1024 * k.val ≤ (i 0 : ℕ) ∧ (i 0 : ℕ) < 1024 * k.val + 1024)
      ∧ (1024 * (c.val / 16) ≤ (i 1 : ℕ) ∧ (i 1 : ℕ) < 1024 * (c.val / 16) + 1024) := by
  have e : (srcL c k).view.set = (Rect.unit (s := S8192x2048) (srcLOff c k) S1024x1024.size (srcLOff_inb c k)).set :=
    View.set_slice_whole _ _
  rw [e, Rect.mem_set_unit, srcLOff_eq]
  constructor
  · intro h; exact ⟨h 0, h 1⟩
  · intro h a
    fin_cases a
    · exact h.1
    · exact h.2

theorem mem_stg (s : Fin 2) (i : S2x1024x1024.Idx) : i ∈ (stgV s).view.set ↔ (i 0 : ℕ) = s.val := by
  have h1 : (i 1 : ℕ) < 1024 := (i 1).isLt
  have h2 : (i 2 : ℕ) < 1024 := (i 2).isLt
  have e : (stgV s).view.set = (Rect.unit (s := S2x1024x1024) (stgOff s) S1x1024x1024.size (stgOff_inb s)).set :=
    (View.set_reshape _ _).trans (View.set_slice_whole _ _)
  rw [e, Rect.mem_set_unit, stgOff_eq]
  constructor
  · intro h
    have h0 : s.val ≤ (i 0 : ℕ) ∧ (i 0 : ℕ) < s.val + 1 := h 0
    omega
  · intro h a
    fin_cases a
    · show s.val ≤ (i 0 : ℕ) ∧ (i 0 : ℕ) < s.val + 1
      omega
    · show 0 ≤ (i 1 : ℕ) ∧ (i 1 : ℕ) < 0 + 1024
      omega
    · show 0 ≤ (i 2 : ℕ) ∧ (i 2 : ℕ) < 0 + 1024
      omega

/-! ## The cuts -/

/-- The sixteen row bands of a device's result array: its own (`inl`), its partner's (`inr`). -/
def outK (d : Dev nD) : Fin 8 ⊕ Fin 8 → Finset (S16384x1024.Idx)
  | .inl k => (dstV d k).view.set
  | .inr k => (dstV (peer d) k).view.set

theorem outK_cover (d : Dev nD) : (Finset.univ : Finset (Fin 8 ⊕ Fin 8)).biUnion (outK d) = Finset.univ := by
  ext i
  simp only [Finset.mem_biUnion, Finset.mem_univ, true_and, iff_true]
  have hr : (i 0 : ℕ) < 16384 := (i 0).isLt
  have hx := half_le d
  have hp := peer_half d
  have hk : ((i 0 : ℕ) % 8192) / 1024 < 8 := by omega
  by_cases h : (i 0 : ℕ) / 8192 = d.val / 16
  · refine ⟨.inl ⟨((i 0 : ℕ) % 8192) / 1024, hk⟩, (mem_dst d ⟨((i 0 : ℕ) % 8192) / 1024, hk⟩ i).mpr ?_⟩
    show 8192 * (d.val / 16) + 1024 * (((i 0 : ℕ) % 8192) / 1024) ≤ (i 0 : ℕ)
      ∧ (i 0 : ℕ) < 8192 * (d.val / 16) + 1024 * (((i 0 : ℕ) % 8192) / 1024) + 1024
    omega
  · refine ⟨.inr ⟨((i 0 : ℕ) % 8192) / 1024, hk⟩, (mem_dst (peer d) ⟨((i 0 : ℕ) % 8192) / 1024, hk⟩ i).mpr ?_⟩
    show 8192 * ((peer d).val / 16) + 1024 * (((i 0 : ℕ) % 8192) / 1024) ≤ (i 0 : ℕ)
      ∧ (i 0 : ℕ) < 8192 * ((peer d).val / 16) + 1024 * (((i 0 : ℕ) % 8192) / 1024) + 1024
    omega

theorem outK_disj (d : Dev nD) : ∀ t ∈ (Finset.univ : Finset (Fin 8 ⊕ Fin 8)), ∀ t' ∈ (Finset.univ : Finset (Fin 8 ⊕ Fin 8)),
    t ≠ t' → Disjoint (outK d t) (outK d t') := by
  intro t _ t' _ hne
  rw [Finset.disjoint_left]
  intro i hi hi'
  have hx := half_le d
  have hp := peer_half d
  rcases t with k | k <;> rcases t' with k' | k'
  · have h1 := (mem_dst d k i).mp hi
    have h2 := (mem_dst d k' i).mp hi'
    exact hne (congrArg Sum.inl (Fin.ext (by omega)))
  · have h1 := (mem_dst d k i).mp hi
    have h2 := (mem_dst (peer d) k' i).mp hi'
    have := k.isLt; have := k'.isLt
    omega
  · have h1 := (mem_dst (peer d) k i).mp hi
    have h2 := (mem_dst d k' i).mp hi'
    have := k.isLt; have := k'.isLt
    omega
  · have h1 := (mem_dst (peer d) k i).mp hi
    have h2 := (mem_dst (peer d) k' i).mp hi'
    exact hne (congrArg Sum.inr (Fin.ext (by omega)))

/-- A device's whole result array is its sixteen row bands. -/
theorem out_split (d : Dev nD) (f : Buf (Elt F) ((d : Thread nD τ).loc main_v1)) :
    ((((d : Thread nD τ).loc main_v1) ↦{fullShare} f) : sProp 𝕄)
      = iprop((bigSep Finset.univ fun k : Fin 8 => ((dstV d k).view.loc (d : Thread nD τ) ↦[(dstV d k).view.set]{fullShare} f))
          ∗ bigSep Finset.univ fun k : Fin 8 => ((dstV (peer d) k).view.loc (d : Thread nD τ) ↦[(dstV (peer d) k).view.set]{fullShare} f)) := by
  refine Eq.trans ?_ ((pointsTo_biUnion (ℓ := (d : Thread nD τ).loc main_v1) (q := fullShare) (f := f)
    Finset.univ (outK d) (outK_disj d)).trans ?_)
  · exact congrArg (fun I => ((((d : Thread nD τ).loc main_v1) ↦[I]{fullShare} f) : sProp 𝕄)) (outK_cover d).symm
  · exact bigSep_univ_sum _

/-- The sixteen squares of a device's input block: per chunk, the sent column half (`inl`) and the kept one (`inr`). -/
def xK (c : Dev nD) : Fin 8 ⊕ Fin 8 → Finset (S8192x2048.Idx)
  | .inl k => (srcR c k).view.set
  | .inr k => (srcL c k).view.set

theorem xK_cover (c : Dev nD) : (Finset.univ : Finset (Fin 8 ⊕ Fin 8)).biUnion (xK c) = Finset.univ := by
  ext i
  simp only [Finset.mem_biUnion, Finset.mem_univ, true_and, iff_true]
  have hr : (i 0 : ℕ) < 8192 := (i 0).isLt
  have hc : (i 1 : ℕ) < 2048 := (i 1).isLt
  have hx := half_le c
  have hk : (i 0 : ℕ) / 1024 < 8 := by omega
  by_cases h : (i 1 : ℕ) / 1024 = c.val / 16
  · refine ⟨.inr ⟨(i 0 : ℕ) / 1024, hk⟩, (mem_srcL c ⟨(i 0 : ℕ) / 1024, hk⟩ i).mpr ?_⟩
    show (1024 * ((i 0 : ℕ) / 1024) ≤ (i 0 : ℕ) ∧ (i 0 : ℕ) < 1024 * ((i 0 : ℕ) / 1024) + 1024)
      ∧ (1024 * (c.val / 16) ≤ (i 1 : ℕ) ∧ (i 1 : ℕ) < 1024 * (c.val / 16) + 1024)
    omega
  · refine ⟨.inl ⟨(i 0 : ℕ) / 1024, hk⟩, (mem_srcR c ⟨(i 0 : ℕ) / 1024, hk⟩ i).mpr ?_⟩
    show (1024 * ((i 0 : ℕ) / 1024) ≤ (i 0 : ℕ) ∧ (i 0 : ℕ) < 1024 * ((i 0 : ℕ) / 1024) + 1024)
      ∧ (1024 - 1024 * (c.val / 16) ≤ (i 1 : ℕ) ∧ (i 1 : ℕ) < 1024 - 1024 * (c.val / 16) + 1024)
    omega

theorem xK_disj (c : Dev nD) : ∀ t ∈ (Finset.univ : Finset (Fin 8 ⊕ Fin 8)), ∀ t' ∈ (Finset.univ : Finset (Fin 8 ⊕ Fin 8)),
    t ≠ t' → Disjoint (xK c t) (xK c t') := by
  intro t _ t' _ hne
  rw [Finset.disjoint_left]
  intro i hi hi'
  have hx := half_le c
  rcases t with k | k <;> rcases t' with k' | k'
  · have h1 := (mem_srcR c k i).mp hi
    have h2 := (mem_srcR c k' i).mp hi'
    exact hne (congrArg Sum.inl (Fin.ext (by omega)))
  · have h1 := (mem_srcR c k i).mp hi
    have h2 := (mem_srcL c k' i).mp hi'
    omega
  · have h1 := (mem_srcL c k i).mp hi
    have h2 := (mem_srcR c k' i).mp hi'
    omega
  · have h1 := (mem_srcL c k i).mp hi
    have h2 := (mem_srcL c k' i).mp hi'
    exact hne (congrArg Sum.inr (Fin.ext (by omega)))

theorem x_split (c : Dev nD) (f : Buf (Elt F) ((c : Thread nD τ).loc main_arg0)) :
    ((((c : Thread nD τ).loc main_arg0) ↦{fullShare} f) : sProp 𝕄)
      = iprop((bigSep Finset.univ fun k : Fin 8 => ((srcR c k).view.loc (c : Thread nD τ) ↦[(srcR c k).view.set]{fullShare} f))
          ∗ bigSep Finset.univ fun k : Fin 8 => ((srcL c k).view.loc (c : Thread nD τ) ↦[(srcL c k).view.set]{fullShare} f)) := by
  refine Eq.trans ?_ ((pointsTo_biUnion (ℓ := (c : Thread nD τ).loc main_arg0) (q := fullShare) (f := f)
    Finset.univ (xK c) (xK_disj c)).trans ?_)
  · exact congrArg (fun I => ((((c : Thread nD τ).loc main_arg0) ↦[I]{fullShare} f) : sProp 𝕄)) (xK_cover c).symm
  · exact bigSep_univ_sum _

def sK (s : Fin 2) : Finset (S2x1024x1024.Idx) := (stgV s).view.set

theorem sK_cover : (Finset.univ : Finset (Fin 2)).biUnion sK = Finset.univ := by
  ext i
  simp only [Finset.mem_biUnion, Finset.mem_univ, true_and, iff_true]
  have h0 : (i 0 : ℕ) < 2 := (i 0).isLt
  exact ⟨⟨(i 0 : ℕ), h0⟩, (mem_stg ⟨(i 0 : ℕ), h0⟩ i).mpr rfl⟩

theorem sK_disj : ∀ t ∈ (Finset.univ : Finset (Fin 2)), ∀ t' ∈ (Finset.univ : Finset (Fin 2)), t ≠ t' → Disjoint (sK t) (sK t') := by
  intro t _ t' _ hne
  rw [Finset.disjoint_left]
  intro i hi hi'
  have h1 := (mem_stg t i).mp hi
  have h2 := (mem_stg t' i).mp hi'
  exact hne (Fin.ext (h1.symm.trans h2))

theorem stg_split (c : Dev nD) (f : Buf (Elt F) ((c : Thread nD τ).loc cc0_scratch0)) :
    ((((c : Thread nD τ).loc cc0_scratch0) ↦{fullShare} f) : sProp 𝕄)
      = iprop(((stgV 0).view.loc (c : Thread nD τ) ↦[(stgV 0).view.set]{fullShare} f)
          ∗ ((stgV 1).view.loc (c : Thread nD τ) ↦[(stgV 1).view.set]{fullShare} f)) := by
  refine Eq.trans ?_ ((pointsTo_biUnion (ℓ := (c : Thread nD τ).loc cc0_scratch0) (q := fullShare) (f := f)
    Finset.univ sK sK_disj).trans ?_)
  · exact congrArg (fun I => ((((c : Thread nD τ).loc cc0_scratch0) ↦[I]{fullShare} f) : sProp 𝕄)) sK_cover.symm
  · exact bigSep_fin_two _

/-! ## What a copy leaves on its rectangle -/

omit [FloatOps F] in
/-- On a view's own elements, a write of `w` everywhere through it does not remember what was there. -/
theorem write_univ_congr {κ : Kind} {sp : Space} {S : Shape} {e : EltTy} (v : View sig κ sp S e)
    (f g : v.ty.Contents (Elt F)) (w : S.Idx → Elt F e) :
    ∀ i ∈ v.set, v.write (Elt F) f w Finset.univ i = v.write (Elt F) g w Finset.univ i := by
  intro i hi
  obtain ⟨y, rfl⟩ := View.exists_emb_of_mem_set v hi
  rw [View.write_emb_of_mem f w (Finset.mem_univ y), View.write_emb_of_mem g w (Finset.mem_univ y)]

theorem colDev_self (c : Dev nD) : colDev c (c.val / 16) = c := by revert c; decide
theorem colDev_peer (c : Dev nD) : colDev (peer c) (c.val / 16) = c := by revert c; decide

/-- The final contents at an entry of row half `x(c)` in the result array of a device `d` of `c`'s column: row
    `8192·x(c) + a`, column `j` holds entry `(a, 1024·x(d) + j)` of `c`'s input block. -/
theorem Rfin_eq (c d : Dev nD) (hd : colDev d (c.val / 16) = c) (i : S16384x1024.Idx) (a : Fin 8192) (b : Fin 2048)
    (h0 : (i 0 : ℕ) = 8192 * (c.val / 16) + a.val) (h1 : b.val = 1024 * (d.val / 16) + (i 1 : ℕ)) :
    Rfin m d i = X m c (ValueIdx.ix2 a b) := by
  have ha := a.isLt
  have hb := b.isLt
  have hx := half_le c
  have e1 : (i 0 : ℕ) / 8192 = c.val / 16 := by omega
  show X m (colDev d ((i 0 : ℕ) / 8192)) (ValueIdx.ix2 (⟨(i 0 : ℕ) % 8192, _⟩ : Fin 8192)
      (⟨(1024 * (d.val / 16) + (i 1 : ℕ)) % 2048, _⟩ : Fin 2048)) = _
  rw [e1, hd]
  exact congrArg (X m c) (congrArg₂ ValueIdx.ix2
    (Fin.ext (by show (i 0 : ℕ) % 8192 = a.val; omega))
    (Fin.ext (by show (1024 * (d.val / 16) + (i 1 : ℕ)) % 2048 = b.val; omega)))

/-- An entry of the input block, named by its two coordinates. -/
theorem X_at (c : Dev nD) (i : S8192x2048.Idx) (a : Fin 8192) (b : Fin 2048) (h0 : (i 0 : ℕ) = a.val) (h1 : (i 1 : ℕ) = b.val) :
    X m c i = X m c (ValueIdx.ix2 a b) :=
  congrArg (X m c) ((ValueIdx.eq_ix2 i).trans (congrArg₂ ValueIdx.ix2 (Fin.ext h0) (Fin.ext h1)))

/-- The final contents at the image of `y` in band `k` of the rows `c` addresses, in the result array of a device `d` of
    `c`'s column: entry `(1024·k + y₀, 1024·x(d) + y₁)` of `c`'s input block. -/
theorem Rfin_at (c d : Dev nD) (hd : colDev d (c.val / 16) = c) (k : Fin 8) (y : S1024x1024.Idx) :
    Rfin m d ((dstV c k).view.emb y)
      = X m c (ValueIdx.ix2 (⟨1024 * k.val + (y 0 : ℕ), by have h : (y 0 : ℕ) < 1024 := (y 0).isLt; have := k.isLt; omega⟩ : Fin 8192)
          (⟨1024 * (d.val / 16) + (y 1 : ℕ), by have h : (y 1 : ℕ) < 1024 := (y 1).isLt; have := half_le d; omega⟩ : Fin 2048)) :=
  Rfin_eq m c d hd _ _ _ (dst_off0 c k y) (congrArg (fun n => 1024 * (d.val / 16) + n) (dst_off1 c k y).symm)

/-- A sent square read at `y`: entry `(1024·k + y₀, 1024·(1 - x(c)) + y₁)` of the block. -/
theorem srcR_read (c : Dev nD) (k : Fin 8) (y : S1024x1024.Idx) :
    (srcR c k).view.read (Elt F) (X m c) y
      = X m c (ValueIdx.ix2 (⟨1024 * k.val + (y 0 : ℕ), by have h : (y 0 : ℕ) < 1024 := (y 0).isLt; have := k.isLt; omega⟩ : Fin 8192)
          (⟨1024 * ((peer c).val / 16) + (y 1 : ℕ), by have h : (y 1 : ℕ) < 1024 := (y 1).isLt; have := half_le (peer c); omega⟩ : Fin 2048)) := by
  have hp := peer_half c
  have hx := half_le c
  rw [View.read_apply]
  refine (cast_eq _ _).trans (X_at m c _ _ _ (srcR_off0 c k y) ?_)
  show (((srcR c k).view.emb y) 1 : ℕ) = 1024 * ((peer c).val / 16) + (y 1 : ℕ)
  rw [srcR_off1, hp]
  omega

theorem srcL_read (c : Dev nD) (k : Fin 8) (y : S1024x1024.Idx) :
    (srcL c k).view.read (Elt F) (X m c) y
      = X m c (ValueIdx.ix2 (⟨1024 * k.val + (y 0 : ℕ), by have h : (y 0 : ℕ) < 1024 := (y 0).isLt; have := k.isLt; omega⟩ : Fin 8192)
          (⟨1024 * (c.val / 16) + (y 1 : ℕ), by have h : (y 1 : ℕ) < 1024 := (y 1).isLt; have := half_le c; omega⟩ : Fin 2048)) := by
  rw [View.read_apply]
  exact (cast_eq _ _).trans (X_at m c _ _ _ (srcL_off0 c k y) (srcL_off1 c k y))

/-- An addressed copy leaves, on its band of the partner's result array, the partner's final contents. -/
theorem send_lands (c : Dev nD) (k : Fin 8) (fd : Buf (Elt F) ((dstV c k).view.loc ((peer c : Dev nD) : Thread nD τ))) :
    ∀ i ∈ (dstV c k).view.set,
      (dstV c k).view.write (Elt F) fd ((srcR c k).view.read (Elt F) (X m c)) Finset.univ i = Rfin m (peer c) i := by
  intro i hi
  obtain ⟨y, rfl⟩ := View.exists_emb_of_mem_set _ hi
  rw [View.write_emb_of_mem _ _ (Finset.mem_univ y)]
  refine (cast_eq _ _).trans ?_
  rw [srcR_read, Rfin_at m c (peer c) (colDev_peer c) k y]

/-- A slot holding the chunk, read back through its view, is the chunk. -/
theorem stg_read (c : Dev nD) (k : Fin 8) (s : Fin 2) :
    (stgV s).view.read (Elt F) (StgAt m c k s) = (srcL c k).view.read (Elt F) (X m c) := by
  unfold StgAt; exact View.read_write_univ _ _

/-- A write-back leaves, on its band of the device's own result array, the final contents. -/
theorem out_lands (c : Dev nD) (k : Fin 8) (s : Fin 2) (fd : Buf (Elt F) ((dstV c k).view.loc (c : Thread nD τ))) :
    ∀ i ∈ (dstV c k).view.set,
      (dstV c k).view.write (Elt F) fd ((stgV s).view.read (Elt F) (StgAt m c k s)) Finset.univ i = Rfin m c i := by
  intro i hi
  obtain ⟨y, rfl⟩ := View.exists_emb_of_mem_set _ hi
  rw [View.write_emb_of_mem _ _ (Finset.mem_univ y), stg_read]
  refine (cast_eq _ _).trans ?_
  rw [srcL_read, Rfin_at m c c (colDev_self c) k y]

/-- A copy into a slot leaves the chunk there. -/
theorem in_lands (c : Dev nD) (k : Fin 8) (s : Fin 2) (fd : Buf (Elt F) ((stgV s).view.loc (c : Thread nD τ))) :
    ∀ i ∈ (stgV s).view.set,
      (stgV s).view.write (Elt F) fd ((srcL c k).view.read (Elt F) (X m c)) Finset.univ i = StgAt m c k s i := by
  unfold StgAt
  exact write_univ_congr (stgV s).view fd _ _

/-! ## The cuts, chunk by chunk -/

/-- A device's whole result array: its own eight bands, then the eight its partner addresses. -/
theorem out_split8 (d : Dev nD) (f : Buf (Elt F) ((d : Thread nD τ).loc main_v1)) :
    ((((d : Thread nD τ).loc main_v1) ↦{fullShare} f) : sProp 𝕄)
      = iprop((((dstV d 0).view.loc (d : Thread nD τ) ↦[(dstV d 0).view.set]{fullShare} f) ∗ ((dstV d 1).view.loc (d : Thread nD τ) ↦[(dstV d 1).view.set]{fullShare} f)
            ∗ ((dstV d 2).view.loc (d : Thread nD τ) ↦[(dstV d 2).view.set]{fullShare} f) ∗ ((dstV d 3).view.loc (d : Thread nD τ) ↦[(dstV d 3).view.set]{fullShare} f)
            ∗ ((dstV d 4).view.loc (d : Thread nD τ) ↦[(dstV d 4).view.set]{fullShare} f) ∗ ((dstV d 5).view.loc (d : Thread nD τ) ↦[(dstV d 5).view.set]{fullShare} f)
            ∗ ((dstV d 6).view.loc (d : Thread nD τ) ↦[(dstV d 6).view.set]{fullShare} f) ∗ ((dstV d 7).view.loc (d : Thread nD τ) ↦[(dstV d 7).view.set]{fullShare} f))
          ∗ (((dstV (peer d) 0).view.loc (d : Thread nD τ) ↦[(dstV (peer d) 0).view.set]{fullShare} f) ∗ ((dstV (peer d) 1).view.loc (d : Thread nD τ) ↦[(dstV (peer d) 1).view.set]{fullShare} f)
            ∗ ((dstV (peer d) 2).view.loc (d : Thread nD τ) ↦[(dstV (peer d) 2).view.set]{fullShare} f) ∗ ((dstV (peer d) 3).view.loc (d : Thread nD τ) ↦[(dstV (peer d) 3).view.set]{fullShare} f)
            ∗ ((dstV (peer d) 4).view.loc (d : Thread nD τ) ↦[(dstV (peer d) 4).view.set]{fullShare} f) ∗ ((dstV (peer d) 5).view.loc (d : Thread nD τ) ↦[(dstV (peer d) 5).view.set]{fullShare} f)
            ∗ ((dstV (peer d) 6).view.loc (d : Thread nD τ) ↦[(dstV (peer d) 6).view.set]{fullShare} f) ∗ ((dstV (peer d) 7).view.loc (d : Thread nD τ) ↦[(dstV (peer d) 7).view.set]{fullShare} f))) := by
  rw [out_split, bigSep_fin8, bigSep_fin8]

/-- A device's whole input block: the eight sent squares, then the eight kept ones. -/
theorem x_split8 (c : Dev nD) (f : Buf (Elt F) ((c : Thread nD τ).loc main_arg0)) :
    ((((c : Thread nD τ).loc main_arg0) ↦{fullShare} f) : sProp 𝕄)
      = iprop((((srcR c 0).view.loc (c : Thread nD τ) ↦[(srcR c 0).view.set]{fullShare} f) ∗ ((srcR c 1).view.loc (c : Thread nD τ) ↦[(srcR c 1).view.set]{fullShare} f)
            ∗ ((srcR c 2).view.loc (c : Thread nD τ) ↦[(srcR c 2).view.set]{fullShare} f) ∗ ((srcR c 3).view.loc (c : Thread nD τ) ↦[(srcR c 3).view.set]{fullShare} f)
            ∗ ((srcR c 4).view.loc (c : Thread nD τ) ↦[(srcR c 4).view.set]{fullShare} f) ∗ ((srcR c 5).view.loc (c : Thread nD τ) ↦[(srcR c 5).view.set]{fullShare} f)
            ∗ ((srcR c 6).view.loc (c : Thread nD τ) ↦[(srcR c 6).view.set]{fullShare} f) ∗ ((srcR c 7).view.loc (c : Thread nD τ) ↦[(srcR c 7).view.set]{fullShare} f))
          ∗ (((srcL c 0).view.loc (c : Thread nD τ) ↦[(srcL c 0).view.set]{fullShare} f) ∗ ((srcL c 1).view.loc (c : Thread nD τ) ↦[(srcL c 1).view.set]{fullShare} f)
            ∗ ((srcL c 2).view.loc (c : Thread nD τ) ↦[(srcL c 2).view.set]{fullShare} f) ∗ ((srcL c 3).view.loc (c : Thread nD τ) ↦[(srcL c 3).view.set]{fullShare} f)
            ∗ ((srcL c 4).view.loc (c : Thread nD τ) ↦[(srcL c 4).view.set]{fullShare} f) ∗ ((srcL c 5).view.loc (c : Thread nD τ) ↦[(srcL c 5).view.set]{fullShare} f)
            ∗ ((srcL c 6).view.loc (c : Thread nD τ) ↦[(srcL c 6).view.set]{fullShare} f) ∗ ((srcL c 7).view.loc (c : Thread nD τ) ↦[(srcL c 7).view.set]{fullShare} f))) := by
  rw [x_split, bigSep_fin8, bigSep_fin8]

omit [FloatOps F] in
/-- The two slots, each at whatever it holds, are the whole stage at some contents. -/
theorem stg_join (c : Dev nD) (f g : Buf (Elt F) ((c : Thread nD τ).loc cc0_scratch0)) :
    iprop(((stgV 0).view.loc (c : Thread nD τ) ↦[(stgV 0).view.set]{fullShare} f) ∗ ((stgV 1).view.loc (c : Thread nD τ) ↦[(stgV 1).view.set]{fullShare} g))
      ⊢ (iprop(∃ h : Buf (Elt F) ((c : Thread nD τ).loc cc0_scratch0), ((c : Thread nD τ).loc cc0_scratch0) ↦{fullShare} h) : sProp 𝕄) := by
  have hd : Disjoint (sK 0) (sK 1) := sK_disj 0 (Finset.mem_univ _) 1 (Finset.mem_univ _) (by decide)
  have hu : sK 0 ∪ sK 1 = Finset.univ := by
    ext i
    simp only [Finset.mem_union, Finset.mem_univ, iff_true]
    have h0 : (i 0 : ℕ) < 2 := (i 0).isLt
    rcases (by omega : (i 0 : ℕ) = 0 ∨ (i 0 : ℕ) = 1) with h | h
    · exact Or.inl ((mem_stg 0 i).mpr h)
    · exact Or.inr ((mem_stg 1 i).mpr h)
  refine (pointsTo_join (ℓ := (c : Thread nD τ).loc cc0_scratch0) (I := sK 0) (J := sK 1) (q := fullShare) (f := f) (g := g) hd).trans ?_
  refine (Entails.of_eq (congrArg (fun I => ((((c : Thread nD τ).loc cc0_scratch0) ↦[I]{fullShare} ((sK 1).piecewise g f)) : sProp 𝕄)) hu)).trans ?_
  iintro H; iexists _; iexact H

omit [FloatOps F] in
/-- A points-to at known contents is one at some contents. -/
theorem pt_some {ℓ : Loc nD τ sig} (I : Finset (Idx ℓ)) (f : Buf (Elt F) ℓ) :
    ((ℓ ↦[I]{fullShare} f) : sProp 𝕄) ⊢ iprop(∃ g : Buf (Elt F) ℓ, ℓ ↦[I]{fullShare} g) := by
  iintro H; iexists f; iexact H

end Cert.KernelIdeal.A2a

end
-- ==== Proof.KernelIdealSteps.lean ====
/-
  One device's body, stepped effect by effect under the schedule of rounds.
  The order the program forces: the signal to the partner (handing over the half of this device's result array the
  partner's copies write, with the marks of this device's receive cells), the wait on the own barrier cell (the
  partner's half of ITS array arrives), the eight addressed copies (each pays a receive duty of the partner with the
  band it lands, at the partner's final contents, and a send duty of this device with its source square), then the
  two-slot pipeline of the kept columns — copy in, wait, copy out, wait, slot by slot —, then the sixteen waits on
  the send and receive cells.  At the end every square of the input block is back, every band of the result array
  holds the final contents, and the twenty own cells are closed with their counters at zero.
-/
import proofs.«900652_g7700000000000653_dist_a2a_v7x_xyz2x4x4_x_m8192_n1024_f32_1_alg».proof.Proof.KernelIdealTables
import proofs.«900652_g7700000000000653_dist_a2a_v7x_xyz2x4x4_x_m8192_n1024_f32_1_alg».proof.Proof.KernelIdealRegions

set_option maxRecDepth 65536

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The three kinds of step -/

section Steps

variable (K : Dev nD × Fin 21 → ℕ)

/-- An addressed copy of chunk `k`, to `n` = the partner: it pays the partner's receive duty `k` with the band at the
    partner's final contents, and this device's send duty `k` with the source square. -/
theorem step_send (c n : Dev nD) (hn : n = peer c) (k : Fin 8)
    {hsc : ((dstV c k : Memref sig (Dev.tc n : Thread nD τ).2.kind .hbm S1024x1024 .f32)).view.ref.isScScratch = false}
    {hsrc : (srcR c k).view.WordExact} {hdst : (dstV c k).view.WordExact}
    {hsem : DmaTarget.Typed .hbm (.dma (recvS k)) (.remote (Dev.tc n : Thread nD τ) (dstV c k) (.dma (sendS k)) hsc)}
    {α : Type} {Q : α → sProp 𝕄} {kk : PUnit → Prog (TpuEff nD τ sig (Elt F) Λ₀ .tc) α}
    (fn : Buf (Elt F) ((dstV c k).view.loc ((peer c : Dev nD) : Thread nD τ))) (O : CellTallies nD τ sig Unit) :
    iprop(cellInv ER (rd m) (K (c, sendIx k)) (sendCell c k) ∗ cellInv ER (rd m) (K (peer c, recvIx k)) (recvCell (peer c) k)
        ∗ ((srcR c k).view.loc (c : Thread nD τ) ↦[(srcR c k).view.set]{fullShare} X m c)
        ∗ ((dstV c k).view.loc ((peer c : Dev nD) : Thread nD τ) ↦[(dstV c k).view.set]{fullShare} fn)
        ∗ (∃ W, owes (c : Thread nD τ) (O + tallyAt (recvCell (peer c) k) () NO) W)
        ∗ dutyTok ER (sendCell c k) 0 () ∗ reached ER (sendCell c k) 0
        ∗ dutyTok ER (recvCell (peer c) k) 0 () ∗ reached ER (recvCell (peer c) k) 0)
      ⊢ iprop(((cred (tallyAt (sendCell c k) () NO) ∗ ∃ W, owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (srcR c k) (.remote (Dev.tc n : Thread nD τ) (dstV c k) (.dma (sendS k)) hsc) (.dma (recvS k)) hsrc hdst hsem) kk) Q) := by
  subst hn
  iintro ⟨#HI1, #HI2, Hs, Hd, ⟨%W, HO⟩, Ht1, #Hr1, Ht2, #Hr2⟩ Hk
  iapply (Rounds.wp_send_pointsTo 𝒱₀ ER (rd m) (c : Thread nD τ) none (c' := ((peer c : Dev nD) : Thread nD τ))
    (src := srcR c k) (dst := dstV c k) (hsc := hsc) (sS := .dma (sendS k)) (sem := .dma (recvS k))
    (hsrc := hsrc) (hdst := hdst) (hsem := hsem) (k := kk) (q := fullShare) (fs := X m c)
    (κ₁ := K (c, sendIx k)) (κ₂ := K (peer c, recvIx k))
    (r₁ := 0) (r₂ := 0) (d₁ := ()) (d₂ := ()) (fd := fn)
    (by rw [duties_send]; exact Finset.mem_singleton_self _) (by rw [duties_recv]; exact Finset.mem_singleton_self _)
    () () NO (amount_dst c k (recvS k)) (amount_send m c k 0 ()) (amount_recv m (peer c) k 0 ()) O rfl (W := W)
    (by rw [payload_send]; exact BI.Entails.refl _)
    (by rw [payload_recv]; unfold recvPay; rw [peer_peer]; exact Entails.of_eq (pointsTo_congr (send_lands m c k fn))))
    $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- A copy of chunk `k` of the kept columns into slot `s`, in round `r` of the slot's in cell. -/
theorem step_copyin (c : Dev nD) (s : Fin 2) (r : ℕ) (hr : r < 4) (k : Fin 8) (hk : chunk s r = k)
    {hsrc : (srcL c k).view.WordExact} {hdst : (stgV s).view.WordExact}
    {hsem : DmaTarget.Typed (nD := nD) .hbm (.dma (inS s)) (.here (stgV s) : DmaTarget nD τ sig .tc .vmem S1024x1024 .f32)}
    {α : Type} {Q : α → sProp 𝕄} {kk : PUnit → Prog (TpuEff nD τ sig (Elt F) Λ₀ .tc) α} :
    iprop(cellInv ER (rd m) (K (c, inIx s)) (inCell c s)
        ∗ ((srcL c k).view.loc (c : Thread nD τ) ↦[(srcL c k).view.set]{fullShare} X m c)
        ∗ (∃ fd : Buf (Elt F) ((stgV s).view.loc (c : Thread nD τ)), (stgV s).view.loc (c : Thread nD τ) ↦[(stgV s).view.set]{fullShare} fd)
        ∗ dutyTok ER (inCell c s) r () ∗ reached ER (inCell c s) r)
      ⊢ iprop((cred (tallyAt (inCell c s) () NS) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (srcL c k) (.here (stgV s)) (.dma (inS s)) hsrc hdst hsem) kk) Q) := by
  subst hk
  iintro ⟨#HI, Hs, ⟨%fd, Hd⟩, Ht, #Hr⟩ Hk
  iapply (Rounds.wp_copy_pointsTo 𝒱₀ ER (rd m) (c : Thread nD τ) none (src := srcL c (chunk s r)) (dst := stgV s) (sem := .dma (inS s))
    (hsrc := hsrc) (hdst := hdst) (hsem := hsem) (k := kk) (κ := K (c, inIx s)) (r := r) (d := ()) (q := fullShare)
    (fs := X m c) (fd := fd)
    (by rw [duties_in m c s r hr]; exact Finset.mem_singleton_self _) () NS (amount_stg s _) (amount_in m c s r ())
    (by rw [payload_in]; unfold inPay; exact sep_mono_left (Entails.of_eq (pointsTo_congr (in_lands m c _ s fd))))) $$ [Hs Hd Ht]
  · isplitr; · iexact HI
    isplitl [Hs]; · iexact Hs
    isplitl [Hd]; · iexact Hd
    isplitl [Ht]; · iexact Ht
    iexact Hr
  iexact Hk

/-- The write-back of slot `s`, holding chunk `k`, to band `k` of the device's own result array. -/
theorem step_copyout (c : Dev nD) (s : Fin 2) (r : ℕ) (hr : r < 4) (k : Fin 8) (hk : chunk s r = k)
    {hsrc : (stgV s).view.WordExact} {hdst : (dstV c k).view.WordExact}
    {hsem : DmaTarget.Typed (nD := nD) .vmem (.dma (outS s)) (.here (dstV c k) : DmaTarget nD τ sig .tc .hbm S1024x1024 .f32)}
    {α : Type} {Q : α → sProp 𝕄} {kk : PUnit → Prog (TpuEff nD τ sig (Elt F) Λ₀ .tc) α}
    (fd : Buf (Elt F) ((dstV c k).view.loc (c : Thread nD τ))) :
    iprop(cellInv ER (rd m) (K (c, outIx s)) (outCell c s)
        ∗ ((stgV s).view.loc (c : Thread nD τ) ↦[(stgV s).view.set]{fullShare} StgAt m c k s)
        ∗ ((dstV c k).view.loc (c : Thread nD τ) ↦[(dstV c k).view.set]{fullShare} fd)
        ∗ dutyTok ER (outCell c s) r () ∗ reached ER (outCell c s) r)
      ⊢ iprop((cred (tallyAt (outCell c s) () NO) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (stgV s) (.here (dstV c k)) (.dma (outS s)) hsrc hdst hsem) kk) Q) := by
  subst hk
  exact Rounds.wp_copy_pointsTo 𝒱₀ ER (rd m) (c : Thread nD τ) none (src := stgV s) (dst := dstV c (chunk s r)) (sem := .dma (outS s))
    (hsrc := hsrc) (hdst := hdst) (hsem := hsem) (k := kk) (κ := K (c, outIx s)) (r := r) (d := ()) (q := fullShare)
    (fs := StgAt m c (chunk s r) s) (fd := fd)
    (by rw [duties_out m c s r hr]; exact Finset.mem_singleton_self _) () NO (amount_dst c _ _) (amount_out m c s r ())
    (by rw [payload_out]; unfold outPay; exact sep_mono_left (Entails.of_eq (pointsTo_congr (out_lands m c _ s fd))))

/-- A wait, owing nothing, for the whole of a one-duty round of one of the device's own DMA cells: the round's payload `P`. -/
theorem step_wait (c : Dev nD) (q : DmaSem sig) (κ : ℕ) (R : ℕ) (P : sProp 𝕄) (Nn : ℕ)
    {sp sp' : Space} {s s' : Shape} {e e' : EltTy}
    {src : Memref sig .tc sp' s' e'} {dst : Memref sig .tc sp s e} {hs : src.view.WordExact} {hd : dst.view.WordExact}
    (hN : dst.view.dmaCredit = Nn)
    (hexp : (rd (F := F) m).expect ((c : Thread nD τ), .dma q) R = Nn)
    (hrest : bigSep ((rd (F := F) m).duties ((c : Thread nD τ), .dma q) R \ ∅) (fun d => (rd (F := F) m).payload ((c : Thread nD τ), .dma q) R d) = P)
    {α : Type} {Q : α → sProp 𝕄} {kk : PUnit → Prog (TpuEff nD τ sig (Elt F) Λ₀ .tc) α} :
    iprop(cellInv ER (rd m) κ ((c : Thread nD τ), .dma q) ∗ cred (tallyAt ((c : Thread nD τ), .dma q) () Nn)
        ∗ (∃ W, owes (c : Thread nD τ) 0 W) ∗ atPos ER ((c : Thread nD τ), .dma q) R ∅ 0)
      ⊢ iprop((((∃ W, owes (c : Thread nD τ) 0 W) ∗ atPos ER ((c : Thread nD τ), .dma q) (R + 1) ∅ 0
              ∗ reached ER ((c : Thread nD τ), .dma q) (R + 1) ∗ P)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hs hd) kk) Q) := by
  subst hN
  iintro ⟨#HI, Hc, ⟨%W, HO⟩, Hat⟩ Hk
  iapply (Rounds.wp_wait_rest_token 𝒱₀ ER (rd m) (c : Thread nD τ) none (κ := κ) (w := .waitDma2 q src dst hs hd) (k := kk)
      (wpE_waitDma2_eq 𝒱₀ (c : Thread nD τ) none Set.univ) (Set.mem_univ _) () (O := 0) (W := W) (R := R) (m := 0) (T := ∅)
      (by rw [Nat.zero_add, hexp])) $$ [Hc HO Hat]
  · isplitr; · iexact HI
    isplitl [Hc]; · iexact Hc
    isplitl [HO]; · iexact HO
    isplitr; · rw [MayWait_zero]; iempintro
    iexact Hat
  iintro ⟨HO, Hat, Hr, Hpay⟩
  iapply Hk
  ihave Hp := (Entails.of_eq hrest) $$ Hpay
  isplitl [HO]; · iexists _; iexact HO
  isplitl [Hat]; · iexact Hat
  isplitl [Hr]; · iexact Hr
  iexact Hp

/-- Closing one of the device's own cells once its last round is done: the counter at zero is the core's again. -/
theorem step_close (c : Dev nD) (q : DmaSem sig) (κ : ℕ) (R : ℕ)
    (hR : ∀ r, R ≤ r → (rd (F := F) m).duties ((c : Thread nD τ), .dma q) r = ∅) :
    iprop(cellInv ER (rd m) κ ((c : Thread nD τ), .dma q) ∗ atPos ER ((c : Thread nD τ), .dma q) R ∅ 0)
      ⊢ (iprop(|={Set.univ}=> semVal ((c : Thread nD τ), .dma q) 0) : sProp 𝕄) :=
  Rounds.cell_close ER (rd m) (Set.mem_univ κ) (fun h => h) (R := R) hR

end Steps

/-! ## What the body starts from and ends with -/

section Body

variable (K : Dev nD × Fin 21 → ℕ)

def bodyPre (c : Dev nD) : sProp 𝕄 :=
  iprop(ghost m K c ∗ creds c ∗ levAts L lv
    ∗ (((c : Thread nD τ).loc main_arg0) ↦{fullShare} X m c)
    ∗ (((c : Thread nD τ).loc main_v1) ↦{fullShare} m ((c : Thread nD τ).loc main_v1))
    ∗ (∃ f : Buf (Elt F) ((c : Thread nD τ).loc cc0_scratch0), ((c : Thread nD τ).loc cc0_scratch0) ↦{fullShare} f)
    ∗ (dats m 0 c).owesAt () t₀.castSucc)

def bodyPost (c : Dev nD) : sProp 𝕄 := iprop(Φ₁ m c ∗ (dats m 0 c).owesAt () t₀.succ)

end Body

end Cert.KernelIdeal.A2a

end
-- ==== Proof.KernelIdealRun.lean ====
/-
  The run of one device's body, from the ghost state and buffers the launch deals it to the invariant after the point.
  Between the steps the assertions held are: the squares of the input block not lent to a copy; the bands of the
  result array not yet written, written (at the final contents), or handed to the partner; each slot of the stage at
  some contents or holding a chunk; per cell its position, the tokens of the duties still to pay, the credit of a copy
  issued and not yet waited for; and what is still owed to the partner's receive cells.
-/
import proofs.«900652_g7700000000000653_dist_a2a_v7x_xyz2x4x4_x_m8192_n1024_f32_1_alg».proof.Proof.KernelIdealSteps

set_option maxRecDepth 65536

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Run

variable (K : Dev nD × Fin 21 → ℕ)

set_option maxHeartbeats 16000000 in
/-- The body, one rule per effect in program order, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel
  simp only [semSignalWord, semWaitWord, Prog.lift, Prog.bind_op, Prog.bind_ret, Prog.pure_eq_ret, wp_deviceId]
  unfold bodyPre ghost invs poss marks payToks creds
  simp only [bigSep_fin8, bigSep_fin21, bigSep_fin2x4]
  iintro ⟨⟨⟨⟨⟨#HI0, #HI1, #HI2, #HI3, #HI4, #HI5, #HI6, #HI7, #HI8, #HI9, #HI10, #HI11, #HI12, #HI13, #HI14, #HI15, #HI16, #HI17, #HI18, #HI19, #HI20⟩,
        #HIpb, #HIpr0, #HIpr1, #HIpr2, #HIpr3, #HIpr4, #HIpr5, #HIpr6, #HIpr7⟩,
      ⟨Hat0, Hat1, Hat2, Hat3, Hat4, Hat5, Hat6, Hat7, Hat8, Hat9, Hat10, Hat11, Hat12, Hat13, Hat14, Hat15, Hat16, Hat17, Hat18, Hat19, Hat20⟩,
      ⟨⟨#Hr0, #Hr1, #Hr2, #Hr3, #Hr4, #Hr5, #Hr6, #Hr7, #Hr8, #Hr9, #Hr10, #Hr11, #Hr12, #Hr13, #Hr14, #Hr15, #Hr16, #Hr17, #Hr18, #Hr19, #Hr20⟩,
        #Hrpb, #Hrpr0, #Hrpr1, #Hrpr2, #Hrpr3, #Hrpr4, #Hrpr5, #Hrpr6, #Hrpr7⟩,
      Htpb, ⟨Htpr0, Htpr1, Htpr2, Htpr3, Htpr4, Htpr5, Htpr6, Htpr7⟩, ⟨Hts0, Hts1, Hts2, Hts3, Hts4, Hts5, Hts6, Hts7⟩,
      ⟨Hti00, Hti01, Hti02, Hti03, Hti10, Hti11, Hti12, Hti13⟩, Hto00, Hto01, Hto02, Hto03, Hto10, Hto11, Hto12, Hto13⟩,
    ⟨HcB, Hcr0, Hcr1, Hcr2, Hcr3, Hcr4, Hcr5, Hcr6, Hcr7⟩, #Hlev, Hx, Ho, ⟨%f0, Hscr⟩, Howes⟩, Hk⟩
  unfold Dat.owesAt Pipeline.owesWithin
  icases Howes with ⟨%W, %hW, HO⟩
  rw [show (dats m 0 c).owed t₀.castSucc = O₀ c from rfl]
  simp only [dev1_eq c]
  -- the three buffers, cut along the copies' rectangles
  ihave Ho' := (Entails.of_eq (out_split8 (F := F) c _)) $$ Ho
  icases Ho' with ⟨⟨Hb0, Hb1, Hb2, Hb3, Hb4, Hb5, Hb6, Hb7⟩, Hp0, Hp1, Hp2, Hp3, Hp4, Hp5, Hp6, Hp7⟩
  ihave Hx' := (Entails.of_eq (x_split8 (F := F) c _)) $$ Hx
  icases Hx' with ⟨⟨Hxr0, Hxr1, Hxr2, Hxr3, Hxr4, Hxr5, Hxr6, Hxr7⟩, Hxl0, Hxl1, Hxl2, Hxl3, Hxl4, Hxl5, Hxl6, Hxl7⟩
  ihave Hs' := (Entails.of_eq (stg_split (F := F) c f0)) $$ Hscr
  icases Hs' with ⟨HS0', HS1'⟩
  ihave HS0 := (pt_some (F := F) _ _) $$ HS0'
  ihave HS1 := (pt_some (F := F) _ _) $$ HS1'
  -- THE SIGNAL to the partner's barrier cell: with it go the eight bands the partner addresses here, and the marks of the own receive cells
  iapply (Rounds.wp_signal 𝒱₀ ER (rd m) (c : Thread nD τ) none (dst := ((peer c : Dev nD) : Thread nD τ)) (κ := K (peer c, 0))
      (d := ()) (by rw [duties_bar]; exact Finset.mem_singleton_self _) ((amount_bar m (peer c) 0 ()).trans (by decide)) () (OS c 0) rfl)
    $$ [HO Htpb Hp0 Hp1 Hp2 Hp3 Hp4 Hp5 Hp6 Hp7]
  · isplitr; · iexact HIpb
    isplitl [HO]; · iexact HO
    isplitl [Htpb]; · iexact Htpb
    isplitl [Hp0 Hp1 Hp2 Hp3 Hp4 Hp5 Hp6 Hp7]
    · rw [payload_bar]; unfold barPay; rw [peer_peer, bigSep_fin8]
      isplitl [Hp0 Hp1 Hp2 Hp3 Hp4 Hp5 Hp6 Hp7]
      · iexists (m ((c : Thread nD τ).loc main_v1))
        rw [bigSep_fin8]
        isplitl [Hp0]; · iexact Hp0
        isplitl [Hp1]; · iexact Hp1
        isplitl [Hp2]; · iexact Hp2
        isplitl [Hp3]; · iexact Hp3
        isplitl [Hp4]; · iexact Hp4
        isplitl [Hp5]; · iexact Hp5
        isplitl [Hp6]; · iexact Hp6
        iexact Hp7
      · isplitr; · iexact Hr9
        isplitr; · iexact Hr10
        isplitr; · iexact Hr11
        isplitr; · iexact Hr12
        isplitr; · iexact Hr13
        isplitr; · iexact Hr14
        isplitr; · iexact Hr15
        iexact Hr16
    · iexact Hrpb
  iintro HO
  -- THE WAIT on the own barrier cell, owing the eight receive credits: the bands this device addresses in the partner's array come with it
  iapply (Rounds.wp_wait_rest_token 𝒱₀ ER (rd m) (c : Thread nD τ) none (κ := K (c, 0))
      (wpE_semWait_eq 𝒱₀ (c : Thread nD τ) none Set.univ) (Set.mem_univ _) () (O := OS c 0) (W := W) (R := 0) (m := 0) (T := ∅)
      (by rw [expect_bar]; decide)) $$ [HcB HO Hat0]
  · isplitr; · iexact HI0
    isplitl [HcB]; · iexact HcB
    isplitl [HO]; · iexact HO
    isplitr; · iapply (mayWait_bar c); iexact Hlev
    iexact Hat0
  iintro ⟨HO', Hat0, -, Hpay⟩
  ihave Hp := (Entails.of_eq (rest_bar m c)) $$ Hpay
  unfold barPay
  icases Hp with ⟨⟨%fn, Hd⟩, -⟩
  ihave Hd' := (Entails.of_eq (bigSep_fin8 (F := F) _)) $$ Hd
  icases Hd' with ⟨Hd0, Hd1, Hd2, Hd3, Hd4, Hd5, Hd6, Hd7⟩
  ihave HO : iprop(∃ W', owes (c : Thread nD τ) (OS c 0) W') $$ [HO']
  · iexists _; iexact HO'
  -- THE EIGHT ADDRESSED COPIES
  iapply (step_send m K c _ (dev2_eq c) 0 fn (OS c 1)) $$ [Hxr0 Hd0 HO Hts0 Htpr0]
  · isplitr; · iexact HI1
    isplitr; · iexact HIpr0
    isplitl [Hxr0]; · iexact Hxr0
    isplitl [Hd0]; · iexact Hd0
    isplitl [HO]; · iexact HO
    isplitl [Hts0]; · iexact Hts0
    isplitr; · iexact Hr1
    isplitl [Htpr0]; · iexact Htpr0
    iexact Hrpr0
  iintro ⟨HcS0, HO⟩
  iapply (step_send m K c _ (dev3_eq c) 1 fn (OS c 2)) $$ [Hxr1 Hd1 HO Hts1 Htpr1]
  · isplitr; · iexact HI2
    isplitr; · iexact HIpr1
    isplitl [Hxr1]; · iexact Hxr1
    isplitl [Hd1]; · iexact Hd1
    isplitl [HO]; · iexact HO
    isplitl [Hts1]; · iexact Hts1
    isplitr; · iexact Hr2
    isplitl [Htpr1]; · iexact Htpr1
    iexact Hrpr1
  iintro ⟨HcS1, HO⟩
  iapply (step_send m K c _ (dev4_eq c) 2 fn (OS c 3)) $$ [Hxr2 Hd2 HO Hts2 Htpr2]
  · isplitr; · iexact HI3
    isplitr; · iexact HIpr2
    isplitl [Hxr2]; · iexact Hxr2
    isplitl [Hd2]; · iexact Hd2
    isplitl [HO]; · iexact HO
    isplitl [Hts2]; · iexact Hts2
    isplitr; · iexact Hr3
    isplitl [Htpr2]; · iexact Htpr2
    iexact Hrpr2
  iintro ⟨HcS2, HO⟩
  iapply (step_send m K c _ (dev5_eq c) 3 fn (OS c 4)) $$ [Hxr3 Hd3 HO Hts3 Htpr3]
  · isplitr; · iexact HI4
    isplitr; · iexact HIpr3
    isplitl [Hxr3]; · iexact Hxr3
    isplitl [Hd3]; · iexact Hd3
    isplitl [HO]; · iexact HO
    isplitl [Hts3]; · iexact Hts3
    isplitr; · iexact Hr4
    isplitl [Htpr3]; · iexact Htpr3
    iexact Hrpr3
  iintro ⟨HcS3, HO⟩
  iapply (step_send m K c _ (dev6_eq c) 4 fn (OS c 5)) $$ [Hxr4 Hd4 HO Hts4 Htpr4]
  · isplitr; · iexact HI5
    isplitr; · iexact HIpr4
    isplitl [Hxr4]; · iexact Hxr4
    isplitl [Hd4]; · iexact Hd4
    isplitl [HO]; · iexact HO
    isplitl [Hts4]; · iexact Hts4
    isplitr; · iexact Hr5
    isplitl [Htpr4]; · iexact Htpr4
    iexact Hrpr4
  iintro ⟨HcS4, HO⟩
  iapply (step_send m K c _ (dev7_eq c) 5 fn (OS c 6)) $$ [Hxr5 Hd5 HO Hts5 Htpr5]
  · isplitr; · iexact HI6
    isplitr; · iexact HIpr5
    isplitl [Hxr5]; · iexact Hxr5
    isplitl [Hd5]; · iexact Hd5
    isplitl [HO]; · iexact HO
    isplitl [Hts5]; · iexact Hts5
    isplitr; · iexact Hr6
    isplitl [Htpr5]; · iexact Htpr5
    iexact Hrpr5
  iintro ⟨HcS5, HO⟩
  iapply (step_send m K c _ (dev8_eq c) 6 fn (OS c 7)) $$ [Hxr6 Hd6 HO Hts6 Htpr6]
  · isplitr; · iexact HI7
    isplitr; · iexact HIpr6
    isplitl [Hxr6]; · iexact Hxr6
    isplitl [Hd6]; · iexact Hd6
    isplitl [HO]; · iexact HO
    isplitl [Hts6]; · iexact Hts6
    isplitr; · iexact Hr7
    isplitl [Htpr6]; · iexact Htpr6
    iexact Hrpr6
  iintro ⟨HcS6, HO⟩
  iapply (step_send m K c _ (dev9_eq c) 7 fn 0) $$ [Hxr7 Hd7 HO Hts7 Htpr7]
  · isplitr; · iexact HI8
    isplitr; · iexact HIpr7
    isplitl [Hxr7]; · iexact Hxr7
    isplitl [Hd7]; · iexact Hd7
    isplitl [HO]; · iexact HO
    isplitl [Hts7]; · iexact Hts7
    isplitr; · iexact Hr8
    isplitl [Htpr7]; · iexact Htpr7
    iexact Hrpr7
  iintro ⟨HcS7, HO⟩
  -- THE PIPELINE OF THE KEPT COLUMNS.  chunk 0 into slot 0
  iapply (step_copyin m K c 0 0 (by decide) 0 rfl) $$ [Hxl0 HS0 Hti00]
  · isplitr; · iexact HI17
    isplitl [Hxl0]; · iexact Hxl0
    isplitl [HS0]; · iexact HS0
    isplitl [Hti00]; · iexact Hti00
    iexact Hr17
  iintro Hci
  -- chunk 0 landed
  iapply (step_wait m c (inS 0) (K (c, inIx 0)) 0 (inPay m c 0 0) NS (src := srcL c 0) (dst := stgV 0) rfl (expect_in m c 0 0 (by decide)) (rest_in m c 0 0 (by decide))) $$ [Hci HO Hat17]
  · isplitr; · iexact HI17
    isplitl [Hci]; · iexact Hci
    isplitl [HO]; · iexact HO
    iexact Hat17
  iintro ⟨HO, Hat17, #Hri0_1, Hpay⟩
  unfold inPay
  icases Hpay with ⟨HS0, Hxl0⟩
  -- chunk 1 into slot 1
  iapply (step_copyin m K c 1 0 (by decide) 1 rfl) $$ [Hxl1 HS1 Hti10]
  · isplitr; · iexact HI18
    isplitl [Hxl1]; · iexact Hxl1
    isplitl [HS1]; · iexact HS1
    isplitl [Hti10]; · iexact Hti10
    iexact Hr18
  iintro Hci1
  -- slot 0 written back to band 0
  iapply (step_copyout m K c 0 0 (by decide) 0 rfl (m ((c : Thread nD τ).loc main_v1))) $$ [HS0 Hb0 Hto00]
  · isplitr; · iexact HI19
    isplitl [HS0]; · iexact HS0
    isplitl [Hb0]; · iexact Hb0
    isplitl [Hto00]; · iexact Hto00
    iexact Hr19
  iintro Hco0
  -- k = 1: chunk 1 landed; the write-back of chunk 0 done; chunk 2 into slot 0; slot 1 written back to band 1
  iapply (step_wait m c (inS 1) (K (c, inIx 1)) 0 (inPay m c 1 0) NS (src := srcL c 1) (dst := stgV 1) rfl (expect_in m c 1 0 (by decide)) (rest_in m c 1 0 (by decide))) $$ [Hci1 HO Hat18]
  · isplitr; · iexact HI18
    isplitl [Hci1]; · iexact Hci1
    isplitl [HO]; · iexact HO
    iexact Hat18
  iintro ⟨HO, Hat18, #Hri1_1, Hpay⟩
  unfold inPay
  icases Hpay with ⟨HS1, Hxl1⟩
  iapply (step_wait m c (outS 0) (K (c, outIx 0)) 0 (outPay m c 0 0) NO (src := stgV 0) (dst := dstV c 0) rfl (expect_out m c 0 0 (by decide)) (rest_out m c 0 0 (by decide))) $$ [Hco0 HO Hat19]
  · isplitr; · iexact HI19
    isplitl [Hco0]; · iexact Hco0
    isplitl [HO]; · iexact HO
    iexact Hat19
  iintro ⟨HO, Hat19, #Hro0_1, Hpay⟩
  unfold outPay
  icases Hpay with ⟨Hf0, HS0'⟩
  ihave HS0 := (pt_some (F := F) _ _) $$ HS0'
  iapply (step_copyin m K c 0 1 (by decide) 2 rfl) $$ [Hxl2 HS0 Hti01]
  · isplitr; · iexact HI17
    isplitl [Hxl2]; · iexact Hxl2
    isplitl [HS0]; · iexact HS0
    isplitl [Hti01]; · iexact Hti01
    iexact Hri0_1
  iintro Hci
  iapply (step_copyout m K c 1 0 (by decide) 1 rfl (m ((c : Thread nD τ).loc main_v1))) $$ [HS1 Hb1 Hto10]
  · isplitr; · iexact HI20
    isplitl [HS1]; · iexact HS1
    isplitl [Hb1]; · iexact Hb1
    isplitl [Hto10]; · iexact Hto10
    iexact Hr20
  iintro Hco1
  -- k = 2
  iapply (step_wait m c (inS 0) (K (c, inIx 0)) 1 (inPay m c 0 1) NS (src := srcL c 2) (dst := stgV 0) rfl (expect_in m c 0 1 (by decide)) (rest_in m c 0 1 (by decide))) $$ [Hci HO Hat17]
  · isplitr; · iexact HI17
    isplitl [Hci]; · iexact Hci
    isplitl [HO]; · iexact HO
    iexact Hat17
  iintro ⟨HO, Hat17, #Hri0_2, Hpay⟩
  unfold inPay
  icases Hpay with ⟨HS0, Hxl2⟩
  iapply (step_wait m c (outS 1) (K (c, outIx 1)) 0 (outPay m c 1 0) NO (src := stgV 1) (dst := dstV c 1) rfl (expect_out m c 1 0 (by decide)) (rest_out m c 1 0 (by decide))) $$ [Hco1 HO Hat20]
  · isplitr; · iexact HI20
    isplitl [Hco1]; · iexact Hco1
    isplitl [HO]; · iexact HO
    iexact Hat20
  iintro ⟨HO, Hat20, #Hro1_1, Hpay⟩
  unfold outPay
  icases Hpay with ⟨Hf1, HS1'⟩
  ihave HS1 := (pt_some (F := F) _ _) $$ HS1'
  iapply (step_copyin m K c 1 1 (by decide) 3 rfl) $$ [Hxl3 HS1 Hti11]
  · isplitr; · iexact HI18
    isplitl [Hxl3]; · iexact Hxl3
    isplitl [HS1]; · iexact HS1
    isplitl [Hti11]; · iexact Hti11
    iexact Hri1_1
  iintro Hci1
  iapply (step_copyout m K c 0 1 (by decide) 2 rfl (m ((c : Thread nD τ).loc main_v1))) $$ [HS0 Hb2 Hto01]
  · isplitr; · iexact HI19
    isplitl [HS0]; · iexact HS0
    isplitl [Hb2]; · iexact Hb2
    isplitl [Hto01]; · iexact Hto01
    iexact Hro0_1
  iintro Hco0
  -- k = 3
  iapply (step_wait m c (inS 1) (K (c, inIx 1)) 1 (inPay m c 1 1) NS (src := srcL c 3) (dst := stgV 1) rfl (expect_in m c 1 1 (by decide)) (rest_in m c 1 1 (by decide))) $$ [Hci1 HO Hat18]
  · isplitr; · iexact HI18
    isplitl [Hci1]; · iexact Hci1
    isplitl [HO]; · iexact HO
    iexact Hat18
  iintro ⟨HO, Hat18, #Hri1_2, Hpay⟩
  unfold inPay
  icases Hpay with ⟨HS1, Hxl3⟩
  iapply (step_wait m c (outS 0) (K (c, outIx 0)) 1 (outPay m c 0 1) NO (src := stgV 0) (dst := dstV c 2) rfl (expect_out m c 0 1 (by decide)) (rest_out m c 0 1 (by decide))) $$ [Hco0 HO Hat19]
  · isplitr; · iexact HI19
    isplitl [Hco0]; · iexact Hco0
    isplitl [HO]; · iexact HO
    iexact Hat19
  iintro ⟨HO, Hat19, #Hro0_2, Hpay⟩
  unfold outPay
  icases Hpay with ⟨Hf2, HS0'⟩
  ihave HS0 := (pt_some (F := F) _ _) $$ HS0'
  iapply (step_copyin m K c 0 2 (by decide) 4 rfl) $$ [Hxl4 HS0 Hti02]
  · isplitr; · iexact HI17
    isplitl [Hxl4]; · iexact Hxl4
    isplitl [HS0]; · iexact HS0
    isplitl [Hti02]; · iexact Hti02
    iexact Hri0_2
  iintro Hci
  iapply (step_copyout m K c 1 1 (by decide) 3 rfl (m ((c : Thread nD τ).loc main_v1))) $$ [HS1 Hb3 Hto11]
  · isplitr; · iexact HI20
    isplitl [HS1]; · iexact HS1
    isplitl [Hb3]; · iexact Hb3
    isplitl [Hto11]; · iexact Hto11
    iexact Hro1_1
  iintro Hco1
  -- k = 4
  iapply (step_wait m c (inS 0) (K (c, inIx 0)) 2 (inPay m c 0 2) NS (src := srcL c 4) (dst := stgV 0) rfl (expect_in m c 0 2 (by decide)) (rest_in m c 0 2 (by decide))) $$ [Hci HO Hat17]
  · isplitr; · iexact HI17
    isplitl [Hci]; · iexact Hci
    isplitl [HO]; · iexact HO
    iexact Hat17
  iintro ⟨HO, Hat17, #Hri0_3, Hpay⟩
  unfold inPay
  icases Hpay with ⟨HS0, Hxl4⟩
  iapply (step_wait m c (outS 1) (K (c, outIx 1)) 1 (outPay m c 1 1) NO (src := stgV 1) (dst := dstV c 3) rfl (expect_out m c 1 1 (by decide)) (rest_out m c 1 1 (by decide))) $$ [Hco1 HO Hat20]
  · isplitr; · iexact HI20
    isplitl [Hco1]; · iexact Hco1
    isplitl [HO]; · iexact HO
    iexact Hat20
  iintro ⟨HO, Hat20, #Hro1_2, Hpay⟩
  unfold outPay
  icases Hpay with ⟨Hf3, HS1'⟩
  ihave HS1 := (pt_some (F := F) _ _) $$ HS1'
  iapply (step_copyin m K c 1 2 (by decide) 5 rfl) $$ [Hxl5 HS1 Hti12]
  · isplitr; · iexact HI18
    isplitl [Hxl5]; · iexact Hxl5
    isplitl [HS1]; · iexact HS1
    isplitl [Hti12]; · iexact Hti12
    iexact Hri1_2
  iintro Hci1
  iapply (step_copyout m K c 0 2 (by decide) 4 rfl (m ((c : Thread nD τ).loc main_v1))) $$ [HS0 Hb4 Hto02]
  · isplitr; · iexact HI19
    isplitl [HS0]; · iexact HS0
    isplitl [Hb4]; · iexact Hb4
    isplitl [Hto02]; · iexact Hto02
    iexact Hro0_2
  iintro Hco0
  -- k = 5
  iapply (step_wait m c (inS 1) (K (c, inIx 1)) 2 (inPay m c 1 2) NS (src := srcL c 5) (dst := stgV 1) rfl (expect_in m c 1 2 (by decide)) (rest_in m c 1 2 (by decide))) $$ [Hci1 HO Hat18]
  · isplitr; · iexact HI18
    isplitl [Hci1]; · iexact Hci1
    isplitl [HO]; · iexact HO
    iexact Hat18
  iintro ⟨HO, Hat18, #Hri1_3, Hpay⟩
  unfold inPay
  icases Hpay with ⟨HS1, Hxl5⟩
  iapply (step_wait m c (outS 0) (K (c, outIx 0)) 2 (outPay m c 0 2) NO (src := stgV 0) (dst := dstV c 4) rfl (expect_out m c 0 2 (by decide)) (rest_out m c 0 2 (by decide))) $$ [Hco0 HO Hat19]
  · isplitr; · iexact HI19
    isplitl [Hco0]; · iexact Hco0
    isplitl [HO]; · iexact HO
    iexact Hat19
  iintro ⟨HO, Hat19, #Hro0_3, Hpay⟩
  unfold outPay
  icases Hpay with ⟨Hf4, HS0'⟩
  ihave HS0 := (pt_some (F := F) _ _) $$ HS0'
  iapply (step_copyin m K c 0 3 (by decide) 6 rfl) $$ [Hxl6 HS0 Hti03]
  · isplitr; · iexact HI17
    isplitl [Hxl6]; · iexact Hxl6
    isplitl [HS0]; · iexact HS0
    isplitl [Hti03]; · iexact Hti03
    iexact Hri0_3
  iintro Hci
  iapply (step_copyout m K c 1 2 (by decide) 5 rfl (m ((c : Thread nD τ).loc main_v1))) $$ [HS1 Hb5 Hto12]
  · isplitr; · iexact HI20
    isplitl [HS1]; · iexact HS1
    isplitl [Hb5]; · iexact Hb5
    isplitl [Hto12]; · iexact Hto12
    iexact Hro1_2
  iintro Hco1
  -- k = 6
  iapply (step_wait m c (inS 0) (K (c, inIx 0)) 3 (inPay m c 0 3) NS (src := srcL c 6) (dst := stgV 0) rfl (expect_in m c 0 3 (by decide)) (rest_in m c 0 3 (by decide))) $$ [Hci HO Hat17]
  · isplitr; · iexact HI17
    isplitl [Hci]; · iexact Hci
    isplitl [HO]; · iexact HO
    iexact Hat17
  iintro ⟨HO, Hat17, -, Hpay⟩
  unfold inPay
  icases Hpay with ⟨HS0, Hxl6⟩
  iapply (step_wait m c (outS 1) (K (c, outIx 1)) 2 (outPay m c 1 2) NO (src := stgV 1) (dst := dstV c 5) rfl (expect_out m c 1 2 (by decide)) (rest_out m c 1 2 (by decide))) $$ [Hco1 HO Hat20]
  · isplitr; · iexact HI20
    isplitl [Hco1]; · iexact Hco1
    isplitl [HO]; · iexact HO
    iexact Hat20
  iintro ⟨HO, Hat20, #Hro1_3, Hpay⟩
  unfold outPay
  icases Hpay with ⟨Hf5, HS1'⟩
  ihave HS1 := (pt_some (F := F) _ _) $$ HS1'
  iapply (step_copyin m K c 1 3 (by decide) 7 rfl) $$ [Hxl7 HS1 Hti13]
  · isplitr; · iexact HI18
    isplitl [Hxl7]; · iexact Hxl7
    isplitl [HS1]; · iexact HS1
    isplitl [Hti13]; · iexact Hti13
    iexact Hri1_3
  iintro Hci1
  iapply (step_copyout m K c 0 3 (by decide) 6 rfl (m ((c : Thread nD τ).loc main_v1))) $$ [HS0 Hb6 Hto03]
  · isplitr; · iexact HI19
    isplitl [HS0]; · iexact HS0
    isplitl [Hb6]; · iexact Hb6
    isplitl [Hto03]; · iexact Hto03
    iexact Hro0_3
  iintro Hco0
  -- k = 7
  iapply (step_wait m c (inS 1) (K (c, inIx 1)) 3 (inPay m c 1 3) NS (src := srcL c 7) (dst := stgV 1) rfl (expect_in m c 1 3 (by decide)) (rest_in m c 1 3 (by decide))) $$ [Hci1 HO Hat18]
  · isplitr; · iexact HI18
    isplitl [Hci1]; · iexact Hci1
    isplitl [HO]; · iexact HO
    iexact Hat18
  iintro ⟨HO, Hat18, -, Hpay⟩
  unfold inPay
  icases Hpay with ⟨HS1, Hxl7⟩
  iapply (step_wait m c (outS 0) (K (c, outIx 0)) 3 (outPay m c 0 3) NO (src := stgV 0) (dst := dstV c 6) rfl (expect_out m c 0 3 (by decide)) (rest_out m c 0 3 (by decide))) $$ [Hco0 HO Hat19]
  · isplitr; · iexact HI19
    isplitl [Hco0]; · iexact Hco0
    isplitl [HO]; · iexact HO
    iexact Hat19
  iintro ⟨HO, Hat19, -, Hpay⟩
  unfold outPay
  icases Hpay with ⟨Hf6, HS0⟩
  iapply (step_copyout m K c 1 3 (by decide) 7 rfl (m ((c : Thread nD τ).loc main_v1))) $$ [HS1 Hb7 Hto13]
  · isplitr; · iexact HI20
    isplitl [HS1]; · iexact HS1
    isplitl [Hb7]; · iexact Hb7
    isplitl [Hto13]; · iexact Hto13
    iexact Hro1_3
  iintro Hco1
  iapply (step_wait m c (outS 1) (K (c, outIx 1)) 3 (outPay m c 1 3) NO (src := stgV 1) (dst := dstV c 7) rfl (expect_out m c 1 3 (by decide)) (rest_out m c 1 3 (by decide))) $$ [Hco1 HO Hat20]
  · isplitr; · iexact HI20
    isplitl [Hco1]; · iexact Hco1
    isplitl [HO]; · iexact HO
    iexact Hat20
  iintro ⟨HO, Hat20, -, Hpay⟩
  unfold outPay
  icases Hpay with ⟨Hf7, HS1⟩
  -- THE SIXTEEN WAITS on the send and receive cells: the sent squares back; the partner's eight bands, at the final contents
  iapply (step_wait m c (sendS 0) (K (c, sendIx 0)) 0 (sendPay m c 0) NO (src := dstV c 0) (dst := srcR c 0) rfl (expect_send m c 0) (rest_send m c 0)) $$ [HcS0 HO Hat1]
  · isplitr; · iexact HI1
    isplitl [HcS0]; · iexact HcS0
    isplitl [HO]; · iexact HO
    iexact Hat1
  iintro ⟨HO, Hat1, -, Hxr0⟩
  iapply (step_wait m c (recvS 0) (K (c, recvIx 0)) 0 (recvPay m c 0) NO (src := srcR c 0) (dst := dstV c 0) rfl (expect_recv m c 0) (rest_recv m c 0)) $$ [Hcr0 HO Hat9]
  · isplitr; · iexact HI9
    isplitl [Hcr0]; · iexact Hcr0
    isplitl [HO]; · iexact HO
    iexact Hat9
  iintro ⟨HO, Hat9, -, Hg0⟩
  iapply (step_wait m c (sendS 1) (K (c, sendIx 1)) 0 (sendPay m c 1) NO (src := dstV c 1) (dst := srcR c 1) rfl (expect_send m c 1) (rest_send m c 1)) $$ [HcS1 HO Hat2]
  · isplitr; · iexact HI2
    isplitl [HcS1]; · iexact HcS1
    isplitl [HO]; · iexact HO
    iexact Hat2
  iintro ⟨HO, Hat2, -, Hxr1⟩
  iapply (step_wait m c (recvS 1) (K (c, recvIx 1)) 0 (recvPay m c 1) NO (src := srcR c 1) (dst := dstV c 1) rfl (expect_recv m c 1) (rest_recv m c 1)) $$ [Hcr1 HO Hat10]
  · isplitr; · iexact HI10
    isplitl [Hcr1]; · iexact Hcr1
    isplitl [HO]; · iexact HO
    iexact Hat10
  iintro ⟨HO, Hat10, -, Hg1⟩
  iapply (step_wait m c (sendS 2) (K (c, sendIx 2)) 0 (sendPay m c 2) NO (src := dstV c 2) (dst := srcR c 2) rfl (expect_send m c 2) (rest_send m c 2)) $$ [HcS2 HO Hat3]
  · isplitr; · iexact HI3
    isplitl [HcS2]; · iexact HcS2
    isplitl [HO]; · iexact HO
    iexact Hat3
  iintro ⟨HO, Hat3, -, Hxr2⟩
  iapply (step_wait m c (recvS 2) (K (c, recvIx 2)) 0 (recvPay m c 2) NO (src := srcR c 2) (dst := dstV c 2) rfl (expect_recv m c 2) (rest_recv m c 2)) $$ [Hcr2 HO Hat11]
  · isplitr; · iexact HI11
    isplitl [Hcr2]; · iexact Hcr2
    isplitl [HO]; · iexact HO
    iexact Hat11
  iintro ⟨HO, Hat11, -, Hg2⟩
  iapply (step_wait m c (sendS 3) (K (c, sendIx 3)) 0 (sendPay m c 3) NO (src := dstV c 3) (dst := srcR c 3) rfl (expect_send m c 3) (rest_send m c 3)) $$ [HcS3 HO Hat4]
  · isplitr; · iexact HI4
    isplitl [HcS3]; · iexact HcS3
    isplitl [HO]; · iexact HO
    iexact Hat4
  iintro ⟨HO, Hat4, -, Hxr3⟩
  iapply (step_wait m c (recvS 3) (K (c, recvIx 3)) 0 (recvPay m c 3) NO (src := srcR c 3) (dst := dstV c 3) rfl (expect_recv m c 3) (rest_recv m c 3)) $$ [Hcr3 HO Hat12]
  · isplitr; · iexact HI12
    isplitl [Hcr3]; · iexact Hcr3
    isplitl [HO]; · iexact HO
    iexact Hat12
  iintro ⟨HO, Hat12, -, Hg3⟩
  iapply (step_wait m c (sendS 4) (K (c, sendIx 4)) 0 (sendPay m c 4) NO (src := dstV c 4) (dst := srcR c 4) rfl (expect_send m c 4) (rest_send m c 4)) $$ [HcS4 HO Hat5]
  · isplitr; · iexact HI5
    isplitl [HcS4]; · iexact HcS4
    isplitl [HO]; · iexact HO
    iexact Hat5
  iintro ⟨HO, Hat5, -, Hxr4⟩
  iapply (step_wait m c (recvS 4) (K (c, recvIx 4)) 0 (recvPay m c 4) NO (src := srcR c 4) (dst := dstV c 4) rfl (expect_recv m c 4) (rest_recv m c 4)) $$ [Hcr4 HO Hat13]
  · isplitr; · iexact HI13
    isplitl [Hcr4]; · iexact Hcr4
    isplitl [HO]; · iexact HO
    iexact Hat13
  iintro ⟨HO, Hat13, -, Hg4⟩
  iapply (step_wait m c (sendS 5) (K (c, sendIx 5)) 0 (sendPay m c 5) NO (src := dstV c 5) (dst := srcR c 5) rfl (expect_send m c 5) (rest_send m c 5)) $$ [HcS5 HO Hat6]
  · isplitr; · iexact HI6
    isplitl [HcS5]; · iexact HcS5
    isplitl [HO]; · iexact HO
    iexact Hat6
  iintro ⟨HO, Hat6, -, Hxr5⟩
  iapply (step_wait m c (recvS 5) (K (c, recvIx 5)) 0 (recvPay m c 5) NO (src := srcR c 5) (dst := dstV c 5) rfl (expect_recv m c 5) (rest_recv m c 5)) $$ [Hcr5 HO Hat14]
  · isplitr; · iexact HI14
    isplitl [Hcr5]; · iexact Hcr5
    isplitl [HO]; · iexact HO
    iexact Hat14
  iintro ⟨HO, Hat14, -, Hg5⟩
  iapply (step_wait m c (sendS 6) (K (c, sendIx 6)) 0 (sendPay m c 6) NO (src := dstV c 6) (dst := srcR c 6) rfl (expect_send m c 6) (rest_send m c 6)) $$ [HcS6 HO Hat7]
  · isplitr; · iexact HI7
    isplitl [HcS6]; · iexact HcS6
    isplitl [HO]; · iexact HO
    iexact Hat7
  iintro ⟨HO, Hat7, -, Hxr6⟩
  iapply (step_wait m c (recvS 6) (K (c, recvIx 6)) 0 (recvPay m c 6) NO (src := srcR c 6) (dst := dstV c 6) rfl (expect_recv m c 6) (rest_recv m c 6)) $$ [Hcr6 HO Hat15]
  · isplitr; · iexact HI15
    isplitl [Hcr6]; · iexact Hcr6
    isplitl [HO]; · iexact HO
    iexact Hat15
  iintro ⟨HO, Hat15, -, Hg6⟩
  iapply (step_wait m c (sendS 7) (K (c, sendIx 7)) 0 (sendPay m c 7) NO (src := dstV c 7) (dst := srcR c 7) rfl (expect_send m c 7) (rest_send m c 7)) $$ [HcS7 HO Hat8]
  · isplitr; · iexact HI8
    isplitl [HcS7]; · iexact HcS7
    isplitl [HO]; · iexact HO
    iexact Hat8
  iintro ⟨HO, Hat8, -, Hxr7⟩
  iapply (step_wait m c (recvS 7) (K (c, recvIx 7)) 0 (recvPay m c 7) NO (src := srcR c 7) (dst := dstV c 7) rfl (expect_recv m c 7) (rest_recv m c 7)) $$ [Hcr7 HO Hat16]
  · isplitr; · iexact HI16
    isplitl [Hcr7]; · iexact Hcr7
    isplitl [HO]; · iexact HO
    iexact Hat16
  iintro ⟨HO, Hat16, -, Hg7⟩
  unfold sendPay at *
  unfold recvPay at *
  -- THE TWENTY OWN CELLS CLOSE: their counters at zero are the core's again
  imod (step_close m c (sendS 0) (K (c, sendIx 0)) 1 (later_send m c 0)) $$ [Hat1] with Hz1
  · isplitr; · iexact HI1
    iexact Hat1
  imod (step_close m c (sendS 1) (K (c, sendIx 1)) 1 (later_send m c 1)) $$ [Hat2] with Hz2
  · isplitr; · iexact HI2
    iexact Hat2
  imod (step_close m c (sendS 2) (K (c, sendIx 2)) 1 (later_send m c 2)) $$ [Hat3] with Hz3
  · isplitr; · iexact HI3
    iexact Hat3
  imod (step_close m c (sendS 3) (K (c, sendIx 3)) 1 (later_send m c 3)) $$ [Hat4] with Hz4
  · isplitr; · iexact HI4
    iexact Hat4
  imod (step_close m c (sendS 4) (K (c, sendIx 4)) 1 (later_send m c 4)) $$ [Hat5] with Hz5
  · isplitr; · iexact HI5
    iexact Hat5
  imod (step_close m c (sendS 5) (K (c, sendIx 5)) 1 (later_send m c 5)) $$ [Hat6] with Hz6
  · isplitr; · iexact HI6
    iexact Hat6
  imod (step_close m c (sendS 6) (K (c, sendIx 6)) 1 (later_send m c 6)) $$ [Hat7] with Hz7
  · isplitr; · iexact HI7
    iexact Hat7
  imod (step_close m c (sendS 7) (K (c, sendIx 7)) 1 (later_send m c 7)) $$ [Hat8] with Hz8
  · isplitr; · iexact HI8
    iexact Hat8
  imod (step_close m c (recvS 0) (K (c, recvIx 0)) 1 (later_recv m c 0)) $$ [Hat9] with Hz9
  · isplitr; · iexact HI9
    iexact Hat9
  imod (step_close m c (recvS 1) (K (c, recvIx 1)) 1 (later_recv m c 1)) $$ [Hat10] with Hz10
  · isplitr; · iexact HI10
    iexact Hat10
  imod (step_close m c (recvS 2) (K (c, recvIx 2)) 1 (later_recv m c 2)) $$ [Hat11] with Hz11
  · isplitr; · iexact HI11
    iexact Hat11
  imod (step_close m c (recvS 3) (K (c, recvIx 3)) 1 (later_recv m c 3)) $$ [Hat12] with Hz12
  · isplitr; · iexact HI12
    iexact Hat12
  imod (step_close m c (recvS 4) (K (c, recvIx 4)) 1 (later_recv m c 4)) $$ [Hat13] with Hz13
  · isplitr; · iexact HI13
    iexact Hat13
  imod (step_close m c (recvS 5) (K (c, recvIx 5)) 1 (later_recv m c 5)) $$ [Hat14] with Hz14
  · isplitr; · iexact HI14
    iexact Hat14
  imod (step_close m c (recvS 6) (K (c, recvIx 6)) 1 (later_recv m c 6)) $$ [Hat15] with Hz15
  · isplitr; · iexact HI15
    iexact Hat15
  imod (step_close m c (recvS 7) (K (c, recvIx 7)) 1 (later_recv m c 7)) $$ [Hat16] with Hz16
  · isplitr; · iexact HI16
    iexact Hat16
  imod (step_close m c (inS 0) (K (c, inIx 0)) 4 (later_in m c 0)) $$ [Hat17] with Hz17
  · isplitr; · iexact HI17
    iexact Hat17
  imod (step_close m c (inS 1) (K (c, inIx 1)) 4 (later_in m c 1)) $$ [Hat18] with Hz18
  · isplitr; · iexact HI18
    iexact Hat18
  imod (step_close m c (outS 0) (K (c, outIx 0)) 4 (later_out m c 0)) $$ [Hat19] with Hz19
  · isplitr; · iexact HI19
    iexact Hat19
  imod (step_close m c (outS 1) (K (c, outIx 1)) 4 (later_out m c 1)) $$ [Hat20] with Hz20
  · isplitr; · iexact HI20
    iexact Hat20
  -- the return: the buffers rejoined
  rw [wp_ret]; imodintro
  iapply Hk
  unfold bodyPost Φ₁ Dat.owesAt Pipeline.owesWithin
  rw [show (dats m 0 c).owed t₀.succ = 0 from rfl, bigSep_fin20]
  icases HO with ⟨%Wf, HO⟩
  isplitr [HO]
  · isplitl [Hxr0 Hxr1 Hxr2 Hxr3 Hxr4 Hxr5 Hxr6 Hxr7 Hxl0 Hxl1 Hxl2 Hxl3 Hxl4 Hxl5 Hxl6 Hxl7]
    · iapply (Entails.of_eq (x_split8 (F := F) c (X m c)).symm)
      isplitl [Hxr0 Hxr1 Hxr2 Hxr3 Hxr4 Hxr5 Hxr6 Hxr7]
      · isplitl [Hxr0]; · iexact Hxr0
        isplitl [Hxr1]; · iexact Hxr1
        isplitl [Hxr2]; · iexact Hxr2
        isplitl [Hxr3]; · iexact Hxr3
        isplitl [Hxr4]; · iexact Hxr4
        isplitl [Hxr5]; · iexact Hxr5
        isplitl [Hxr6]; · iexact Hxr6
        iexact Hxr7
      · isplitl [Hxl0]; · iexact Hxl0
        isplitl [Hxl1]; · iexact Hxl1
        isplitl [Hxl2]; · iexact Hxl2
        isplitl [Hxl3]; · iexact Hxl3
        isplitl [Hxl4]; · iexact Hxl4
        isplitl [Hxl5]; · iexact Hxl5
        isplitl [Hxl6]; · iexact Hxl6
        iexact Hxl7
    isplitl [Hf0 Hf1 Hf2 Hf3 Hf4 Hf5 Hf6 Hf7 Hg0 Hg1 Hg2 Hg3 Hg4 Hg5 Hg6 Hg7]
    · iapply (Entails.of_eq (out_split8 (F := F) c (Rfin m c)).symm)
      isplitl [Hf0 Hf1 Hf2 Hf3 Hf4 Hf5 Hf6 Hf7]
      · isplitl [Hf0]; · iexact Hf0
        isplitl [Hf1]; · iexact Hf1
        isplitl [Hf2]; · iexact Hf2
        isplitl [Hf3]; · iexact Hf3
        isplitl [Hf4]; · iexact Hf4
        isplitl [Hf5]; · iexact Hf5
        isplitl [Hf6]; · iexact Hf6
        iexact Hf7
      · isplitl [Hg0]; · iexact Hg0
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        iexact Hg7
    isplitl [HS0 HS1]
    · iapply (stg_join (F := F) c _ _)
      isplitl [HS0]; · iexact HS0
      iexact HS1
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    iexact Hz20
  · iexists Wf
    isplitr; · ipureintro; exact fun _ _ => Or.inl trivial
    iexact HO

/-- The library's body obligation on device `c`: at the one point, from the invariant before it to the invariant after it. -/
theorem body_obligation (c : Dev nD) : BodyObligation (dats (F := F) m 0 c) (defs₀ (F := F)) 𝒱₀ () Set.univ := fun t => by
  rw [fin_N t]
  rw [show (Finset.univ : Finset (Fin cfg0.W)) = ∅ from rfl, bigSep_empty, bigSep_empty]
  show iprop(Φ₀ m c ∗ (dats m 0 c).owesAt () t₀.castSucc ∗ emp)
    ⊢ wp frame (wpE (defs₀ (F := F)) 𝒱₀ c none) Set.univ
      (cc0_body (Memref.whole main_arg0) (Memref.isWhole_whole _) (Memref.whole main_v1) (Memref.isWhole_whole _)
        (Memref.whole cc0_scratch0) (Memref.isWhole_whole _) cc0_scratch1 cc0_scratch2 cc0_scratch3 cc0_scratch4)
      (fun _ => iprop(Φ₁ m c ∗ (dats m 0 c).owesAt () t₀.succ ∗ emp))
  unfold Φ₀ start
  iintro ⟨⟨⟨⟨%K, Hg⟩, Hcr, #Hlev, Hx, Ho⟩, Hscr⟩, Howes, -⟩
  iapply (sound_body m K c fun _ => iprop(Φ₁ m c ∗ (dats m 0 c).owesAt () t₀.succ ∗ emp))
  unfold bodyPre bodyPost
  isplitr []
  · isplitl [Hg]; · iexact Hg
    isplitl [Hcr]; · iexact Hcr
    isplitr; · iexact Hlev
    isplitl [Hx]; · iexact Hx
    isplitl [Ho]; · iexact Ho
    isplitl [Hscr]; · iexact Hscr
    iexact Howes
  · iintro ⟨H1, H2⟩
    isplitl [H1]; · iexact H1
    isplitl [H2]; · iexact H2
    iempintro

end Run

end Cert.KernelIdeal.A2a

end
-- ==== Proof.KernelIdealLaunch.lean ====
/-
  The launch: every device's cells allocated under one update (a device pays duties of its partner's cells, so the
  invariants are shared), the tokens of the partner's barrier and receive duties dealt across the pairing, the launch
  credit read off what the partner owes, and the run of @main on all thirty-two devices: every weakly fair execution
  terminates, each device's result array ends at the final contents and its input block as it was.
-/
import proofs.«900652_g7700000000000653_dist_a2a_v7x_xyz2x4x4_x_m8192_n1024_f32_1_alg».proof.Proof.KernelIdealTables
import proofs.«900652_g7700000000000653_dist_a2a_v7x_xyz2x4x4_x_m8192_n1024_f32_1_alg».proof.Proof.Gen.KernelIdeal.Frame

set_option maxRecDepth 65536

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the cells and tokens minted at launch -/

/-- The twenty DMA semaphores are the kernel's own (scoped); the barrier semaphore is the runtime's. -/
abbrev osem : Fin 20 → SemLoc sig := fun j => csem j.succ

theorem ownSemFacts : Pipeline.OwnSemFacts cfg0.spec osem := by decide

theorem csem_injective : Function.Injective (csem : Fin 21 → SemLoc sig) := by decide

theorem kcell_injective : Function.Injective (kcell : Dev nD × Fin 21 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duties of a device's own cells: the barrier's one, the eight receive and eight send duties, and the in and out
    cells' four rounds each. -/
abbrev TokIx : Type := Unit ⊕ Fin 8 ⊕ Fin 8 ⊕ (Fin 2 × Fin 4) ⊕ (Fin 2 × Fin 4)

def tokOf (ct : Dev nD × TokIx) : GSem nD τ sig × ℕ × Unit := match ct.2 with
  | .inl _ => (barCell ct.1, 0, ())
  | .inr (.inl k) => (recvCell ct.1 k, 0, ())
  | .inr (.inr (.inl k)) => (sendCell ct.1 k, 0, ())
  | .inr (.inr (.inr (.inl sr))) => (inCell ct.1 sr.1, sr.2.val, ())
  | .inr (.inr (.inr (.inr sr))) => (outCell ct.1 sr.1, sr.2.val, ())

/-- A duty's semaphore's pool index (the barrier's: 100) and round: they tell the duties of one device apart. -/
def tokCode : TokIx → ℕ × ℕ
  | .inl _ => (100, 0)
  | .inr (.inl k) => (8 + k.val, 0)
  | .inr (.inr (.inl k)) => (k.val, 0)
  | .inr (.inr (.inr (.inl sr))) => (16 + sr.1.val, sr.2.val)
  | .inr (.inr (.inr (.inr sr))) => (18 + sr.1.val, sr.2.val)
theorem tokCode_injective : Function.Injective tokCode := by decide

def semIdx : SemLoc sig → ℕ
  | .reg _ => 100
  | .dma q => q.val

theorem tokOf_code (c : Dev nD) (t : TokIx) : (semIdx (tokOf (c, t)).1.2, (tokOf (c, t)).2.1) = tokCode t := by
  rcases t with _ | k | k | sr | sr
  · rfl
  · show (semIdx (.dma (recvS k)), 0) = _; simp only [semIdx, recvS_val, tokCode]
  · show (semIdx (.dma (sendS k)), 0) = _; simp only [semIdx, sendS_val, tokCode]
  · show (semIdx (.dma (inS sr.1)), sr.2.val) = _; simp only [semIdx, inS_val, tokCode]
  · show (semIdx (.dma (outS sr.1)), sr.2.val) = _; simp only [semIdx, outS_val, tokCode]

theorem tokOf_dev (c : Dev nD) (t : TokIx) : (tokOf (c, t)).1.1.1 = c := by
  rcases t with _ | k | k | sr | sr <;> rfl

theorem tokOf_injective : Function.Injective (tokOf : Dev nD × TokIx → GSem nD τ sig × ℕ × Unit) := by
  rintro ⟨c, t⟩ ⟨c', t'⟩ h
  have h1 : c = c' := by
    have := congrArg (fun x : GSem nD τ sig × ℕ × Unit => x.1.1.1) h
    simpa only [tokOf_dev] using this
  subst h1
  have h2 : tokCode t = tokCode t' := by
    rw [← tokOf_code c t, ← tokOf_code c t', h]
  rw [tokCode_injective h2]
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 ()
    ∗ (bigSep Finset.univ fun k : Fin 8 => dutyTok ER (recvCell c k) 0 ())
    ∗ (bigSep Finset.univ fun k : Fin 8 => dutyTok ER (sendCell c k) 0 ())
    ∗ (bigSep Finset.univ fun sr : Fin 2 × Fin 4 => dutyTok ER (inCell c sr.1) sr.2.val ())
    ∗ (bigSep Finset.univ fun sr : Fin 2 × Fin 4 => dutyTok ER (outCell c sr.1) sr.2.val ()))

/-- What the launch element deals device `c` (the theorem's `G`). -/
def G (c : Dev nD) : sProp 𝕄 :=
  iprop((bigSep Finset.univ fun j : Fin 21 => roundState ER (rd m) (kcell (c, j)) 0)
    ∗ (bigSep Finset.univ fun j : Fin 21 => iprop(atPos ER (kcell (c, j)) 0 ∅ 0 ∗ reached ER (kcell (c, j)) 0)) ∗ toks c)

/-- What the global step makes of it (`G'`). -/
def G' (c : Dev nD) : sProp 𝕄 := iprop(∃ K, ghost m K c)

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : Fin 21 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum, bigSep_univ_sum, bigSep_univ_sum, bigSep_univ_of_subsingleton ()]
      rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The twenty own semaphores and the barrier semaphore, at zero: the twenty-one cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 21 => semVal (kcell (c, j)) 0 : sProp 𝕄) := by
  rw [unscopedSems0_eq, bigSep_fin21]
  unfold Pipeline.ownSems0
  rw [bigSep_fin20]
  iintro ⟨⟨H1, H2, H3, H4, H5, H6, H7, H8, H9, H10, H11, H12, H13, H14, H15, H16, H17, H18, H19, H20⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (rd m) κ (kcell (c, j))))
          ∗ (bigSep Finset.univ fun j : Fin 21 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 21 => semVal (kcell (c, j)) 0) ∗ bigSep Finset.univ fun j : Fin 21 => roundState ER (rd m) (kcell (c, j)) 0)
      ⊢ (|={Set.univ}=> bigSep Finset.univ fun j => iprop(∃ κ : ℕ, cellInv ER (rd m) κ (kcell (c, j))) : sProp 𝕄) from by
        rw [← bigSep_sep']
        exact (bigSep_mono fun j _ => (Rounds.body_intro ER (rd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 21 → ℕ) : sProp 𝕄 :=
  iprop((bigSep Finset.univ fun cj : Dev nD × Fin 21 => cellInv ER (rd m) (K cj) (kcell cj))
    ∗ bigSep Finset.univ fun cj : Dev nD × Fin 21 => reached ER (kcell cj) 0)

instance records_persistent (K : Dev nD × Fin 21 → ℕ) : BI.Persistent (records m K) := by unfold records; infer_instance

omit [FloatOps F] in
theorem inv_at (K : Dev nD × Fin 21 → ℕ) (cj : Dev nD × Fin 21) :
    (bigSep Finset.univ fun cj : Dev nD × Fin 21 => (cellInv ER (rd m) (K cj) (kcell cj) : sProp 𝕄)) ⊢ cellInv ER (rd m) (K cj) (kcell cj) :=
  bigSep_elim (Finset.mem_univ cj)
omit [FloatOps F] in
theorem reached_at (cj : Dev nD × Fin 21) :
    (bigSep Finset.univ fun cj : Dev nD × Fin 21 => (reached ER (kcell cj) 0 : sProp 𝕄)) ⊢ reached ER (kcell cj) 0 :=
  bigSep_elim (Finset.mem_univ cj)

/-- What stays with device `c`: its positions, and the tokens of the duties IT pays. -/
def linear (c : Dev nD) : sProp 𝕄 := iprop(poss c ∗ payToks c)

omit [FloatOps F] in
theorem ghost_intro (K : Dev nD × Fin 21 → ℕ) (c : Dev nD) : iprop(records m K ∗ linear c) ⊢ G' m c := by
  unfold records linear G' ghost
  iintro ⟨⟨#HI, #HR⟩, Hpos, Htok⟩
  iexists K
  isplitr
  · unfold invs
    isplitr
    · iapply (BI.bigSep_intro_persistent (R := (bigSep Finset.univ fun cj : Dev nD × Fin 21 => (cellInv ER (rd m) (K cj) (kcell cj) : sProp 𝕄)))
        fun j _ => inv_at m K (c, j))
      iexact HI
    isplitr; · iapply (inv_at m K (peer c, 0)); iexact HI
    iapply (BI.bigSep_intro_persistent (R := (bigSep Finset.univ fun cj : Dev nD × Fin 21 => (cellInv ER (rd m) (K cj) (kcell cj) : sProp 𝕄)))
      fun k _ => (inv_at m K (peer c, recvIx k)).trans (Entails.of_eq (by rw [kcell_recv])))
    iexact HI
  isplitl [Hpos]; · iexact Hpos
  isplitr
  · unfold marks
    isplitr
    · iapply (BI.bigSep_intro_persistent (R := (bigSep Finset.univ fun cj : Dev nD × Fin 21 => (reached ER (kcell cj) 0 : sProp 𝕄)))
        fun j _ => reached_at (F := F) (c, j))
      iexact HR
    isplitr; · iapply (reached_at (F := F) (peer c, 0)); iexact HR
    iapply (BI.bigSep_intro_persistent (R := (bigSep Finset.univ fun cj : Dev nD × Fin 21 => (reached ER (kcell cj) 0 : sProp 𝕄)))
      fun k _ => (reached_at (F := F) (peer c, recvIx k)).trans (Entails.of_eq (by rw [kcell_recv])))
    iexact HR
  iexact Htok

omit [FloatOps F] in
/-- The tokens dealt across the pairing: a device's barrier token and receive tokens go to its partner, who pays those duties. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv peerEquiv (fun c : Dev nD => (dutyTok ER (barCell c) 0 () : sProp 𝕄)),
    bigSep_univ_equiv peerEquiv (fun c : Dev nD => (bigSep Finset.univ fun k : Fin 8 => dutyTok ER (recvCell c k) 0 () : sProp 𝕄))]
  exact BI.Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun j => iprop(∃ κ : ℕ, cellInv ER (rd m) κ (kcell (c, j))))
          ∗ (bigSep Finset.univ fun j : Fin 21 => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun cj : Dev nD × Fin 21 => iprop(∃ κ : ℕ, cellInv ER (rd m) κ (kcell cj))),
    bigSep_congr (s := Finset.univ) (fun (c : Dev nD) _ => bigSep_sep' Finset.univ (fun j : Fin 21 => (atPos ER (kcell (c, j)) 0 ∅ 0 : sProp 𝕄)) (fun j => reached ER (kcell (c, j)) 0)),
    bigSep_sep', ← bigSep_univ_prod (fun cj : Dev nD × Fin 21 => (reached ER (kcell cj) 0 : sProp 𝕄))]
  iintro ⟨HI, ⟨Hat, #HR⟩, Htok⟩
  ihave HK := (BI.bigSep_exists_pi Finset.univ (fun (cj : Dev nD × Fin 21) (κ : ℕ) => (cellInv ER (rd m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 21 => (atPos ER (kcell (c, j)) 0 ∅ 0 : sProp 𝕄)) payToks).symm).trans
      (bigSep_mono fun c _ => show _ ⊢ linear c from Entails.of_eq (by unfold linear poss; rfl)))
    isplitl [Hat]; · iexact Hat
    iexact Htk

omit [FloatOps F] in
/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, #Hlev, Hcr, -, HG⟩
  ihave Hc := (creds_of_launch (F := F) c) $$ Hcr
  imodintro
  unfold start G' X
  isplitl
  · isplitl [HG]; · iexact HG
    isplitl [Hc]; · iexact Hc
    isplitr; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

/-- What a device keeps after the region: its input block and its result array. -/
def Yc (c : Dev nD) : sProp 𝕄 :=
  iprop((((c : Thread nD τ).loc main_arg0) ↦{fullShare} X m c) ∗ (((c : Thread nD τ).loc main_v1) ↦{fullShare} Rfin m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc Pipeline.ownSems0
  iintro ⟨Hx, Ho, Hr, Hz⟩
  isplitl [Hx Ho]
  · isplitl [Hx] <;> iassumption
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t => w.elim0

/-! ## The run -/

set_option maxRecDepth 65536 in
/-- At the compiled mesh of thirty-two devices, for any float values, from any memory with zero counters: every weakly fair
    execution of @main — the sixteen pairs handshaking on the barrier semaphore, exchanging their column halves, each
    moving its own half through its stage — terminates, nothing faults, and in every final state each device's result array
    holds the final contents and its input block what it held. -/
theorem run_main (hbody : ∀ c : Dev nD, BodyObligation (dats (F := F) m 0 c) (defs₀ (F := F)) 𝒱₀ () Set.univ) :
    θ_run defs (onTc (τ := τ) (main (F := F))) ⟨m, fun _ => 0, ρ⟩
    (fun r => ∀ c : Dev nD, r.2.mem ((c : Thread nD τ).loc main_v1) = Rfin m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = Rfin m c ∧ s.mem ((c : Thread nD τ).loc main_arg0) = X m c)
    (hY := fun c s' => by
      unfold Yc
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.A2a.run_main' depends on axioms: [propext, Classical.choice, Quot.sound] -/
#guard_msgs in #print axioms run_main

end Cert.KernelIdeal.A2a

end
-- ==== Proof.KernelIdealMain.lean ====
/-
  The run of @main on the thirty-two devices, the body obligation discharged: every weakly fair execution terminates, nothing
  faults, each device's result array ends at the final contents and its input block as it was.
-/
import proofs.«900652_g7700000000000653_dist_a2a_v7x_xyz2x4x4_x_m8192_n1024_f32_1_alg».proof.Proof.KernelIdealRun
import proofs.«900652_g7700000000000653_dist_a2a_v7x_xyz2x4x4_x_m8192_n1024_f32_1_alg».proof.Proof.KernelIdealLaunch

noncomputable section

namespace Cert.KernelIdeal.A2a

open Cert.KernelIdeal Cert.KernelIdeal.Gen
open Idealize.ShloMosaic Idealize.ShloMosaic.TcCoe Idealize.SL.Sem

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩
      (fun r => ∀ c : Dev nD, r.2.mem ((c : Thread nD τ).loc main_v1) = Rfin m c
        ∧ r.2.mem ((c : Thread nD τ).loc main_arg0) = m ((c : Thread nD τ).loc main_arg0)) :=
  run_main m ρ (body_obligation m)

/-- info: 'Cert.KernelIdeal.A2a.run' depends on axioms: [propext, Classical.choice, Quot.sound] -/
#guard_msgs in #print axioms run

end Cert.KernelIdeal.A2a

end
-- ==== Proof.A2aValue.lean ====
/-
  The value: on device `c` the final contents are block `x(c)` of the columns of the whole array — entry (r, j) is the whole
  array's entry (r, 1024·x(c) + j) — given that every device's input block is block `x` of the rows of the whole array.
  And the reference, which returns its argument: it runs, and its argument is its result.
-/
import proofs.«900652_g7700000000000653_dist_a2a_v7x_xyz2x4x4_x_m8192_n1024_f32_1_alg».proof.Proof.KernelIdealSched
import proofs.«900652_g7700000000000653_dist_a2a_v7x_xyz2x4x4_x_m8192_n1024_f32_1_alg».proof.Proof.Gen.ReferenceIdeal
import Idealize.ShloMosaic.Lib.StableHlo.Run
import Idealize.ShloMosaic.Lib.Layout

noncomputable section

namespace Cert.KernelIdeal.A2a

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- A device's coordinate on mesh axis x, as the claim's layout computes it. -/
theorem meshLin_x (d : ℕ) : Layout.meshLin [2, 4, 4] d [0] = (d / 16) % 2 := by
  simp [Layout.meshLin, Layout.meshCoord, Layout.cutSize]

theorem colDev_half (c : Dev nD) (h : ℕ) : (colDev c h).val / 16 % 2 = h % 2 := by
  have := c.isLt
  show (16 * (h % 2) + c.val % 16) / 16 % 2 = h % 2
  omega

/-- If every device's input block is its row block of the whole array `A`, the final contents on device `c` are its column
    block of `A`. -/
theorem Rfin_block (A : (⟨2, ![16384, 2048]⟩ : Shape).Idx → Elt F .f32)
    (hagree : ∀ d : Dev nD, m ((d.tc : Thread nD τ).loc main_arg0)
      = Layout.blockN ⟨2, ![8192, 2048]⟩ ⟨2, ![16384, 2048]⟩ (Layout.meshBlock [2, 4, 4] ![[0], []] d) A) (c : Dev nD) :
    Rfin m c = Layout.blockN ⟨2, ![16384, 1024]⟩ ⟨2, ![16384, 2048]⟩ (Layout.meshBlock [2, 4, 4] ![[], [0]] c) A := by
  funext i
  have hi0 : (i 0 : ℕ) < 16384 := (i 0).isLt
  have hi1 : (i 1 : ℕ) < 1024 := (i 1).isLt
  have hc : c.val < 32 := c.isLt
  unfold Rfin X
  rw [show m (((colDev c ((i 0 : ℕ) / 8192) : Dev nD) : Thread nD τ).loc main_arg0) = _ from hagree _,
    Layout.blockN_apply, Layout.blockN_apply]
  congr 1
  funext b
  apply Fin.ext
  rw [Layout.TilesN.idx_val, Layout.TilesN.idx_val]
  fin_cases b
  · show Layout.meshLin [2, 4, 4] (colDev c ((i 0 : ℕ) / 8192)).val [0] * 8192 + (i 0 : ℕ) % 8192
        = Layout.meshLin [2, 4, 4] c.val [] * 16384 + (i 0 : ℕ)
    rw [meshLin_x, colDev_half]
    show ((i 0 : ℕ) / 8192) % 2 * 8192 + (i 0 : ℕ) % 8192 = 0 * 16384 + (i 0 : ℕ)
    omega
  · show Layout.meshLin [2, 4, 4] (colDev c ((i 0 : ℕ) / 8192)).val [] * 2048 + (1024 * (c.val / 16) + (i 1 : ℕ)) % 2048
        = Layout.meshLin [2, 4, 4] c.val [0] * 1024 + (i 1 : ℕ)
    rw [meshLin_x]
    show 0 * 2048 + (1024 * (c.val / 16) + (i 1 : ℕ)) % 2048 = c.val / 16 % 2 * 1024 + (i 1 : ℕ)
    omega

end Cert.KernelIdeal.A2a

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main has no operation: it returns its argument. -/
abbrev ops : List (HloOp τ sig (Elt F)) := []

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the reference's @main terminates with its argument, which
    is its result, unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans rfl)
    (run_seq scopedRefs_eq scopedSems_eq defs main (fun _ => ops) main_eq (fun _ => trivial) m ρ)

end Cert.ReferenceIdeal.RefRun

end
-- ==== Proof.lean ====
/- The proof of `Cert.Claim`: the exchange of column halves across mesh axis x, on thirty-two devices, against the identity.

   Both printed kernels (the word-level one and its idealization: the ideal pass rewrote nothing, so `preserves` is `True`) are
   pure data movement, and one run serves every conjunct about them: every weakly fair execution of @main terminates, nothing
   faults, each device's input block ends as it was, and its result array ends holding, at (r, j), entry (r mod 8192,
   1024·x + j) of the input block of the device of its (y, z) column that holds row half r / 8192.  The frames are that run with
   the result dropped.  For the algebraic conjunct: given that every device's input block is block x of the rows of the
   reference's array, that result is block x of the columns of the same array — which the reference, returning its argument,
   ends holding. -/
import proofs.«900652_g7700000000000653_dist_a2a_v7x_xyz2x4x4_x_m8192_n1024_f32_1_alg».proof.Defs
import proofs.«900652_g7700000000000653_dist_a2a_v7x_xyz2x4x4_x_m8192_n1024_f32_1_alg».proof.Proof.Gen.Kernel
import proofs.«900652_g7700000000000653_dist_a2a_v7x_xyz2x4x4_x_m8192_n1024_f32_1_alg».proof.Proof.Gen.KernelIdeal
import proofs.«900652_g7700000000000653_dist_a2a_v7x_xyz2x4x4_x_m8192_n1024_f32_1_alg».proof.Proof.Gen.ReferenceIdeal
import proofs.«900652_g7700000000000653_dist_a2a_v7x_xyz2x4x4_x_m8192_n1024_f32_1_alg».proof.Proof.Gen.Pre_finite_inputs_Kernel
import proofs.«900652_g7700000000000653_dist_a2a_v7x_xyz2x4x4_x_m8192_n1024_f32_1_alg».proof.Proof.Gen.Pre_finite_inputs_ReferenceIdeal
import proofs.«900652_g7700000000000653_dist_a2a_v7x_xyz2x4x4_x_m8192_n1024_f32_1_alg».proof.Proof.KernelMain
import proofs.«900652_g7700000000000653_dist_a2a_v7x_xyz2x4x4_x_m8192_n1024_f32_1_alg».proof.Proof.KernelIdealMain
import proofs.«900652_g7700000000000653_dist_a2a_v7x_xyz2x4x4_x_m8192_n1024_f32_1_alg».proof.Proof.A2aValue
import Idealize.ShloMosaic.Adequacy
import Idealize.ShloMosaic.Init

noncomputable section

namespace Cert.Proof

open Idealize.ShloMosaic Idealize.SL.Sem

/-- The word-level kernel runs and leaves its input blocks as they were: its run, the result dropped. -/
theorem frame_k : Cert.frame_Kernel := fun m ρ _ =>
  (θ_run Cert.Kernel.defs _ _).mono (fun _ h c => (h c).2) (Cert.Kernel.A2a.run (F := Bits) m ρ)

/-- So does its idealization. -/
theorem frame_ki : Cert.frame_KernelIdeal := fun m ρ _ =>
  (θ_run Cert.KernelIdeal.defs _ _).mono (fun _ h c => (h c).2) (Cert.KernelIdeal.A2a.run (F := Ideal) m ρ)

/-- The reference runs and leaves its argument as it was. -/
theorem frame_ri : Cert.frame_ReferenceIdeal := fun m ρ _ =>
  (θ_run Cert.ReferenceIdeal.defs _ _).mono (fun _ h c => h c) (Cert.ReferenceIdeal.RefRun.run (F := Ideal) m ρ)

/-- From memories where every device's input block is its row block of the reference's array: the reference ends holding that
    array, and every device's result array its column block of it. -/
theorem algebraic : Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun _ h c => ⟨(h c).1.trans (Cert.KernelIdeal.A2a.Rfin_block (F := Ideal) m _ hagree c), (h c).2⟩)
      (Cert.KernelIdeal.A2a.run (F := Ideal) m ρ)
  · exact (θ_run Cert.ReferenceIdeal.defs _ _).mono (fun _ h => ⟨h 0, h 0⟩) (Cert.ReferenceIdeal.RefRun.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
